-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S16384x16384 : Shape := ⟨2, ![16384, 16384]⟩
abbrev S8x128x128 : Shape := ⟨3, ![8, 128, 128]⟩
abbrev S16x128 : Shape := ⟨2, ![16, 128]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384 32) (main_v32 : IVec S_ 1) (main_c_12 : IVec S_ 32) : IVec S_ 1 :=
  let main_v33 : IVec S16384 32 := broadcastInDim S16384 ![] bcast_S_S16384 main_c_12
  let main_v34 : IVec S16384 1 := cmpi .slt main_arg1 main_v33
  let main_c_13 : IVec S_ 1 := constantI S_ 1 1#1
  let main_v35 : IVec S_ 1 := (fun x v => Host.reduce IntOp.andi x v reducesTo_S16384_S_d0 h_S_) main_v34 main_c_13
  let main_v36 : IVec S_ 1 := andi main_v32 main_v35
  main_v36

def fn_part1 {F : FTy → Type} [FloatOps F] (main_arg1 : IVec S16384 32) (main_arg5 : FVec F S16x128 .f32) (main_arg6 : FVec F S16 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg1 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v28 main_v31
  let main_c_12 : IVec S_ 32 := constantI S_ 32 8#32
  fn_part2 (F := F) main_arg1 main_v32 main_c_12

def fn {F : FTy → Type} [FloatOps F] (main_arg0 : FVec F S16384x128 .f32) (main_arg1 : IVec S16384 32) (main_arg2 : FVec F S16384x16384 .f32) (main_arg3 : FVec F S8x128x128 .f32) (main_arg4 : FVec F S8x128x128 .f32) (main_arg5 : FVec F S16x128 .f32) (main_arg6 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg2
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128x128 .f32 := Host.absf main_arg4
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg1 main_arg5 main_arg6 main_v13 main_v16
-- ==== Kernel.lean ====
abbrev S16384x128 : Shape := ⟨2, ![16384, 128]⟩
abbrev S16384 : Shape := ⟨1, ![16384]⟩
abbrev S16384x16384 : Shape := ⟨2, ![16384, 16384]⟩
abbrev S8x128x128 : Shape := ⟨3, ![8, 128, 128]⟩
abbrev S16x128 : Shape := ⟨2, ![16, 128]⟩
abbrev S16 : Shape := ⟨1, ![16]⟩
abbrev S16384x1 : Shape := ⟨2, ![16384, 1]⟩
abbrev S128x16 : Shape := ⟨2, ![128, 16]⟩
abbrev S1x16 : Shape := ⟨2, ![1, 16]⟩
abbrev S1024x2048 : Shape := ⟨2, ![1024, 2048]⟩
abbrev S1024x1 : Shape := ⟨2, ![1024, 1]⟩
abbrev S1024x128 : Shape := ⟨2, ![1024, 128]⟩
abbrev S2048x128 : Shape := ⟨2, ![2048, 128]⟩
abbrev S1x128x128 : Shape := ⟨3, ![1, 128, 128]⟩
abbrev S128x128 : Shape := ⟨2, ![128, 128]⟩
abbrev S16384x16 : Shape := ⟨2, ![16384, 16]⟩
abbrev S1024x16 : Shape := ⟨2, ![1024, 16]⟩

abbrev nBuf : Space → Nat
  | .hbm => 18
  | .vmem => 20
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384x16384, .f32⟩
  | .hbm, ⟨3, _⟩ => ⟨S8x128x128, .f32⟩
  | .hbm, ⟨4, _⟩ => ⟨S8x128x128, .f32⟩
  | .hbm, ⟨5, _⟩ => ⟨S16x128, .f32⟩
  | .hbm, ⟨6, _⟩ => ⟨S16, .f32⟩
  | .hbm, ⟨7, _⟩ => ⟨S16384x1, .i32⟩
  | .hbm, ⟨8, _⟩ => ⟨S8x128x128, .f32⟩
  | .hbm, ⟨9, _⟩ => ⟨S8x128x128, .bf16⟩
  | .hbm, ⟨10, _⟩ => ⟨S8x128x128, .f32⟩
  | .hbm, ⟨11, _⟩ => ⟨S8x128x128, .bf16⟩
  | .hbm, ⟨12, _⟩ => ⟨S128x16, .f32⟩
  | .hbm, ⟨13, _⟩ => ⟨S128x16, .bf16⟩
  | .hbm, ⟨14, _⟩ => ⟨S1x16, .f32⟩
  | .hbm, ⟨15, _⟩ => ⟨S16384x128, .bf16⟩
  | .hbm, ⟨16, _⟩ => ⟨S16384x128, .bf16⟩
  | .hbm, ⟨17, _⟩ => ⟨S16384x16, .f32⟩
  | .local _ .vmem, ⟨0, _⟩ => ⟨S1024x2048, .f32⟩
  | .local _ .vmem, ⟨1, _⟩ => ⟨S1024x2048, .f32⟩
  | .local _ .vmem, ⟨2, _⟩ => ⟨S16384x128, .bf16⟩
  | .local _ .vmem, ⟨3, _⟩ => ⟨S1024x1, .i32⟩
  | .local _ .vmem, ⟨4, _⟩ => ⟨S1024x1, .i32⟩
  | .local _ .vmem, ⟨5, _⟩ => ⟨S8x128x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x2048, .f32⟩
  | .local _ .vmem, ⟨10, _⟩ => ⟨S1024x2048, .f32⟩
  | .local _ .vmem, ⟨11, _⟩ => ⟨S16384x128, .bf16⟩
  | .local _ .vmem, ⟨12, _⟩ => ⟨S1024x1, .i32⟩
  | .local _ .vmem, ⟨13, _⟩ => ⟨S1024x1, .i32⟩
  | .local _ .vmem, ⟨14, _⟩ => ⟨S8x128x128, .bf16⟩
  | .local _ .vmem, ⟨15, _⟩ => ⟨S128x16, .bf16⟩
  | .local _ .vmem, ⟨16, _⟩ => ⟨S1x16, .f32⟩
  | .local _ .vmem, ⟨17, _⟩ => ⟨S1024x16, .f32⟩
  | .local _ .vmem, ⟨18, _⟩ => ⟨S1024x16, .f32⟩
  | .local _ .vmem, ⟨19, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S8x128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x16 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S16384_S16384x1 : S16384.ShapeCasts S16384x1
  transposes_S8x128x128_S8x128x128_0_2_1 : S8x128x128.Transposes [0, 2, 1] S8x128x128
  bitsLt_bf16_f32 : FTy.bits .bf16 < FTy.bits .f32
  transposes_S16x128_S128x16_1_0 : S16x128.Transposes [1, 0] S128x16
  shapeCasts_S16_S1x16 : S16.ShapeCasts S1x16
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x128x128_S1x128x128_1_0_0 : ∀ a, (![1, 0, 0] : Fin 3 → Nat) a + S1x128x128.size a ≤ S8x128x128.size a
  inb_S8x128x128_S1x128x128_2_0_0 : ∀ a, (![2, 0, 0] : Fin 3 → Nat) a + S1x128x128.size a ≤ S8x128x128.size a
  inb_S8x128x128_S1x128x128_3_0_0 : ∀ a, (![3, 0, 0] : Fin 3 → Nat) a + S1x128x128.size a ≤ S8x128x128.size a
  inb_S8x128x128_S1x128x128_4_0_0 : ∀ a, (![4, 0, 0] : Fin 3 → Nat) a + S1x128x128.size a ≤ S8x128x128.size a
  inb_S8x128x128_S1x128x128_5_0_0 : ∀ a, (![5, 0, 0] : Fin 3 → Nat) a + S1x128x128.size a ≤ S8x128x128.size a
  inb_S8x128x128_S1x128x128_6_0_0 : ∀ a, (![6, 0, 0] : Fin 3 → Nat) a + S1x128x128.size a ≤ S8x128x128.size a
  inb_S8x128x128_S1x128x128_7_0_0 : ∀ a, (![7, 0, 0] : Fin 3 → Nat) a + S1x128x128.size a ≤ S8x128x128.size a
  packedbf16_S1024x128_S1024x128_0_0 : (Rect.unit (s := S1024x128) ![0, 0] S1024x128.size inb_S1024x128_S1024x128_0_0).PackedRows (EltTy.packing .bf16)
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S1024x16_S1024x16_0_0 : ∀ a, (![0, 0] : Fin 2 → Nat) a + S1024x16.size a ≤ S1024x16.size a
  h_S1024x16 : 0 < S1024x16.numel
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  dot_S1024x128_S128x16_S1024x16_1_0_0_1_n_n_wf : DotDims.WF S1024x128 S128x16 S1024x16 [1] [0] [0] [1] [] []
  hrank0 : 0 < grid0.rank
  k0_mult1_dvd : ∀ i : grid0.Coords, 128 ∣ (k0_mult1 i).toNat
  k0_off1_inb : ∀ i : grid0.Coords, ∀ a, (k0_off1 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128x128.size a ≤ S8x128x128.size a
  hwx0_3 : ∀ i : grid0.Coords, EltTy.bits .bf16 = 32 ∨ (Rect.block (s := S8x128x128) S8x128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .bf16 = 32 ∨ (Rect.block (s := S16384x128) S1024x128.size (cc0_transform_4 i) (hinb0_4 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S2048x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .bf16 = 32 ∨ (Rect.block (s := S16384x128) S16384x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .i32 = 32 ∨ (Rect.block (s := S16384x1) S1024x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128x128.size a ≤ S8x128x128.size a
  hwx1_3 : ∀ i : grid1.Coords, EltTy.bits .bf16 = 32 ∨ (Rect.block (s := S8x128x128) S8x128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .bf16 = 32 ∨ (Rect.block (s := S128x16) S128x16.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x16.size a ≤ S16384x16.size a
  hwx1_6 : ∀ i : grid1.Coords, EltTy.bits .f32 = 32 ∨ (Rect.block (s := S16384x16) S1024x16.size (cc1_transform_6 i) (hinb1_6 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x16_S1024x16_1_0_0_1_n_n : DotDims S1024x128 S128x16 S1024x16 where
  lhsContracting := [1]
  rhsContracting := [0]
  lhsNonContracting := [0]
  rhsNonContracting := [1]
  lhsBatch := []
  rhsBatch := []
  wf := dot_S1024x128_S128x16_S1024x16_1_0_0_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S8x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1024x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S16384x128 : Shape := ⟨2, ![16384, 128]⟩
abbrev S16384 : Shape := ⟨1, ![16384]⟩
abbrev S16384x16384 : Shape := ⟨2, ![16384, 16384]⟩
abbrev S8x128x128 : Shape := ⟨3, ![8, 128, 128]⟩
abbrev S16x128 : Shape := ⟨2, ![16, 128]⟩
abbrev S16 : Shape := ⟨1, ![16]⟩
abbrev S8x128x16384 : Shape := ⟨3, ![8, 128, 16384]⟩
abbrev S8x16384x128 : Shape := ⟨3, ![8, 16384, 128]⟩
abbrev S_ : Shape := ⟨0, ![]⟩
abbrev S16384x1 : Shape := ⟨2, ![16384, 1]⟩
abbrev S16384x2 : Shape := ⟨2, ![16384, 2]⟩
abbrev S128x16 : Shape := ⟨2, ![128, 16]⟩
abbrev S16384x16 : Shape := ⟨2, ![16384, 16]⟩
abbrev S1x16 : Shape := ⟨2, ![1, 16]⟩

abbrev nBuf : Space → Nat
  | .hbm => 62
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384x16384, .f32⟩
  | .hbm, ⟨3, _⟩ => ⟨S8x128x128, .f32⟩
  | .hbm, ⟨4, _⟩ => ⟨S8x128x128, .f32⟩
  | .hbm, ⟨5, _⟩ => ⟨S16x128, .f32⟩
  | .hbm, ⟨6, _⟩ => ⟨S16, .f32⟩
  | .hbm, ⟨7, _⟩ => ⟨S16384x128, .f32⟩
  | .hbm, ⟨8, _⟩ => ⟨S8x128x16384, .f32⟩
  | .hbm, ⟨9, _⟩ => ⟨S8x16384x128, .f32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384x1, .i32⟩
  | .hbm, ⟨27, _⟩ => ⟨S16384x2, .i32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S8x128x16384, .f32⟩
  | .hbm, ⟨34, _⟩ => ⟨S8x16384x128, .f32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x1, .i32⟩
  | .hbm, ⟨52, _⟩ => ⟨S16384x2, .i32⟩
  | .hbm, ⟨53, _⟩ => ⟨S16384x128, .f32⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S128x16, .f32⟩
  | .hbm, ⟨58, _⟩ => ⟨S16384x16, .f32⟩
  | .hbm, ⟨59, _⟩ => ⟨S1x16, .f32⟩
  | .hbm, ⟨60, _⟩ => ⟨S16384x16, .f32⟩
  | .hbm, ⟨61, _⟩ => ⟨S16384x16, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call1_cst : Ref sig .tc := ⟨.hbm, 54, rfl⟩
abbrev main_call1_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  transposes_S8x128x16384_S8x16384x128_0_2_1 : S8x128x16384.Transposes [0, 2, 1] S8x16384x128
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  bcast_S_S16384x128 : S_.BroadcastsInDim S16384x128 (![] : Fin 0 → Fin S16384x128.rank)
  transposes_S16x128_S128x16_1_0 : S16x128.Transposes [1, 0] S128x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x16384_S16384x128_S16384x128_1_0_0_1_n_n_wf : DotDims.WF S16384x16384 S16384x128 S16384x128 [1] [0] [0] [1] [] []
  dot_S8x128x128_S16384x128_S8x128x16384_2_1_01_0_n_n_wf : DotDims.WF S8x128x128 S16384x128 S8x128x16384 [2] [1] [0, 1] [0] [] []
  gather_S8x16384x128_S16384x2_S16384x128_1_01_n_n_01_1_11128_wf : GatherDims.WF S8x16384x128 S16384x2 S16384x128 [1] [0, 1] [] [0, 1] [] 1 ![1, 1, 128]
  dot_S16384x128_S128x16_S16384x16_1_0_0_1_n_n_wf : DotDims.WF S16384x128 S128x16 S16384x16 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S8x128x128_S16384x128_S8x128x16384_2_1_01_0_n_n : DotDims S8x128x128 S16384x128 S8x128x16384 where
  lhsContracting := [2]
  rhsContracting := [1]
  lhsNonContracting := [0, 1]
  rhsNonContracting := [0]
  lhsBatch := []
  rhsBatch := []
  wf := dot_S8x128x128_S16384x128_S8x128x16384_2_1_01_0_n_n_wf
def gather_S8x16384x128_S16384x2_S16384x128_1_01_n_n_01_1_11128 : GatherDims S8x16384x128 S16384x2 S16384x128 where
  offsetDims := [1]
  collapsedSliceDims := [0, 1]
  operandBatchingDims := []
  startIndicesBatchingDims := []
  startIndexMap := [0, 1]
  indexVectorDim := 1
  sliceSizes := ![1, 1, 128]
  wf := gather_S8x16384x128_S16384x2_S16384x128_1_01_n_n_01_1_11128_wf
def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf

class Facts : Prop extends Facts₀ where

variable [Facts]
-- ==== Proof.K.Base.lean ====
/-
  What both layers' kernels share: when the reduction axis is at its first and at its last step (the grid is 16 row
  blocks by 8 column blocks, point t = 8·row + column), where the output window rests, the staging and scratch
  memrefs by name, and the region invariant with the accumulator buffer split off the other scoped buffers.
-/
import proofs.«410506_j65481071397259_3_alg».proof.Proof.Gen.Kernel.Launch
import proofs.«410506_j65481071397259_3_alg».proof.Proof.Gen.Kernel.Skeleton
import proofs.«410506_j65481071397259_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Layer 1: the reduction axis's first and last step -/

/-- The accumulator is reset here: the column-block coordinate is 0. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)
/-- The row block is finished here: the column-block coordinate is 7. -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Before the last step the output window rests: nothing is stored into it and it is not written back. -/
theorem idle0_4 : ∀ t : Fin cfg0.N, ¬last0 (grid0.coords t) → cfg0.idle 4 (grid0.coords t) = true := by decide +kernel
theorem noFlush0_4 : ∀ t : Fin cfg0.N, ¬last0 (grid0.coords t) → (cfg0.win 4).flush t = false := by decide +kernel
theorem live0_4 : ∀ t : Fin cfg0.N, last0 (grid0.coords t) → cfg0.idle 4 (grid0.coords t) = false := by decide +kernel

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
/-- The accumulator: a whole scoped buffer of the kernel's own, carried from step to step. -/
abbrev scM0 : Memref sig .tc .vmem S1024x128 .f32 := Memref.whole cc0_scratch0
abbrev VS0 : View sig .tc .vmem S1024x128 .f32 := scM0.view
/-- One staging buffer of the output window, through which its contents are stated. -/
abbrev VO0 : View sig .tc .vmem S1024x128 .bf16 := (Memref.whole cc0_stg4_0 : Memref sig .tc .vmem S1024x128 .bf16).view

/-- The scoped buffers layer 1 neither stages nor accumulates in, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant yields the accumulator at some contents beside the other scoped buffers and the register, -/
theorem PhiA0_split (c : Dev nD) :
    (Pipeline.ΦA spec0 c : sProp 𝕄)
      ⊢ iprop(iprop((∃ d, owns (c : Thread nD τ) scM0 fullShare d) ∗ rest0 c) ∗ (∃ r, prngReg c r)) := by
  unfold Pipeline.ΦA rest0; rw [scopedRest0_eq]; simp only [scM0, owns_whole]
  iintro ⟨⟨HS, Hr⟩, Hg⟩
  isplitl [HS Hr]
  · isplitl [HS]; · iexact HS
    iexact Hr
  iexact Hg
/-- and is made of them. -/
theorem PhiA0_join (c : Dev nD) :
    (iprop(iprop((∃ d, owns (c : Thread nD τ) scM0 fullShare d) ∗ rest0 c) ∗ (∃ r, prngReg c r)) : sProp 𝕄)
      ⊢ Pipeline.ΦA spec0 c := by
  unfold Pipeline.ΦA rest0; rw [scopedRest0_eq]; simp only [scM0, owns_whole]
  iintro ⟨⟨HS, Hr⟩, Hg⟩
  isplitl [HS Hr]
  · isplitl [HS]; · iexact HS
    iexact Hr
  iexact Hg

/-! ## Layer 2: the same grid -/

abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem idle1_6 : ∀ t : Fin cfg1.N, ¬last1 (grid1.coords t) → cfg1.idle 6 (grid1.coords t) = true := by decide +kernel
theorem noFlush1_6 : ∀ t : Fin cfg1.N, ¬last1 (grid1.coords t) → (cfg1.win 6).flush t = false := by decide +kernel
theorem live1_6 : ∀ t : Fin cfg1.N, last1 (grid1.coords t) → cfg1.idle 6 (grid1.coords t) = false := by decide +kernel

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x16 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x16 .f32 := win1_6.stage (cfg1.slots t 6)
abbrev hs1_6 (t : Fin cfg1.N) : (ms1_6 t).IsWhole := hstage1_6 ((cfg1.slots t 6).cast nbuf1_6)
abbrev scM1 : Memref sig .tc .vmem S1024x128 .f32 := Memref.whole cc1_scratch0
abbrev VS1 : View sig .tc .vmem S1024x128 .f32 := scM1.view
abbrev VO1 : View sig .tc .vmem S1024x16 .f32 := (Memref.whole cc1_stg6_0 : Memref sig .tc .vmem S1024x16 .f32).view

/-- The scoped buffers layer 2 neither stages nor accumulates in (its own accumulator is the list's last and is split off). -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant yields layer 2's accumulator (the last of the scoped buffers) at some contents beside the
    others and the register, -/
theorem PhiA1_split (c : Dev nD) :
    (Pipeline.ΦA spec1 c : sProp 𝕄)
      ⊢ iprop(iprop((∃ d, owns (c : Thread nD τ) scM1 fullShare d) ∗ rest1 c) ∗ (∃ r, prngReg c r)) := by
  unfold Pipeline.ΦA rest1; rw [scopedRest1_eq]; simp only [scM1, owns_whole]
  iintro ⟨⟨H1, H2, H3, H4, H5, H6, H7, H8, H9, HS⟩, Hg⟩
  isplitl [HS H1 H2 H3 H4 H5 H6 H7 H8 H9]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg
/-- and is made of them. -/
theorem PhiA1_join (c : Dev nD) :
    (iprop(iprop((∃ d, owns (c : Thread nD τ) scM1 fullShare d) ∗ rest1 c) ∗ (∃ r, prngReg c r)) : sProp 𝕄)
      ⊢ Pipeline.ΦA spec1 c := by
  unfold Pipeline.ΦA rest1; rw [scopedRest1_eq]; simp only [scM1, owns_whole]
  iintro ⟨⟨HS, H1, H2, H3, H4, H5, H6, H7, H8, H9⟩, Hg⟩
  isplitl [HS H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- The zero offsets of a whole rank-2 buffer, as a function. -/
theorem hz2 : (![0, 0] : Fin (2 : ℕ) → Nat) = fun _ => 0 := by funext a; fin_cases a <;> rfl

/-! ## The windows' blocks -/

section
variable (V : (c : Dev nD) → (b : Ref sig .tc) → Buf (Elt F) ((c : Thread nD τ).loc b))

/-- Layer 1: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Layer 2: the same. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

end Cert.Kernel.Hand

end
-- ==== Proof.K.Run0.lean ====
/-
  Layer 1's kernel body, run symbolically on whole staging memrefs, once per kind of grid point: the first step of a
  row block (the accumulator is cleared, then the step's product of the adjacency block with the matching rows of
  the features is added), a middle step (the product is added to what the step before left), and the last step
  (the same, then the finished aggregate goes through the eight per-type matrices, each row keeps its own type's
  result, negative entries are cut to zero, and the block is stored for writing back).
  What each buffer ends with is found by the run itself, as the list of the pieces stored into it.
-/
import proofs.«410506_j65481071397259_3_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- First step of a row block, not the last: the adjacency block and the features are read and kept, the accumulator
    (at anything before) ends with the pieces `LS` written. -/
noncomputable def kernelRun0_A (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : first0 i) (hc1 : ¬last0 i)
    (x0 : Vec F S1024x2048 .f32) (x1 : Vec F S16384x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc0__conv_kernel_feat i arg2 harg2 arg3 harg3 arg4 harg4 arg5 harg5 arg6 harg6 arg7 harg7) K } := by
  refine ⟨?_, fun E K => ?run⟩
  case run =>
    simp only [cc0__conv_kernel_feat_eq_skeleton]; unfold cc0__conv_kernel_feat_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- A middle step: the accumulator holds `xs` (what the step before left) and ends with the pieces `LS` written. -/
noncomputable def kernelRun0_B (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : ¬last0 i)
    (x0 : Vec F S1024x2048 .f32) (x1 : Vec F S16384x128 .bf16) (xs : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg7 fullShare xs
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc0__conv_kernel_feat i arg2 harg2 arg3 harg3 arg4 harg4 arg5 harg5 arg6 harg6 arg7 harg7) K } := by
  refine ⟨?_, fun E K => ?run⟩
  case run =>
    simp only [cc0__conv_kernel_feat_eq_skeleton]; unfold cc0__conv_kernel_feat_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 8000000 in
/-- The last step of a row block: besides the accumulation, the other operands are read and kept, and the output
    buffer (at anything before) ends with the pieces `LO` written. -/
noncomputable def kernelRun0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) :
    Σ' (LO : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__conv_kernel_feat i arg2 harg2 arg3 harg3 arg4 harg4 arg5 harg5 arg6 harg6 arg7 harg7) K } := by
  refine ⟨?_, ?_, fun E K => ?run⟩
  case run =>
    simp only [cc0__conv_kernel_feat_eq_skeleton]; unfold cc0__conv_kernel_feat_skel
    simp only [k0_part1_eq_skeleton]
    unfold owns
    iintro ⟨⟨%f0, %hf0, H0⟩, ⟨%f1, %hf1, H1⟩, ⟨%f2, %hf2, H2⟩, ⟨%f3, %hf3, H3⟩, ⟨%dO, %fO, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS0

end Cert.Kernel.Hand

end
-- ==== Proof.K.Dat0.lean ====
/-
  Layer 1 as a pipeline's proof data, at the buffer contents `V` the region is entered with: each input window's
  staging buffer holds its block of the array; the accumulator after point t holds the running sum over the row
  block's column steps so far; the output window's buffer holds the finished block at a row block's last step
  and rests elsewhere. The recursion over the points follows the three kinds of point.
-/
import proofs.«410506_j65481071397259_3_alg».proof.Proof.K.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## What each kind of point leaves -/

theorem scover0_A (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : first0 i) (hc1 : ¬last0 i)
    (x0 : Vec F S1024x2048 .f32) (x1 : Vec F S16384x128 .bf16) (y : S1024x128.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x128.size (by sl_kernel_rfl) y
/-- The accumulator after a first step: the run's pieces read back. -/
def sout0_A (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : first0 i) (hc1 : ¬last0 i)
    (x0 : Vec F S1024x2048 .f32) (x1 : Vec F S16384x128 .bf16) : Vec F S1024x128 .f32 :=
  VS0.read (Elt F) (VS0.writes (Elt F) VS0.junk (kernelRun0_A c i arg2 harg2 arg3 harg3 arg4 harg4 arg5 harg5 arg6 harg6 arg7 harg7 hc0 hc1 x0 x1).1)

theorem scover0_B (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : ¬last0 i)
    (x0 : Vec F S1024x2048 .f32) (x1 : Vec F S16384x128 .bf16) (xs : Vec F S1024x128 .f32) (y : S1024x128.Idx) :
    ∃ pc ∈ (kernelRun0_B c i arg2 harg2 arg3 harg3 arg4 harg4 arg5 harg5 arg6 harg6 arg7 harg7 hc0 hc1 x0 x1 xs).1, y ∈ pc.1.set :=
  View.cover_of_tiledL (kernelRun0_B c i arg2 harg2 arg3 harg3 arg4 harg4 arg5 harg5 arg6 harg6 arg7 harg7 hc0 hc1 x0 x1 xs).1 S1024x128.size (by sl_kernel_rfl) y
/-- The accumulator after a middle step. -/
def sout0_B (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : ¬last0 i)
    (x0 : Vec F S1024x2048 .f32) (x1 : Vec F S16384x128 .bf16) (xs : Vec F S1024x128 .f32) : Vec F S1024x128 .f32 :=
  VS0.read (Elt F) (VS0.writes (Elt F) VS0.junk (kernelRun0_B c i arg2 harg2 arg3 harg3 arg4 harg4 arg5 harg5 arg6 harg6 arg7 harg7 hc0 hc1 x0 x1 xs).1)

theorem cover0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) (y : S1024x128.Idx) :
    ∃ pc ∈ (kernelRun0_C c i arg2 harg2 arg3 harg3 arg4 harg4 arg5 harg5 arg6 harg6 arg7 harg7 hc0 hc1 x0 x1 x2 x3 xs).1, y ∈ pc.1.set :=
  View.cover_of_tiledL (kernelRun0_C c i arg2 harg2 arg3 harg3 arg4 harg4 arg5 harg5 arg6 harg6 arg7 harg7 hc0 hc1 x0 x1 x2 x3 xs).1 S1024x128.size (by sl_kernel_rfl) y
/-- The output block a last step stores. -/
def out0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) : Vec F S1024x128 .bf16 :=
  VO0.read (Elt F) (VO0.writes (Elt F) VO0.junk (kernelRun0_C c i arg2 harg2 arg3 harg3 arg4 harg4 arg5 harg5 arg6 harg6 arg7 harg7 hc0 hc1 x0 x1 x2 x3 xs).1)
theorem scover0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) (y : S1024x128.Idx) :
    ∃ pc ∈ (kernelRun0_C c i arg2 harg2 arg3 harg3 arg4 harg4 arg5 harg5 arg6 harg6 arg7 harg7 hc0 hc1 x0 x1 x2 x3 xs).2.1, y ∈ pc.1.set :=
  View.cover_of_tiledL (kernelRun0_C c i arg2 harg2 arg3 harg3 arg4 harg4 arg5 harg5 arg6 harg6 arg7 harg7 hc0 hc1 x0 x1 x2 x3 xs).2.1 S1024x128.size (by sl_kernel_rfl) y
/-- The accumulator after a last step. -/
def sout0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) : Vec F S1024x128 .f32 :=
  VS0.read (Elt F) (VS0.writes (Elt F) VS0.junk (kernelRun0_C c i arg2 harg2 arg3 harg3 arg4 harg4 arg5 harg5 arg6 harg6 arg7 harg7 hc0 hc1 x0 x1 x2 x3 xs).2.1)

section

variable (V : (c : Dev nD) → (b : Ref sig .tc) → Buf (Elt F) ((c : Thread nD τ).loc b))

/-! ## The same at a grid point, on the buffers the pipeline passes there -/

theorem notLast0_of_first {t : Fin cfg0.N} (h0 : t.val % 8 = 0) : ¬last0 (grid0.coords t) :=
  fun h => by have h' := (last0_iff t).mp h; omega

/-- The accumulator after point `t`, a first step. -/
def acc0A (c : Dev nD) (t : Fin cfg0.N) (h0 : t.val % 8 = 0) : Vec F S1024x128 .f32 :=
  sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((first0_iff t).mpr h0) (notLast0_of_first h0) (iblk0 V c 0 t) (iblk0 V c 1 t)
/-- The accumulator after point `t`, a middle step, over what the point before left. -/
def acc0B (c : Dev nD) (t : Fin cfg0.N) (h0 : ¬t.val % 8 = 0) (h1 : ¬t.val % 8 = 7) (xs : Vec F S1024x128 .f32) : Vec F S1024x128 .f32 :=
  sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) (fun h => h1 ((last0_iff t).mp h)) (iblk0 V c 0 t) (iblk0 V c 1 t) xs
/-- The accumulator after point `t`, a last step. -/
def acc0C (c : Dev nD) (t : Fin cfg0.N) (h0 : ¬t.val % 8 = 0) (h1 : t.val % 8 = 7) (xs : Vec F S1024x128 .f32) : Vec F S1024x128 .f32 :=
  sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) ((last0_iff t).mpr h1) (iblk0 V c 0 t) (iblk0 V c 1 t) (iblk0 V c 2 t) (iblk0 V c 3 t) xs
/-- The output block point `t`, a last step, stores. -/
def out0C (c : Dev nD) (t : Fin cfg0.N) (h0 : ¬t.val % 8 = 0) (h1 : t.val % 8 = 7) (xs : Vec F S1024x128 .f32) : Vec F S1024x128 .bf16 :=
  out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) ((last0_iff t).mpr h1) (iblk0 V c 0 t) (iblk0 V c 1 t) (iblk0 V c 2 t) (iblk0 V c 3 t) xs

/-- Contents nothing reads: the output window's buffer at a point that stores nothing into it. -/
def restingOut0 : Vec F S1024x128 .bf16 := VO0.read (Elt F) VO0.junk

/-- What the output window's buffer and the accumulator hold after the body at position `n`: by the kind of point,
    the accumulator over what the point before left. -/
def outsAt0 (c : Dev nD) : (n : ℕ) → n < cfg0.N → Vec F S1024x128 .bf16 × Vec F S1024x128 .f32
  | 0, hn => (restingOut0, acc0A V c ⟨0, hn⟩ (Nat.zero_mod _))
  | n + 1, hn =>
    if h0 : (n + 1) % 8 = 0 then (restingOut0, acc0A V c ⟨n + 1, hn⟩ h0)
    else if h1 : (n + 1) % 8 = 7 then
      (out0C V c ⟨n + 1, hn⟩ h0 h1 (outsAt0 c n (Nat.lt_of_succ_lt hn)).2, acc0C V c ⟨n + 1, hn⟩ h0 h1 (outsAt0 c n (Nat.lt_of_succ_lt hn)).2)
    else (restingOut0, acc0B V c ⟨n + 1, hn⟩ h0 h1 (outsAt0 c n (Nat.lt_of_succ_lt hn)).2)

theorem outsAt0_A (c : Dev nD) (t : Fin cfg0.N) (h0 : t.val % 8 = 0) :
    outsAt0 V c t.val t.isLt = (restingOut0, acc0A V c t h0) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (restingOut0, acc0B V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0C V c t h0 h1 (outsAt0 V c (t.val - 1) (Nat.lt_of_le_of_lt (Nat.sub_le _ _) t.isLt)).2, acc0C V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's (the accumulator at anything); afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Before any point the invariant yields the accumulator at some contents, the other scoped buffers and the register. -/
theorem PhiS0_forget (c : Dev nD) (t : Fin cfg0.N) :
    (dat0 V c).Φ t.castSucc ⊢ (iprop(iprop((∃ d, owns (c : Thread nD τ) scM0 fullShare d) ∗ rest0 c) ∗ (∃ r, prngReg c r)) : sProp 𝕄) := by
  rw [PhiS0_castSucc V c t]
  by_cases hz : t.val = 0
  · rw [PhiS0_zero V c _ _ hz]; exact PhiA0_split c
  · rw [PhiS0_pos V c _ _ hz]
    iintro ⟨⟨HS, Hr⟩, Hg⟩
    isplitl [HS Hr]
    · isplitl [HS]; · iexists _; iexact HS
      iexact Hr
    iexact Hg

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the point's kind selects the run; the invariant
    hands the accumulator at what the point before left (at anything where the run clears it) and takes it back at this
    point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  by_cases h0 : t.val % 8 = 0
  · have hnl : ¬last0 (grid0.coords t) := notLast0_of_first h0
    rw [Dat.leavesExact_idle (dat0 V c) 4 t (idle0_4 t hnl) (noFlush0_4 t hnl)]
    rw [outsAt0_A V c t h0]
    unfold acc0A sout0_A; (try dsimp only)
    iintro ⟨HΦ, Ho, ⟨%d0, H0⟩, ⟨%d1, H1⟩, ⟨%d2, H2⟩, ⟨%d3, H3⟩, ⟨%d4, H4⟩⟩
    ihave HΦ' := (PhiS0_forget V c t) $$ HΦ
    icases HΦ' with ⟨⟨HS0, Hrest⟩, Hg⟩
    iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((first0_iff t).mpr h0) hnl (iblk0 V c 0 t) (iblk0 V c 1 t)).2 Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 8 = 7
    · have hl : last0 (grid0.coords t) := (last0_iff t).mpr h1
      rw [show (dat0 V c).leavesExact 4 t = owns (c : Thread nD τ) (ms0_4 t) fullShare ((dat0 V c).after 4 t) from by
        unfold Dat.leavesExact; rw [live0_4 t hl], after0_4]
      rw [outsAt0_C V c t h0 h1]
      unfold acc0C out0C sout0_C out0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) hl (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%eO, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · have hnl : ¬last0 (grid0.coords t) := fun h => h1 ((last0_iff t).mp h)
      rw [Dat.leavesExact_idle (dat0 V c) 4 t (idle0_4 t hnl) (noFlush0_4 t hnl)]
      rw [outsAt0_B V c t h0 h1]
      unfold acc0B sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) hnl (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  refine Idealize.SL.BI.BIBase.Entails.trans ?_ (PhiA0_join c)
  iintro ⟨⟨HS, Hr⟩, Hg⟩
  isplitl [HS Hr]
  · isplitl [HS]; · iexists _; iexact HS
    iexact Hr
  iexact Hg

end

end Cert.Kernel.Hand

end
-- ==== Proof.K.Run1.lean ====
/-
  Layer 2's kernel body, run symbolically on whole staging memrefs, once per kind of grid point: first step of a row
  block (clear, then add the step's product), middle step (add), last step (add, then the per-type matrices, each
  row keeping its own type's result, the cut at zero, the read-out matrix and the bias, and the store of the block
  of logits). What each buffer ends with is found by the run itself, as the list of the pieces stored into it.
-/
import proofs.«410506_j65481071397259_3_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- First step of a row block, not the last: the adjacency block and the features are read and kept, the accumulator
    (at anything before) ends with the pieces `LS` written. -/
noncomputable def kernelRun1_A (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : first1 i) (hc1 : ¬last1 i)
    (x0 : Vec F S1024x2048 .f32) (x1 : Vec F S16384x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc1__conv_kernel_logits i arg2 harg2 arg3 harg3 arg4 harg4 arg5 harg5 arg6 harg6 arg7 harg7 arg8 harg8 arg9 harg9) K } := by
  refine ⟨?_, fun E K => ?run⟩
  case run =>
    simp only [cc1__conv_kernel_logits_eq_skeleton]; unfold cc1__conv_kernel_logits_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- A middle step: the accumulator holds `xs` (what the step before left) and ends with the pieces `LS` written. -/
noncomputable def kernelRun1_B (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : ¬last1 i)
    (x0 : Vec F S1024x2048 .f32) (x1 : Vec F S16384x128 .bf16) (xs : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc1__conv_kernel_logits i arg2 harg2 arg3 harg3 arg4 harg4 arg5 harg5 arg6 harg6 arg7 harg7 arg8 harg8 arg9 harg9) K } := by
  refine ⟨?_, fun E K => ?run⟩
  case run =>
    simp only [cc1__conv_kernel_logits_eq_skeleton]; unfold cc1__conv_kernel_logits_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 8000000 in
/-- The last step of a row block: besides the accumulation, the other operands are read and kept, and the output
    buffer (at anything before) ends with the pieces `LO` written. -/
noncomputable def kernelRun1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) :
    Σ' (LO : List (View.Piece (Elt F) S1024x16 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__conv_kernel_logits i arg2 harg2 arg3 harg3 arg4 harg4 arg5 harg5 arg6 harg6 arg7 harg7 arg8 harg8 arg9 harg9) K } := by
  refine ⟨?_, ?_, fun E K => ?run⟩
  case run =>
    simp only [cc1__conv_kernel_logits_eq_skeleton]; unfold cc1__conv_kernel_logits_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS0

end Cert.Kernel.Hand

end
-- ==== Proof.K.Dat1.lean ====
/-
  Layer 2 as a pipeline's proof data, at the buffer contents `V` the region is entered with: each input window's
  staging buffer holds its block of the array; the accumulator after point t holds the running sum over the row
  block's column steps so far; the output window's buffer holds the finished block of logits at a row block's last
  step and rests elsewhere. The recursion over the points follows the three kinds of point.
-/
import proofs.«410506_j65481071397259_3_alg».proof.Proof.K.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## What each kind of point leaves -/

theorem scover1_A (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : first1 i) (hc1 : ¬last1 i)
    (x0 : Vec F S1024x2048 .f32) (x1 : Vec F S16384x128 .bf16) (y : S1024x128.Idx) :
    ∃ pc ∈ (kernelRun1_A c i arg2 harg2 arg3 harg3 arg4 harg4 arg5 harg5 arg6 harg6 arg7 harg7 arg8 harg8 arg9 harg9 hc0 hc1 x0 x1).1, y ∈ pc.1.set :=
  View.cover_of_tiledL (kernelRun1_A c i arg2 harg2 arg3 harg3 arg4 harg4 arg5 harg5 arg6 harg6 arg7 harg7 arg8 harg8 arg9 harg9 hc0 hc1 x0 x1).1 S1024x128.size (by sl_kernel_rfl) y
/-- The accumulator after a first step: the run's pieces read back. -/
def sout1_A (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : first1 i) (hc1 : ¬last1 i)
    (x0 : Vec F S1024x2048 .f32) (x1 : Vec F S16384x128 .bf16) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1).1)

theorem scover1_B (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : ¬last1 i)
    (x0 : Vec F S1024x2048 .f32) (x1 : Vec F S16384x128 .bf16) (xs : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 xs).1, y ∈ pc.1.set :=
  View.cover_of_tiledL (kernelRun1_B c i arg2 harg2 arg3 harg3 arg4 harg4 arg5 harg5 arg6 harg6 arg7 harg7 arg8 harg8 arg9 harg9 hc0 hc1 x0 x1 xs).1 S1024x128.size (by sl_kernel_rfl) y
/-- The accumulator after a middle step. -/
def sout1_B (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : ¬last1 i)
    (x0 : Vec F S1024x2048 .f32) (x1 : Vec F S16384x128 .bf16) (xs : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 xs).1)

theorem cover1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) (y : S1024x16.Idx) :
    ∃ pc ∈ (kernelRun1_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).1 S1024x16.size (by sl_kernel_rfl) y
/-- The output block a last step stores. -/
def out1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) : Vec F S1024x16 .f32 :=
  VO1.read (Elt F) (VO1.writes (Elt F) VO1.junk (kernelRun1_C c i arg2 harg2 arg3 harg3 arg4 harg4 arg5 harg5 arg6 harg6 arg7 harg7 arg8 harg8 arg9 harg9 hc0 hc1 x0 x1 x2 x3 x4 x5 xs).1)
theorem scover1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).2.1 S1024x128.size (by sl_kernel_rfl) y
/-- The accumulator after a last step. -/
def sout1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs).2.1)

section

variable (V : (c : Dev nD) → (b : Ref sig .tc) → Buf (Elt F) ((c : Thread nD τ).loc b))

/-! ## The same at a grid point, on the buffers the pipeline passes there -/

theorem notLast1_of_first {t : Fin cfg1.N} (h0 : t.val % 8 = 0) : ¬last1 (grid1.coords t) :=
  fun h => by have h' := (last1_iff t).mp h; omega

/-- The accumulator after point `t`, a first step. -/
def acc1A (c : Dev nD) (t : Fin cfg1.N) (h0 : t.val % 8 = 0) : Vec F S1024x128 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((first1_iff t).mpr h0) (notLast1_of_first h0) (iblk1 V c 0 t) (iblk1 V c 1 t)
/-- The accumulator after point `t`, a middle step, over what the point before left. -/
def acc1B (c : Dev nD) (t : Fin cfg1.N) (h0 : ¬t.val % 8 = 0) (h1 : ¬t.val % 8 = 7) (xs : Vec F S1024x128 .f32) : Vec F S1024x128 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) (fun h => h1 ((last1_iff t).mp h)) (iblk1 V c 0 t) (iblk1 V c 1 t) xs
/-- The accumulator after point `t`, a last step. -/
def acc1C (c : Dev nD) (t : Fin cfg1.N) (h0 : ¬t.val % 8 = 0) (h1 : t.val % 8 = 7) (xs : Vec F S1024x128 .f32) : Vec F S1024x128 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) xs
/-- The output block point `t`, a last step, stores. -/
def out1C (c : Dev nD) (t : Fin cfg1.N) (h0 : ¬t.val % 8 = 0) (h1 : t.val % 8 = 7) (xs : Vec F S1024x128 .f32) : Vec F S1024x16 .f32 :=
  out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) xs

/-- Contents nothing reads: the output window's buffer at a point that stores nothing into it. -/
def restingOut1 : Vec F S1024x16 .f32 := VO1.read (Elt F) VO1.junk

/-- What the output window's buffer and the accumulator hold after the body at position `n`: by the kind of point,
    the accumulator over what the point before left. -/
def outsAt1 (c : Dev nD) : (n : ℕ) → n < cfg1.N → Vec F S1024x16 .f32 × Vec F S1024x128 .f32
  | 0, hn => (restingOut1, acc1A V c ⟨0, hn⟩ (Nat.zero_mod _))
  | n + 1, hn =>
    if h0 : (n + 1) % 8 = 0 then (restingOut1, acc1A V c ⟨n + 1, hn⟩ h0)
    else if h1 : (n + 1) % 8 = 7 then
      (out1C V c ⟨n + 1, hn⟩ h0 h1 (outsAt1 c n (Nat.lt_of_succ_lt hn)).2, acc1C V c ⟨n + 1, hn⟩ h0 h1 (outsAt1 c n (Nat.lt_of_succ_lt hn)).2)
    else (restingOut1, acc1B V c ⟨n + 1, hn⟩ h0 h1 (outsAt1 c n (Nat.lt_of_succ_lt hn)).2)

theorem outsAt1_A (c : Dev nD) (t : Fin cfg1.N) (h0 : t.val % 8 = 0) :
    outsAt1 V c t.val t.isLt = (restingOut1, acc1A V c t h0) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (restingOut1, acc1B V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1C V c t h0 h1 (outsAt1 V c (t.val - 1) (Nat.lt_of_le_of_lt (Nat.sub_le _ _) t.isLt)).2, acc1C V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's (the accumulator at anything); afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Before any point the invariant yields the accumulator at some contents, the other scoped buffers and the register. -/
theorem PhiS1_forget (c : Dev nD) (t : Fin cfg1.N) :
    (dat1 V c).Φ t.castSucc ⊢ (iprop(iprop((∃ d, owns (c : Thread nD τ) scM1 fullShare d) ∗ rest1 c) ∗ (∃ r, prngReg c r)) : sProp 𝕄) := by
  rw [PhiS1_castSucc V c t]
  by_cases hz : t.val = 0
  · rw [PhiS1_zero V c _ _ hz]; exact PhiA1_split c
  · rw [PhiS1_pos V c _ _ hz]
    iintro ⟨⟨HS, Hr⟩, Hg⟩
    isplitl [HS Hr]
    · isplitl [HS]; · iexists _; iexact HS
      iexact Hr
    iexact Hg

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' buffers hold their blocks; the point's kind selects the run; the invariant
    hands the accumulator at what the point before left (at anything where the run clears it) and takes it back at this
    point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t], after1_5]
  by_cases h0 : t.val % 8 = 0
  · have hnl : ¬last1 (grid1.coords t) := notLast1_of_first h0
    rw [Dat.leavesExact_idle (dat1 V c) 6 t (idle1_6 t hnl) (noFlush1_6 t hnl)]
    rw [outsAt1_A V c t h0]
    unfold acc1A sout1_A; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS1_forget V c t) $$ HΦ
    icases HΦ' with ⟨⟨HS0, Hrest⟩, Hg⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((first1_iff t).mpr h0) hnl (iblk1 V c 0 t) (iblk1 V c 1 t)).2 Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_A c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun h => h0 (by rw [h])
    by_cases h1 : t.val % 8 = 7
    · have hl : last1 (grid1.coords t) := (last1_iff t).mpr h1
      rw [show (dat1 V c).leavesExact 6 t = owns (c : Thread nD τ) (ms1_6 t) fullShare ((dat1 V c).after 6 t) from by
        unfold Dat.leavesExact; rw [live1_6 t hl], after1_6]
      rw [outsAt1_C V c t h0 h1]
      unfold acc1C out1C sout1_C out1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) hl (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%eO, H6⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    · have hnl : ¬last1 (grid1.coords t) := fun h => h1 ((last1_iff t).mp h)
      rw [Dat.leavesExact_idle (dat1 V c) 6 t (idle1_6 t hnl) (noFlush1_6 t hnl)]
      rw [outsAt1_B V c t h0 h1]
      unfold acc1B sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) hnl (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨⟨HS, Hr⟩, Hg⟩
  iapply (PhiA1_join c)
  isplitl [HS Hr]
  · isplitl [HS]; · iexists _; iexact HS
    iexact Hr
  iexact Hg

end

end Cert.Kernel.Hand

end
-- ==== Proof.K.Frame.lean ====
/-
  The whole program as one run: the host operations that lay out the operands, then layer 1's region, then layer 2's.
  The unscoped buffers' contents are named at each boundary (after the host operations; after layer 1, its output
  array at what the write-backs leave; after layer 2 likewise), the two regions are entered and left at those
  contents, and every weakly fair execution ends with the result array at layer 2's folded write-backs and each
  argument array as launched.
-/
import proofs.«410506_j65481071397259_3_alg».proof.Proof.Gen.Kernel.Regions
import proofs.«410506_j65481071397259_3_alg».proof.Proof.K.Dat0
import proofs.«410506_j65481071397259_3_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- After the host operations, read at the TensorCore's references: what layer 1 is entered with. -/
abbrev E1 : (c : Dev nD) → (b : Ref sig .tc) → Buf (Elt F) ((c : Thread nD τ).loc b) := fun c b => V1 m c b
/-- After layer 1: its arrays at what the pipeline leaves, every other buffer as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- The same read at the TensorCore's references: what layer 2 is entered with. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After layer 2. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = V1 m c (Proc.devRef .tc main_arg0) := W2_of_ne m c main_arg0 (by decide)
    _ = V0 m c (Proc.devRef .tc main_arg0) := V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = V1 m c (Proc.devRef .tc main_arg1) := W2_of_ne m c main_arg1 (by decide)
    _ = V0 m c (Proc.devRef .tc main_arg1) := V1_of m c main_arg1 (by decide)
    _ = m ((c : Thread nD τ).loc main_arg1) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = V1 m c (Proc.devRef .tc main_arg3) := W2_of_ne m c main_arg3 (by decide)
    _ = V0 m c (Proc.devRef .tc main_arg3) := V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = V1 m c (Proc.devRef .tc main_arg4) := W2_of_ne m c main_arg4 (by decide)
    _ = V0 m c (Proc.devRef .tc main_arg4) := V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = V1 m c (Proc.devRef .tc main_arg5) := W2_of_ne m c main_arg5 (by decide)
    _ = V0 m c (Proc.devRef .tc main_arg5) := V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = V1 m c (Proc.devRef .tc main_arg6) := W2_of_ne m c main_arg6 (by decide)
    _ = V0 m c (Proc.devRef .tc main_arg6) := V1_of m c main_arg6 (by decide)
    _ = m ((c : Thread nD τ).loc main_arg6) := rfl
/-- The adjacency is an input window's array in both layers: read, never written. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((dat1 (E2 m) c).arrAt_in 0 rfl _).trans (A_eq1 (E2 m) c 0))
    _ = V1 m c (Proc.devRef .tc main_arg2) := (W2_arr m c 0).trans (((dat0 (E1 m) c).arrAt_in 0 rfl _).trans (A_eq0 (E1 m) c 0))
    _ = V0 m c (Proc.devRef .tc main_arg2) := V1_of m c main_arg2 (by decide)
    _ = m ((c : Thread nD τ).loc main_arg2) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The host operations as a segment, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-! ## The regions as segments -/

set_option backward.isDefEq.respectTransparency.types false in
/-- Layer 1's region over the thread state: its arrays are split out of the unscoped buffers at entry and put back at
    the exit contents; the generator register goes into the invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: its arrays are split out of the unscoped buffers at entry and put back at
    the exit contents; the generator register goes into the invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- Every weakly fair execution of the program from memory `m` with zero counters terminates, and every final memory
    holds the result array at layer 2's folded write-backs and each argument array as launched. -/
theorem run_all (ρ : Dev nD → PrngReg) : θ_run defs (onTc (τ := τ) (main (F := F))) ⟨m, fun _ => 0, ρ⟩ (fun r => ∀ c : Dev nD,
      r.2.mem ((c.tc : Thread nD τ).loc main_v10) = (dat1 (E2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v10 (by decide))).trans (W3_arr m c 6),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c),
       (h c _ (mem_uc main_arg6 (by decide))).trans (W3_main_arg6 m c)⟩)

/-- The frame: the program runs to the end, faults nowhere, and leaves its argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_all m ρ)

end Cert.Kernel.Hand

end
-- ==== Proof.KI.Base.lean ====
/-
  What both layers' kernels share: when the reduction axis is at its first and at its last step (the grid is 16 row
  blocks by 8 column blocks, point t = 8·row + column), where the output window rests, the staging and scratch
  memrefs by name, and the region invariant with the accumulator buffer split off the other scoped buffers.
-/
import proofs.«410506_j65481071397259_3_alg».proof.Proof.Gen.KernelIdeal.Launch
import proofs.«410506_j65481071397259_3_alg».proof.Proof.Gen.KernelIdeal.Skeleton
import proofs.«410506_j65481071397259_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Layer 1: the reduction axis's first and last step -/

/-- The accumulator is reset here: the column-block coordinate is 0. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)
/-- The row block is finished here: the column-block coordinate is 7. -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Before the last step the output window rests: nothing is stored into it and it is not written back. -/
theorem idle0_4 : ∀ t : Fin cfg0.N, ¬last0 (grid0.coords t) → cfg0.idle 4 (grid0.coords t) = true := by decide +kernel
theorem noFlush0_4 : ∀ t : Fin cfg0.N, ¬last0 (grid0.coords t) → (cfg0.win 4).flush t = false := by decide +kernel
theorem live0_4 : ∀ t : Fin cfg0.N, last0 (grid0.coords t) → cfg0.idle 4 (grid0.coords t) = false := by decide +kernel

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
/-- The accumulator: a whole scoped buffer of the kernel's own, carried from step to step. -/
abbrev scM0 : Memref sig .tc .vmem S1024x128 .f32 := Memref.whole cc0_scratch0
abbrev VS0 : View sig .tc .vmem S1024x128 .f32 := scM0.view
/-- One staging buffer of the output window, through which its contents are stated. -/
abbrev VO0 : View sig .tc .vmem S1024x128 .bf16 := (Memref.whole cc0_stg4_0 : Memref sig .tc .vmem S1024x128 .bf16).view

/-- The scoped buffers layer 1 neither stages nor accumulates in, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant yields the accumulator at some contents beside the other scoped buffers and the register, -/
theorem PhiA0_split (c : Dev nD) :
    (Pipeline.ΦA spec0 c : sProp 𝕄)
      ⊢ iprop(iprop((∃ d, owns (c : Thread nD τ) scM0 fullShare d) ∗ rest0 c) ∗ (∃ r, prngReg c r)) := by
  unfold Pipeline.ΦA rest0; rw [scopedRest0_eq]; simp only [scM0, owns_whole]
  iintro ⟨⟨HS, Hr⟩, Hg⟩
  isplitl [HS Hr]
  · isplitl [HS]; · iexact HS
    iexact Hr
  iexact Hg
/-- and is made of them. -/
theorem PhiA0_join (c : Dev nD) :
    (iprop(iprop((∃ d, owns (c : Thread nD τ) scM0 fullShare d) ∗ rest0 c) ∗ (∃ r, prngReg c r)) : sProp 𝕄)
      ⊢ Pipeline.ΦA spec0 c := by
  unfold Pipeline.ΦA rest0; rw [scopedRest0_eq]; simp only [scM0, owns_whole]
  iintro ⟨⟨HS, Hr⟩, Hg⟩
  isplitl [HS Hr]
  · isplitl [HS]; · iexact HS
    iexact Hr
  iexact Hg

/-! ## Layer 2: the same grid -/

abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem idle1_6 : ∀ t : Fin cfg1.N, ¬last1 (grid1.coords t) → cfg1.idle 6 (grid1.coords t) = true := by decide +kernel
theorem noFlush1_6 : ∀ t : Fin cfg1.N, ¬last1 (grid1.coords t) → (cfg1.win 6).flush t = false := by decide +kernel
theorem live1_6 : ∀ t : Fin cfg1.N, last1 (grid1.coords t) → cfg1.idle 6 (grid1.coords t) = false := by decide +kernel

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x16 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x16 .f32 := win1_6.stage (cfg1.slots t 6)
abbrev hs1_6 (t : Fin cfg1.N) : (ms1_6 t).IsWhole := hstage1_6 ((cfg1.slots t 6).cast nbuf1_6)
abbrev scM1 : Memref sig .tc .vmem S1024x128 .f32 := Memref.whole cc1_scratch0
abbrev VS1 : View sig .tc .vmem S1024x128 .f32 := scM1.view
abbrev VO1 : View sig .tc .vmem S1024x16 .f32 := (Memref.whole cc1_stg6_0 : Memref sig .tc .vmem S1024x16 .f32).view

/-- The scoped buffers layer 2 neither stages nor accumulates in (its own accumulator is the list's last and is split off). -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant yields layer 2's accumulator (the last of the scoped buffers) at some contents beside the
    others and the register, -/
theorem PhiA1_split (c : Dev nD) :
    (Pipeline.ΦA spec1 c : sProp 𝕄)
      ⊢ iprop(iprop((∃ d, owns (c : Thread nD τ) scM1 fullShare d) ∗ rest1 c) ∗ (∃ r, prngReg c r)) := by
  unfold Pipeline.ΦA rest1; rw [scopedRest1_eq]; simp only [scM1, owns_whole]
  iintro ⟨⟨H1, H2, H3, H4, H5, H6, H7, H8, H9, HS⟩, Hg⟩
  isplitl [HS H1 H2 H3 H4 H5 H6 H7 H8 H9]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg
/-- and is made of them. -/
theorem PhiA1_join (c : Dev nD) :
    (iprop(iprop((∃ d, owns (c : Thread nD τ) scM1 fullShare d) ∗ rest1 c) ∗ (∃ r, prngReg c r)) : sProp 𝕄)
      ⊢ Pipeline.ΦA spec1 c := by
  unfold Pipeline.ΦA rest1; rw [scopedRest1_eq]; simp only [scM1, owns_whole]
  iintro ⟨⟨HS, H1, H2, H3, H4, H5, H6, H7, H8, H9⟩, Hg⟩
  isplitl [HS H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- The zero offsets of a whole rank-2 buffer, as a function. -/
theorem hz2 : (![0, 0] : Fin (2 : ℕ) → Nat) = fun _ => 0 := by funext a; fin_cases a <;> rfl

/-! ## The windows' blocks -/

section
variable (V : (c : Dev nD) → (b : Ref sig .tc) → Buf (Elt F) ((c : Thread nD τ).loc b))

/-- Layer 1: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Layer 2: the same. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

end Cert.KernelIdeal.Hand

end
-- ==== Proof.KI.Run0.lean ====
/-
  Layer 1's kernel body, run symbolically on whole staging memrefs, once per kind of grid point: the first step of a
  row block (the accumulator is cleared, then the step's product of the adjacency block with the matching rows of
  the features is added), a middle step (the product is added to what the step before left), and the last step
  (the same, then the finished aggregate goes through the eight per-type matrices, each row keeps its own type's
  result, negative entries are cut to zero, and the block is stored for writing back).
  What each buffer ends with is found by the run itself, as the list of the pieces stored into it.
-/
import proofs.«410506_j65481071397259_3_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- First step of a row block, not the last: the adjacency block and the features are read and kept, the accumulator
    (at anything before) ends with the pieces `LS` written. -/
noncomputable def kernelRun0_A (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : first0 i) (hc1 : ¬last0 i)
    (x0 : Vec F S1024x2048 .f32) (x1 : Vec F S16384x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc0__conv_kernel_feat i arg2 harg2 arg3 harg3 arg4 harg4 arg5 harg5 arg6 harg6 arg7 harg7) K } := by
  refine ⟨?_, fun E K => ?run⟩
  case run =>
    simp only [cc0__conv_kernel_feat_eq_skeleton]; unfold cc0__conv_kernel_feat_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- A middle step: the accumulator holds `xs` (what the step before left) and ends with the pieces `LS` written. -/
noncomputable def kernelRun0_B (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : ¬last0 i)
    (x0 : Vec F S1024x2048 .f32) (x1 : Vec F S16384x128 .bf16) (xs : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg7 fullShare xs
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc0__conv_kernel_feat i arg2 harg2 arg3 harg3 arg4 harg4 arg5 harg5 arg6 harg6 arg7 harg7) K } := by
  refine ⟨?_, fun E K => ?run⟩
  case run =>
    simp only [cc0__conv_kernel_feat_eq_skeleton]; unfold cc0__conv_kernel_feat_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 8000000 in
/-- The last step of a row block: besides the accumulation, the other operands are read and kept, and the output
    buffer (at anything before) ends with the pieces `LO` written. -/
noncomputable def kernelRun0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) :
    Σ' (LO : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__conv_kernel_feat i arg2 harg2 arg3 harg3 arg4 harg4 arg5 harg5 arg6 harg6 arg7 harg7) K } := by
  refine ⟨?_, ?_, fun E K => ?run⟩
  case run =>
    simp only [cc0__conv_kernel_feat_eq_skeleton]; unfold cc0__conv_kernel_feat_skel
    simp only [k0_part1_eq_skeleton]
    unfold owns
    iintro ⟨⟨%f0, %hf0, H0⟩, ⟨%f1, %hf1, H1⟩, ⟨%f2, %hf2, H2⟩, ⟨%f3, %hf3, H3⟩, ⟨%dO, %fO, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS0

end Cert.KernelIdeal.Hand

end
-- ==== Proof.KI.Dat0.lean ====
/-
  Layer 1 as a pipeline's proof data, at the buffer contents `V` the region is entered with: each input window's
  staging buffer holds its block of the array; the accumulator after point t holds the running sum over the row
  block's column steps so far; the output window's buffer holds the finished block at a row block's last step
  and rests elsewhere. The recursion over the points follows the three kinds of point.
-/
import proofs.«410506_j65481071397259_3_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## What each kind of point leaves -/

theorem scover0_A (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : first0 i) (hc1 : ¬last0 i)
    (x0 : Vec F S1024x2048 .f32) (x1 : Vec F S16384x128 .bf16) (y : S1024x128.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x128.size (by sl_kernel_rfl) y
/-- The accumulator after a first step: the run's pieces read back. -/
def sout0_A (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : first0 i) (hc1 : ¬last0 i)
    (x0 : Vec F S1024x2048 .f32) (x1 : Vec F S16384x128 .bf16) : Vec F S1024x128 .f32 :=
  VS0.read (Elt F) (VS0.writes (Elt F) VS0.junk (kernelRun0_A c i arg2 harg2 arg3 harg3 arg4 harg4 arg5 harg5 arg6 harg6 arg7 harg7 hc0 hc1 x0 x1).1)

theorem scover0_B (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : ¬last0 i)
    (x0 : Vec F S1024x2048 .f32) (x1 : Vec F S16384x128 .bf16) (xs : Vec F S1024x128 .f32) (y : S1024x128.Idx) :
    ∃ pc ∈ (kernelRun0_B c i arg2 harg2 arg3 harg3 arg4 harg4 arg5 harg5 arg6 harg6 arg7 harg7 hc0 hc1 x0 x1 xs).1, y ∈ pc.1.set :=
  View.cover_of_tiledL (kernelRun0_B c i arg2 harg2 arg3 harg3 arg4 harg4 arg5 harg5 arg6 harg6 arg7 harg7 hc0 hc1 x0 x1 xs).1 S1024x128.size (by sl_kernel_rfl) y
/-- The accumulator after a middle step. -/
def sout0_B (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : ¬last0 i)
    (x0 : Vec F S1024x2048 .f32) (x1 : Vec F S16384x128 .bf16) (xs : Vec F S1024x128 .f32) : Vec F S1024x128 .f32 :=
  VS0.read (Elt F) (VS0.writes (Elt F) VS0.junk (kernelRun0_B c i arg2 harg2 arg3 harg3 arg4 harg4 arg5 harg5 arg6 harg6 arg7 harg7 hc0 hc1 x0 x1 xs).1)

theorem cover0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) (y : S1024x128.Idx) :
    ∃ pc ∈ (kernelRun0_C c i arg2 harg2 arg3 harg3 arg4 harg4 arg5 harg5 arg6 harg6 arg7 harg7 hc0 hc1 x0 x1 x2 x3 xs).1, y ∈ pc.1.set :=
  View.cover_of_tiledL (kernelRun0_C c i arg2 harg2 arg3 harg3 arg4 harg4 arg5 harg5 arg6 harg6 arg7 harg7 hc0 hc1 x0 x1 x2 x3 xs).1 S1024x128.size (by sl_kernel_rfl) y
/-- The output block a last step stores. -/
def out0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) : Vec F S1024x128 .bf16 :=
  VO0.read (Elt F) (VO0.writes (Elt F) VO0.junk (kernelRun0_C c i arg2 harg2 arg3 harg3 arg4 harg4 arg5 harg5 arg6 harg6 arg7 harg7 hc0 hc1 x0 x1 x2 x3 xs).1)
theorem scover0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) (y : S1024x128.Idx) :
    ∃ pc ∈ (kernelRun0_C c i arg2 harg2 arg3 harg3 arg4 harg4 arg5 harg5 arg6 harg6 arg7 harg7 hc0 hc1 x0 x1 x2 x3 xs).2.1, y ∈ pc.1.set :=
  View.cover_of_tiledL (kernelRun0_C c i arg2 harg2 arg3 harg3 arg4 harg4 arg5 harg5 arg6 harg6 arg7 harg7 hc0 hc1 x0 x1 x2 x3 xs).2.1 S1024x128.size (by sl_kernel_rfl) y
/-- The accumulator after a last step. -/
def sout0_C (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i)
    (x0 : Vec F S1024x2048 .f32) (x1 : Vec F S16384x128 .bf16) (x2 : Vec F S1024x1 .i32) (x3 : Vec F S8x128x128 .bf16) (xs : Vec F S1024x128 .f32) : Vec F S1024x128 .f32 :=
  VS0.read (Elt F) (VS0.writes (Elt F) VS0.junk (kernelRun0_C c i arg2 harg2 arg3 harg3 arg4 harg4 arg5 harg5 arg6 harg6 arg7 harg7 hc0 hc1 x0 x1 x2 x3 xs).2.1)

section

variable (V : (c : Dev nD) → (b : Ref sig .tc) → Buf (Elt F) ((c : Thread nD τ).loc b))

/-! ## The same at a grid point, on the buffers the pipeline passes there -/

theorem notLast0_of_first {t : Fin cfg0.N} (h0 : t.val % 8 = 0) : ¬last0 (grid0.coords t) :=
  fun h => by have h' := (last0_iff t).mp h; omega

/-- The accumulator after point `t`, a first step. -/
def acc0A (c : Dev nD) (t : Fin cfg0.N) (h0 : t.val % 8 = 0) : Vec F S1024x128 .f32 :=
  sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((first0_iff t).mpr h0) (notLast0_of_first h0) (iblk0 V c 0 t) (iblk0 V c 1 t)
/-- The accumulator after point `t`, a middle step, over what the point before left. -/
def acc0B (c : Dev nD) (t : Fin cfg0.N) (h0 : ¬t.val % 8 = 0) (h1 : ¬t.val % 8 = 7) (xs : Vec F S1024x128 .f32) : Vec F S1024x128 .f32 :=
  sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) (fun h => h1 ((last0_iff t).mp h)) (iblk0 V c 0 t) (iblk0 V c 1 t) xs
/-- The accumulator after point `t`, a last step. -/
def acc0C (c : Dev nD) (t : Fin cfg0.N) (h0 : ¬t.val % 8 = 0) (h1 : t.val % 8 = 7) (xs : Vec F S1024x128 .f32) : Vec F S1024x128 .f32 :=
  sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) ((last0_iff t).mpr h1) (iblk0 V c 0 t) (iblk0 V c 1 t) (iblk0 V c 2 t) (iblk0 V c 3 t) xs
/-- The output block point `t`, a last step, stores. -/
def out0C (c : Dev nD) (t : Fin cfg0.N) (h0 : ¬t.val % 8 = 0) (h1 : t.val % 8 = 7) (xs : Vec F S1024x128 .f32) : Vec F S1024x128 .bf16 :=
  out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) ((last0_iff t).mpr h1) (iblk0 V c 0 t) (iblk0 V c 1 t) (iblk0 V c 2 t) (iblk0 V c 3 t) xs

/-- Contents nothing reads: the output window's buffer at a point that stores nothing into it. -/
def restingOut0 : Vec F S1024x128 .bf16 := VO0.read (Elt F) VO0.junk

/-- What the output window's buffer and the accumulator hold after the body at position `n`: by the kind of point,
    the accumulator over what the point before left. -/
def outsAt0 (c : Dev nD) : (n : ℕ) → n < cfg0.N → Vec F S1024x128 .bf16 × Vec F S1024x128 .f32
  | 0, hn => (restingOut0, acc0A V c ⟨0, hn⟩ (Nat.zero_mod _))
  | n + 1, hn =>
    if h0 : (n + 1) % 8 = 0 then (restingOut0, acc0A V c ⟨n + 1, hn⟩ h0)
    else if h1 : (n + 1) % 8 = 7 then
      (out0C V c ⟨n + 1, hn⟩ h0 h1 (outsAt0 c n (Nat.lt_of_succ_lt hn)).2, acc0C V c ⟨n + 1, hn⟩ h0 h1 (outsAt0 c n (Nat.lt_of_succ_lt hn)).2)
    else (restingOut0, acc0B V c ⟨n + 1, hn⟩ h0 h1 (outsAt0 c n (Nat.lt_of_succ_lt hn)).2)

theorem outsAt0_A (c : Dev nD) (t : Fin cfg0.N) (h0 : t.val % 8 = 0) :
    outsAt0 V c t.val t.isLt = (restingOut0, acc0A V c t h0) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (restingOut0, acc0B V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0C V c t h0 h1 (outsAt0 V c (t.val - 1) (Nat.lt_of_le_of_lt (Nat.sub_le _ _) t.isLt)).2, acc0C V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's (the accumulator at anything); afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Before any point the invariant yields the accumulator at some contents, the other scoped buffers and the register. -/
theorem PhiS0_forget (c : Dev nD) (t : Fin cfg0.N) :
    (dat0 V c).Φ t.castSucc ⊢ (iprop(iprop((∃ d, owns (c : Thread nD τ) scM0 fullShare d) ∗ rest0 c) ∗ (∃ r, prngReg c r)) : sProp 𝕄) := by
  rw [PhiS0_castSucc V c t]
  by_cases hz : t.val = 0
  · rw [PhiS0_zero V c _ _ hz]; exact PhiA0_split c
  · rw [PhiS0_pos V c _ _ hz]
    iintro ⟨⟨HS, Hr⟩, Hg⟩
    isplitl [HS Hr]
    · isplitl [HS]; · iexists _; iexact HS
      iexact Hr
    iexact Hg

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the point's kind selects the run; the invariant
    hands the accumulator at what the point before left (at anything where the run clears it) and takes it back at this
    point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  by_cases h0 : t.val % 8 = 0
  · have hnl : ¬last0 (grid0.coords t) := notLast0_of_first h0
    rw [Dat.leavesExact_idle (dat0 V c) 4 t (idle0_4 t hnl) (noFlush0_4 t hnl)]
    rw [outsAt0_A V c t h0]
    unfold acc0A sout0_A; (try dsimp only)
    iintro ⟨HΦ, Ho, ⟨%d0, H0⟩, ⟨%d1, H1⟩, ⟨%d2, H2⟩, ⟨%d3, H3⟩, ⟨%d4, H4⟩⟩
    ihave HΦ' := (PhiS0_forget V c t) $$ HΦ
    icases HΦ' with ⟨⟨HS0, Hrest⟩, Hg⟩
    iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((first0_iff t).mpr h0) hnl (iblk0 V c 0 t) (iblk0 V c 1 t)).2 Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 8 = 7
    · have hl : last0 (grid0.coords t) := (last0_iff t).mpr h1
      rw [show (dat0 V c).leavesExact 4 t = owns (c : Thread nD τ) (ms0_4 t) fullShare ((dat0 V c).after 4 t) from by
        unfold Dat.leavesExact; rw [live0_4 t hl], after0_4]
      rw [outsAt0_C V c t h0 h1]
      unfold acc0C out0C sout0_C out0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) hl (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%eO, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · have hnl : ¬last0 (grid0.coords t) := fun h => h1 ((last0_iff t).mp h)
      rw [Dat.leavesExact_idle (dat0 V c) 4 t (idle0_4 t hnl) (noFlush0_4 t hnl)]
      rw [outsAt0_B V c t h0 h1]
      unfold acc0B sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) hnl (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  refine Idealize.SL.BI.BIBase.Entails.trans ?_ (PhiA0_join c)
  iintro ⟨⟨HS, Hr⟩, Hg⟩
  isplitl [HS Hr]
  · isplitl [HS]; · iexists _; iexact HS
    iexact Hr
  iexact Hg

end

end Cert.KernelIdeal.Hand

end
-- ==== Proof.KI.Run1.lean ====
/-
  Layer 2's kernel body, run symbolically on whole staging memrefs, once per kind of grid point: first step of a row
  block (clear, then add the step's product), middle step (add), last step (add, then the per-type matrices, each
  row keeping its own type's result, the cut at zero, the read-out matrix and the bias, and the store of the block
  of logits). What each buffer ends with is found by the run itself, as the list of the pieces stored into it.
-/
import proofs.«410506_j65481071397259_3_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- First step of a row block, not the last: the adjacency block and the features are read and kept, the accumulator
    (at anything before) ends with the pieces `LS` written. -/
noncomputable def kernelRun1_A (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : first1 i) (hc1 : ¬last1 i)
    (x0 : Vec F S1024x2048 .f32) (x1 : Vec F S16384x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc1__conv_kernel_logits i arg2 harg2 arg3 harg3 arg4 harg4 arg5 harg5 arg6 harg6 arg7 harg7 arg8 harg8 arg9 harg9) K } := by
  refine ⟨?_, fun E K => ?run⟩
  case run =>
    simp only [cc1__conv_kernel_logits_eq_skeleton]; unfold cc1__conv_kernel_logits_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- A middle step: the accumulator holds `xs` (what the step before left) and ends with the pieces `LS` written. -/
noncomputable def kernelRun1_B (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : ¬last1 i)
    (x0 : Vec F S1024x2048 .f32) (x1 : Vec F S16384x128 .bf16) (xs : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc1__conv_kernel_logits i arg2 harg2 arg3 harg3 arg4 harg4 arg5 harg5 arg6 harg6 arg7 harg7 arg8 harg8 arg9 harg9) K } := by
  refine ⟨?_, fun E K => ?run⟩
  case run =>
    simp only [cc1__conv_kernel_logits_eq_skeleton]; unfold cc1__conv_kernel_logits_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 8000000 in
/-- The last step of a row block: besides the accumulation, the other operands are read and kept, and the output
    buffer (at anything before) ends with the pieces `LO` written. -/
noncomputable def kernelRun1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) :
    Σ' (LO : List (View.Piece (Elt F) S1024x16 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__conv_kernel_logits i arg2 harg2 arg3 harg3 arg4 harg4 arg5 harg5 arg6 harg6 arg7 harg7 arg8 harg8 arg9 harg9) K } := by
  refine ⟨?_, ?_, fun E K => ?run⟩
  case run =>
    simp only [cc1__conv_kernel_logits_eq_skeleton]; unfold cc1__conv_kernel_logits_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS0

end Cert.KernelIdeal.Hand

end
-- ==== Proof.KI.Dat1.lean ====
/-
  Layer 2 as a pipeline's proof data, at the buffer contents `V` the region is entered with: each input window's
  staging buffer holds its block of the array; the accumulator after point t holds the running sum over the row
  block's column steps so far; the output window's buffer holds the finished block of logits at a row block's last
  step and rests elsewhere. The recursion over the points follows the three kinds of point.
-/
import proofs.«410506_j65481071397259_3_alg».proof.Proof.KI.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## What each kind of point leaves -/

theorem scover1_A (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : first1 i) (hc1 : ¬last1 i)
    (x0 : Vec F S1024x2048 .f32) (x1 : Vec F S16384x128 .bf16) (y : S1024x128.Idx) :
    ∃ pc ∈ (kernelRun1_A c i arg2 harg2 arg3 harg3 arg4 harg4 arg5 harg5 arg6 harg6 arg7 harg7 arg8 harg8 arg9 harg9 hc0 hc1 x0 x1).1, y ∈ pc.1.set :=
  View.cover_of_tiledL (kernelRun1_A c i arg2 harg2 arg3 harg3 arg4 harg4 arg5 harg5 arg6 harg6 arg7 harg7 arg8 harg8 arg9 harg9 hc0 hc1 x0 x1).1 S1024x128.size (by sl_kernel_rfl) y
/-- The accumulator after a first step: the run's pieces read back. -/
def sout1_A (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : first1 i) (hc1 : ¬last1 i)
    (x0 : Vec F S1024x2048 .f32) (x1 : Vec F S16384x128 .bf16) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1).1)

theorem scover1_B (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : ¬last1 i)
    (x0 : Vec F S1024x2048 .f32) (x1 : Vec F S16384x128 .bf16) (xs : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 xs).1, y ∈ pc.1.set :=
  View.cover_of_tiledL (kernelRun1_B c i arg2 harg2 arg3 harg3 arg4 harg4 arg5 harg5 arg6 harg6 arg7 harg7 arg8 harg8 arg9 harg9 hc0 hc1 x0 x1 xs).1 S1024x128.size (by sl_kernel_rfl) y
/-- The accumulator after a middle step. -/
def sout1_B (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : ¬last1 i)
    (x0 : Vec F S1024x2048 .f32) (x1 : Vec F S16384x128 .bf16) (xs : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 xs).1)

theorem cover1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) (y : S1024x16.Idx) :
    ∃ pc ∈ (kernelRun1_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).1 S1024x16.size (by sl_kernel_rfl) y
/-- The output block a last step stores. -/
def out1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) : Vec F S1024x16 .f32 :=
  VO1.read (Elt F) (VO1.writes (Elt F) VO1.junk (kernelRun1_C c i arg2 harg2 arg3 harg3 arg4 harg4 arg5 harg5 arg6 harg6 arg7 harg7 arg8 harg8 arg9 harg9 hc0 hc1 x0 x1 x2 x3 x4 x5 xs).1)
theorem scover1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).2.1 S1024x128.size (by sl_kernel_rfl) y
/-- The accumulator after a last step. -/
def sout1_C (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i)
    (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs).2.1)

section

variable (V : (c : Dev nD) → (b : Ref sig .tc) → Buf (Elt F) ((c : Thread nD τ).loc b))

/-! ## The same at a grid point, on the buffers the pipeline passes there -/

theorem notLast1_of_first {t : Fin cfg1.N} (h0 : t.val % 8 = 0) : ¬last1 (grid1.coords t) :=
  fun h => by have h' := (last1_iff t).mp h; omega

/-- The accumulator after point `t`, a first step. -/
def acc1A (c : Dev nD) (t : Fin cfg1.N) (h0 : t.val % 8 = 0) : Vec F S1024x128 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((first1_iff t).mpr h0) (notLast1_of_first h0) (iblk1 V c 0 t) (iblk1 V c 1 t)
/-- The accumulator after point `t`, a middle step, over what the point before left. -/
def acc1B (c : Dev nD) (t : Fin cfg1.N) (h0 : ¬t.val % 8 = 0) (h1 : ¬t.val % 8 = 7) (xs : Vec F S1024x128 .f32) : Vec F S1024x128 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) (fun h => h1 ((last1_iff t).mp h)) (iblk1 V c 0 t) (iblk1 V c 1 t) xs
/-- The accumulator after point `t`, a last step. -/
def acc1C (c : Dev nD) (t : Fin cfg1.N) (h0 : ¬t.val % 8 = 0) (h1 : t.val % 8 = 7) (xs : Vec F S1024x128 .f32) : Vec F S1024x128 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) xs
/-- The output block point `t`, a last step, stores. -/
def out1C (c : Dev nD) (t : Fin cfg1.N) (h0 : ¬t.val % 8 = 0) (h1 : t.val % 8 = 7) (xs : Vec F S1024x128 .f32) : Vec F S1024x16 .f32 :=
  out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) xs

/-- Contents nothing reads: the output window's buffer at a point that stores nothing into it. -/
def restingOut1 : Vec F S1024x16 .f32 := VO1.read (Elt F) VO1.junk

/-- What the output window's buffer and the accumulator hold after the body at position `n`: by the kind of point,
    the accumulator over what the point before left. -/
def outsAt1 (c : Dev nD) : (n : ℕ) → n < cfg1.N → Vec F S1024x16 .f32 × Vec F S1024x128 .f32
  | 0, hn => (restingOut1, acc1A V c ⟨0, hn⟩ (Nat.zero_mod _))
  | n + 1, hn =>
    if h0 : (n + 1) % 8 = 0 then (restingOut1, acc1A V c ⟨n + 1, hn⟩ h0)
    else if h1 : (n + 1) % 8 = 7 then
      (out1C V c ⟨n + 1, hn⟩ h0 h1 (outsAt1 c n (Nat.lt_of_succ_lt hn)).2, acc1C V c ⟨n + 1, hn⟩ h0 h1 (outsAt1 c n (Nat.lt_of_succ_lt hn)).2)
    else (restingOut1, acc1B V c ⟨n + 1, hn⟩ h0 h1 (outsAt1 c n (Nat.lt_of_succ_lt hn)).2)

theorem outsAt1_A (c : Dev nD) (t : Fin cfg1.N) (h0 : t.val % 8 = 0) :
    outsAt1 V c t.val t.isLt = (restingOut1, acc1A V c t h0) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (restingOut1, acc1B V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1C V c t h0 h1 (outsAt1 V c (t.val - 1) (Nat.lt_of_le_of_lt (Nat.sub_le _ _) t.isLt)).2, acc1C V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's (the accumulator at anything); afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Before any point the invariant yields the accumulator at some contents, the other scoped buffers and the register. -/
theorem PhiS1_forget (c : Dev nD) (t : Fin cfg1.N) :
    (dat1 V c).Φ t.castSucc ⊢ (iprop(iprop((∃ d, owns (c : Thread nD τ) scM1 fullShare d) ∗ rest1 c) ∗ (∃ r, prngReg c r)) : sProp 𝕄) := by
  rw [PhiS1_castSucc V c t]
  by_cases hz : t.val = 0
  · rw [PhiS1_zero V c _ _ hz]; exact PhiA1_split c
  · rw [PhiS1_pos V c _ _ hz]
    iintro ⟨⟨HS, Hr⟩, Hg⟩
    isplitl [HS Hr]
    · isplitl [HS]; · iexists _; iexact HS
      iexact Hr
    iexact Hg

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' buffers hold their blocks; the point's kind selects the run; the invariant
    hands the accumulator at what the point before left (at anything where the run clears it) and takes it back at this
    point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t], after1_5]
  by_cases h0 : t.val % 8 = 0
  · have hnl : ¬last1 (grid1.coords t) := notLast1_of_first h0
    rw [Dat.leavesExact_idle (dat1 V c) 6 t (idle1_6 t hnl) (noFlush1_6 t hnl)]
    rw [outsAt1_A V c t h0]
    unfold acc1A sout1_A; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS1_forget V c t) $$ HΦ
    icases HΦ' with ⟨⟨HS0, Hrest⟩, Hg⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((first1_iff t).mpr h0) hnl (iblk1 V c 0 t) (iblk1 V c 1 t)).2 Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_A c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun h => h0 (by rw [h])
    by_cases h1 : t.val % 8 = 7
    · have hl : last1 (grid1.coords t) := (last1_iff t).mpr h1
      rw [show (dat1 V c).leavesExact 6 t = owns (c : Thread nD τ) (ms1_6 t) fullShare ((dat1 V c).after 6 t) from by
        unfold Dat.leavesExact; rw [live1_6 t hl], after1_6]
      rw [outsAt1_C V c t h0 h1]
      unfold acc1C out1C sout1_C out1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) hl (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%eO, H6⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    · have hnl : ¬last1 (grid1.coords t) := fun h => h1 ((last1_iff t).mp h)
      rw [Dat.leavesExact_idle (dat1 V c) 6 t (idle1_6 t hnl) (noFlush1_6 t hnl)]
      rw [outsAt1_B V c t h0 h1]
      unfold acc1B sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) hnl (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨⟨HS, Hr⟩, Hg⟩
  iapply (PhiA1_join c)
  isplitl [HS Hr]
  · isplitl [HS]; · iexists _; iexact HS
    iexact Hr
  iexact Hg

end

end Cert.KernelIdeal.Hand

end
-- ==== Proof.KI.Frame.lean ====
/-
  The whole program as one run: the host operations that lay out the operands, then layer 1's region, then layer 2's.
  The unscoped buffers' contents are named at each boundary (after the host operations; after layer 1, its output
  array at what the write-backs leave; after layer 2 likewise), the two regions are entered and left at those
  contents, and every weakly fair execution ends with the result array at layer 2's folded write-backs and each
  argument array as launched.
-/
import proofs.«410506_j65481071397259_3_alg».proof.Proof.Gen.KernelIdeal.Regions
import proofs.«410506_j65481071397259_3_alg».proof.Proof.KI.Dat0
import proofs.«410506_j65481071397259_3_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- After the host operations, read at the TensorCore's references: what layer 1 is entered with. -/
abbrev E1 : (c : Dev nD) → (b : Ref sig .tc) → Buf (Elt F) ((c : Thread nD τ).loc b) := fun c b => V1 m c b
/-- After layer 1: its arrays at what the pipeline leaves, every other buffer as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- The same read at the TensorCore's references: what layer 2 is entered with. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After layer 2. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = V1 m c (Proc.devRef .tc main_arg0) := W2_of_ne m c main_arg0 (by decide)
    _ = V0 m c (Proc.devRef .tc main_arg0) := V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = V1 m c (Proc.devRef .tc main_arg1) := W2_of_ne m c main_arg1 (by decide)
    _ = V0 m c (Proc.devRef .tc main_arg1) := V1_of m c main_arg1 (by decide)
    _ = m ((c : Thread nD τ).loc main_arg1) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = V1 m c (Proc.devRef .tc main_arg3) := W2_of_ne m c main_arg3 (by decide)
    _ = V0 m c (Proc.devRef .tc main_arg3) := V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = V1 m c (Proc.devRef .tc main_arg4) := W2_of_ne m c main_arg4 (by decide)
    _ = V0 m c (Proc.devRef .tc main_arg4) := V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = V1 m c (Proc.devRef .tc main_arg5) := W2_of_ne m c main_arg5 (by decide)
    _ = V0 m c (Proc.devRef .tc main_arg5) := V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = V1 m c (Proc.devRef .tc main_arg6) := W2_of_ne m c main_arg6 (by decide)
    _ = V0 m c (Proc.devRef .tc main_arg6) := V1_of m c main_arg6 (by decide)
    _ = m ((c : Thread nD τ).loc main_arg6) := rfl
/-- The adjacency is an input window's array in both layers: read, never written. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((dat1 (E2 m) c).arrAt_in 0 rfl _).trans (A_eq1 (E2 m) c 0))
    _ = V1 m c (Proc.devRef .tc main_arg2) := (W2_arr m c 0).trans (((dat0 (E1 m) c).arrAt_in 0 rfl _).trans (A_eq0 (E1 m) c 0))
    _ = V0 m c (Proc.devRef .tc main_arg2) := V1_of m c main_arg2 (by decide)
    _ = m ((c : Thread nD τ).loc main_arg2) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The host operations as a segment, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-! ## The regions as segments -/

set_option backward.isDefEq.respectTransparency.types false in
/-- Layer 1's region over the thread state: its arrays are split out of the unscoped buffers at entry and put back at
    the exit contents; the generator register goes into the invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: its arrays are split out of the unscoped buffers at entry and put back at
    the exit contents; the generator register goes into the invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- Every weakly fair execution of the program from memory `m` with zero counters terminates, and every final memory
    holds the result array at layer 2's folded write-backs and each argument array as launched. -/
theorem run_all (ρ : Dev nD → PrngReg) : θ_run defs (onTc (τ := τ) (main (F := F))) ⟨m, fun _ => 0, ρ⟩ (fun r => ∀ c : Dev nD,
      r.2.mem ((c.tc : Thread nD τ).loc main_v10) = (dat1 (E2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v10 (by decide))).trans (W3_arr m c 6),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c),
       (h c _ (mem_uc main_arg6 (by decide))).trans (W3_main_arg6 m c)⟩)

/-- The frame: the program runs to the end, faults nowhere, and leaves its argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_all m ρ)

end Cert.KernelIdeal.Hand

end
-- ==== Proof.KI.Pieces0.lean ====
/-
  Layer 1's values. What each kind of point leaves is the kernel's arithmetic of the point's blocks (the stores'
  pieces read back); the accumulator after the b-th column step of row block r holds, at (p, q), the sum over the
  column blocks 0 … b of the adjacency's row 1024·r + p times the features' column q; after the last step that is the
  whole neighbourhood sum, and the block written back is the layer's result on the row block's rows.
-/
import proofs.«410506_j65481071397259_3_alg».proof.Proof.KI.Dat0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The stores' pieces read back -/

/-- The rows of the features a step at grid coordinates `i` reads. -/
abbrev hrect0 (i : grid0.Coords) : Rect S16384x128 := Rect.unit (s := S16384x128) (k0_off1 i) S2048x128.size (k0_off1_inb i)

theorem sout0_A_eq (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : first0 i) (hc1 : ¬last0 i) (x0 : Vec F S1024x2048 .f32) (x1 : Vec F S16384x128 .bf16) :
    sout0_A c i arg2 harg2 arg3 harg3 arg4 harg4 arg5 harg5 arg6 harg6 arg7 harg7 hc0 hc1 x0 x1 = k0_pay2 (View.ld x1 (hrect0 i)) x0 (k0_pay1 (F := F)) := by
  unfold sout0_A
  rw [View.read_writes_eq_canon _ _ _ (scover0_A c i arg2 harg2 arg3 harg3 arg4 harg4 arg5 harg5 arg6 harg6 arg7 harg7 hc0 hc1 x0 x1)]
  unfold kernelRun0_A; dsimp only; sl_unfold_run_names
  rw [View.canon_cons_unit_zero (S := S1024x128) hz2, View.readCov_unit_zero (S := S1024x128) _ hz2]
  simp only [View.readAt_eq_ld, harg2.read_unread, harg3.read_unread, View.ld_unit_zero (S := S1024x2048) hz2]

theorem sout0_B_eq (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : ¬last0 i) (x0 : Vec F S1024x2048 .f32) (x1 : Vec F S16384x128 .bf16) (xs : Vec F S1024x128 .f32) :
    sout0_B c i arg2 harg2 arg3 harg3 arg4 harg4 arg5 harg5 arg6 harg6 arg7 harg7 hc0 hc1 x0 x1 xs = k0_pay2 (View.ld x1 (hrect0 i)) x0 xs := by
  unfold sout0_B
  rw [View.read_writes_eq_canon _ _ _ (scover0_B c i arg2 harg2 arg3 harg3 arg4 harg4 arg5 harg5 arg6 harg6 arg7 harg7 hc0 hc1 x0 x1 xs)]
  unfold kernelRun0_B; dsimp only; sl_unfold_run_names
  rw [View.canon_unit_zero (S := S1024x128) hz2]
  simp only [View.readAt_eq_ld, harg2.read_unread, harg3.read_unread, harg7.read_unread, View.ld_unit_zero (S := S1024x2048) hz2, View.ld_unit_zero (S := S1024x128) hz2]

theorem sout0_C_eq (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i) (x0 : Vec F S1024x2048 .f32) (x1 : Vec F S16384x128 .bf16) (x2 : Vec F S1024x1 .i32) (x3 : Vec F S8x128x128 .bf16) (xs : Vec F S1024x128 .f32) :
    sout0_C c i arg2 harg2 arg3 harg3 arg4 harg4 arg5 harg5 arg6 harg6 arg7 harg7 hc0 hc1 x0 x1 x2 x3 xs = k0_pay2 (View.ld x1 (hrect0 i)) x0 xs := by
  unfold sout0_C
  rw [View.read_writes_eq_canon _ _ _ (scover0_C c i arg2 harg2 arg3 harg3 arg4 harg4 arg5 harg5 arg6 harg6 arg7 harg7 hc0 hc1 x0 x1 x2 x3 xs)]
  unfold kernelRun0_C; dsimp only; sl_unfold_run_names
  rw [View.canon_unit_zero (S := S1024x128) hz2]
  simp only [View.readAt_eq_ld, harg2.read_unread, harg3.read_unread, harg7.read_unread, View.ld_unit_zero (S := S1024x2048) hz2, View.ld_unit_zero (S := S1024x128) hz2]

theorem out0_C_eq (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S1024x128 .bf16) (harg6 : arg6.IsWhole) (arg7 : Memref sig .tc .vmem S1024x128 .f32) (harg7 : arg7.IsWhole) (hc0 : ¬first0 i) (hc1 : last0 i) (x0 : Vec F S1024x2048 .f32) (x1 : Vec F S16384x128 .bf16) (x2 : Vec F S1024x1 .i32) (x3 : Vec F S8x128x128 .bf16) (xs : Vec F S1024x128 .f32) :
    out0_C c i arg2 harg2 arg3 harg3 arg4 harg4 arg5 harg5 arg6 harg6 arg7 harg7 hc0 hc1 x0 x1 x2 x3 xs
      = k0_pay3 (k0_pay4 (k0_pay2 (View.ld x1 (hrect0 i)) x0 xs)) (k0_pay5 x2) (k0_pay6 (k0_pay2 (View.ld x1 (hrect0 i)) x0 xs) x2 (View.ld x3 (Rect.unit (s := S8x128x128) ![0, 0, 0] S1x128x128.size inb_S8x128x128_S1x128x128_0_0_0)) (View.ld x3 (Rect.unit (s := S8x128x128) ![1, 0, 0] S1x128x128.size inb_S8x128x128_S1x128x128_1_0_0)) (View.ld x3 (Rect.unit (s := S8x128x128) ![2, 0, 0] S1x128x128.size inb_S8x128x128_S1x128x128_2_0_0)) (View.ld x3 (Rect.unit (s := S8x128x128) ![3, 0, 0] S1x128x128.size inb_S8x128x128_S1x128x128_3_0_0))) (View.ld x3 (Rect.unit (s := S8x128x128) ![4, 0, 0] S1x128x128.size inb_S8x128x128_S1x128x128_4_0_0)) (View.ld x3 (Rect.unit (s := S8x128x128) ![5, 0, 0] S1x128x128.size inb_S8x128x128_S1x128x128_5_0_0)) (View.ld x3 (Rect.unit (s := S8x128x128) ![6, 0, 0] S1x128x128.size inb_S8x128x128_S1x128x128_6_0_0)) (View.ld x3 (Rect.unit (s := S8x128x128) ![7, 0, 0] S1x128x128.size inb_S8x128x128_S1x128x128_7_0_0)) := by
  unfold out0_C
  rw [View.read_writes_eq_canon _ _ _ (cover0_C c i arg2 harg2 arg3 harg3 arg4 harg4 arg5 harg5 arg6 harg6 arg7 harg7 hc0 hc1 x0 x1 x2 x3 xs)]
  unfold kernelRun0_C; dsimp only; sl_unfold_run_names
  rw [View.canon_unit_zero (S := S1024x128) hz2]
  simp only [View.readAt_eq_ld, harg2.read_unread, harg3.read_unread, harg4.read_unread, harg5.read_unread, harg7.read_unread, View.readCov_unit_zero (S := S1024x128) _ hz2, View.ld_unit_zero (S := S1024x2048) hz2, View.ld_unit_zero (S := S1024x128) hz2, View.ld_unit_zero (S := S1024x1) hz2]

end Cert.KernelIdeal.Hand

end
-- ==== Proof.Spec.lean ====
/-
  The mathematics both programs compute, as functions of the seven argument arrays over the extended reals.

  A graph layer aggregates each node's neighbourhood, agg[n, i] = Σ_k adj[n, k] · h[k, i], applies to node n the
  weight matrix of n's own type, out[n, o] = Σ_i agg[n, i] · W[type n, o, i], and clamps at zero. Two layers are
  followed by a linear read-out, logits[n, c] = Σ_i h2[n, i] · Wc[c, i] + bc[c].
  A node's type is its word read as a natural number (reduced mod 8 so that it always names a row of W; on the
  domain 0 ≤ type < 8 the reduction does nothing).
-/
import Idealize.ShloMosaic.PureOps.Ideal
import Idealize.ShloMosaic.Lib.ValueIdx

noncomputable section

open scoped BigOperators

namespace Cert.Spec

open Idealize.ShloMosaic Idealize.ShloMosaic.ValueIdx

abbrev SN128 : Shape := ⟨2, ![16384, 128]⟩
abbrev SN : Shape := ⟨1, ![16384]⟩
abbrev SNN : Shape := ⟨2, ![16384, 16384]⟩
abbrev SW : Shape := ⟨3, ![8, 128, 128]⟩
abbrev SC128 : Shape := ⟨2, ![16, 128]⟩
abbrev SC : Shape := ⟨1, ![16]⟩
abbrev SNC : Shape := ⟨2, ![16384, 16]⟩

/-- Row `p` of row block `r` (1024 rows a block), as a row of the whole array; reduced mod 16384 so that it is total. -/
def rowOf (r : ℕ) (p : Fin 1024) : Fin 16384 := ⟨(1024 * r + p.val) % 16384, Nat.mod_lt _ (by norm_num)⟩
/-- Column `k` of column block `b` (2048 columns a block), as a column of the whole array; reduced mod 16384 likewise. -/
def colOf (b : ℕ) (k : Fin 2048) : Fin 16384 := ⟨(2048 * b + k.val) % 16384, Nat.mod_lt _ (by norm_num)⟩

/-- Node `n`'s type as a row of the weight stack. -/
def tyIdx (nt : SN.Idx → BitVec 32) (n : Fin 16384) : Fin 8 :=
  ⟨(nt (ix1 n)).toNat % 8, Nat.mod_lt _ (by norm_num)⟩

/-- The neighbourhood sum of feature `i` at node `n`. -/
def agg (adj : SNN.Idx → EReal) (h : SN128.Idx → EReal) (n : Fin 16384) (i : Fin 128) : EReal :=
  ∑ k : Fin 16384, adj (ix2 n k) * h (ix2 k i)

/-- One layer at node `n`, output feature `o`: the node's own type's matrix applied to the aggregate, clamped at zero. -/
def layerAt (adj : SNN.Idx → EReal) (nt : SN.Idx → BitVec 32) (W : SW.Idx → EReal) (h : SN128.Idx → EReal)
    (n : Fin 16384) (o : Fin 128) : EReal :=
  max (∑ i : Fin 128, agg adj h n i * W (ix3 (tyIdx nt n) o i)) 0

/-- One layer as an array. -/
def layer (adj : SNN.Idx → EReal) (nt : SN.Idx → BitVec 32) (W : SW.Idx → EReal) (h : SN128.Idx → EReal) :
    SN128.Idx → EReal :=
  fun j => layerAt adj nt W h (j 0) (j 1)

/-- The read-out at node `n`, class `c`. -/
def logitsAt (adj : SNN.Idx → EReal) (nt : SN.Idx → BitVec 32) (W1 W2 : SW.Idx → EReal) (Wc : SC128.Idx → EReal)
    (bc : SC.Idx → EReal) (x : SN128.Idx → EReal) (n : Fin 16384) (c : Fin 16) : EReal :=
  (∑ i : Fin 128, layer adj nt W2 (layer adj nt W1 x) (ix2 n i) * Wc (ix2 c i)) + bc (ix1 c)

/-- The whole computation as an array: two layers and the read-out. -/
def logits (adj : SNN.Idx → EReal) (nt : SN.Idx → BitVec 32) (W1 W2 : SW.Idx → EReal) (Wc : SC128.Idx → EReal)
    (bc : SC.Idx → EReal) (x : SN128.Idx → EReal) : SNC.Idx → EReal :=
  fun j => logitsAt adj nt W1 W2 Wc bc x (j 0) (j 1)

end Cert.Spec

end
-- ==== Proof.KI.Blk0.lean ====
/-
  Layer 1's windows read at an index: the adjacency block of point t = 8·r + b is rows 1024·r … and columns 2048·b … of
  the adjacency; the node-type block is rows 1024·r … of the type column; the other inputs are whole arrays; the
  step's slice of the features is rows 2048·b …; the output block of point t is rows 1024·r … of the result, and
  the blocks written back at the row blocks' last steps cover the result.
-/
import proofs.«410506_j65481071397259_3_alg».proof.Proof.KI.Base
import proofs.«410506_j65481071397259_3_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

/-! ## The index maps over the grid

Point t = 8·r + b has coordinates (r, b) = (t / 8, t % 8); each window's index map, evaluated at every one of the 128
points. -/

/-- The adjacency window's block index is the point's coordinates. -/
theorem index0_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
/-- Window 1's block index is zero on both axes. -/
theorem index0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The node-type window's block index is the row-block coordinate, and zero on the unit axis. -/
theorem index0_2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
/-- Window 3's block index is zero on all three axes. -/
theorem index0_3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)
/-- The output window's block index is the row-block coordinate, and zero on the feature axis. -/
theorem index0_4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
/-- The step's slice starts at row 2048·b of the features, at column 0. -/
theorem off0_1 : ∀ t : Fin cfg0.N, k0_off1 (grid0.coords t) (0 : Fin 2) = 2048 * (t.val % 8) ∧ k0_off1 (grid0.coords t) (1 : Fin 2) = 0 :=
  (by decide +kernel : ∀ t : Fin grid0.N, k0_off1 (grid0.coords t) (0 : Fin 2) = 2048 * (t.val % 8) ∧ k0_off1 (grid0.coords t) (1 : Fin 2) = 0)

/-- A point's number is below 128. -/
theorem lt0 (t : Fin cfg0.N) : t.val < 128 := by
  have h := t.isLt
  have hN : cfg0.N = 128 := N_0
  omega

section
variable (V : (c : Dev nD) → (b : Ref sig .tc) → Buf (Elt F) ((c : Thread nD τ).loc b))

/-- The adjacency block at point `t`, at (p, k). -/
theorem iblk0_0_apply (c : Dev nD) (t : Fin cfg0.N) (p : Fin 1024) (k : Fin 2048) :
    (iblk0 V c 0 t : S1024x2048.Idx → Elt F .f32) (ix2 p k)
      = (V c main_arg2 : S16384x16384.Idx → Elt F .f32) (ix2 (rowOf (t.val / 8) p) (colOf (t.val % 8) k)) := by
  obtain ⟨e0, e1⟩ := index0_0 t
  have ht := lt0 t
  have hp := p.isLt
  have hk := k.isLt
  try unfold iblk0
  try rw [View.read_apply]
  show V c main_arg2 (((cfg0.win 0).blk t).view.emb (ix2 p k)) = V c main_arg2 (ix2 (rowOf (t.val / 8) p) (colOf (t.val % 8) k))
  first | congr 1 | refine congrArg _ ?_
  funext a
  apply Fin.ext
  match a with
  | ⟨0, _⟩ =>
    show win0_0.index t (0 : Fin 2) * 1024 + 1 * p.val = (1024 * (t.val / 8) + p.val) % 16384
    first | (rw [e0]; omega) | omega
  | ⟨1, _⟩ =>
    show win0_0.index t (1 : Fin 2) * 2048 + 1 * k.val = (2048 * (t.val % 8) + k.val) % 16384
    first | (rw [e1]; omega) | omega
/-- Window 1 is the whole array at every point. -/
theorem iblk0_1_eq (c : Dev nD) (t : Fin cfg0.N) :
    (iblk0 V c 1 t : S16384x128.Idx → Elt F .bf16) = (V c main_v8 : S16384x128.Idx → Elt F .bf16) := by
  obtain ⟨e0, e1⟩ := index0_1 t
  funext y
  try unfold iblk0
  try rw [View.read_apply]
  show V c main_v8 (((cfg0.win 1).blk t).view.emb y) = V c main_v8 y
  first | congr 1 | refine congrArg _ ?_
  funext a
  apply Fin.ext
  match a with
  | ⟨0, _⟩ =>
    show win0_1.index t (0 : Fin 2) * 16384 + 1 * (y 0).val = (y 0).val
    first | (rw [e0]; omega) | omega
  | ⟨1, _⟩ =>
    show win0_1.index t (1 : Fin 2) * 128 + 1 * (y 1).val = (y 1).val
    first | (rw [e1]; omega) | omega
/-- The node-type block at point `t`, at row p. -/
theorem iblk0_2_apply (c : Dev nD) (t : Fin cfg0.N) (p : Fin 1024) :
    (iblk0 V c 2 t : S1024x1.Idx → Elt F .i32) (ix2 p (0 : Fin 1))
      = (V c main_v0 : S16384x1.Idx → Elt F .i32) (ix2 (rowOf (t.val / 8) p) (0 : Fin 1)) := by
  obtain ⟨e0, e1⟩ := index0_2 t
  have ht := lt0 t
  have hp := p.isLt
  try unfold iblk0
  try rw [View.read_apply]
  show V c main_v0 (((cfg0.win 2).blk t).view.emb (ix2 p (0 : Fin 1))) = V c main_v0 (ix2 (rowOf (t.val / 8) p) (0 : Fin 1))
  first | congr 1 | refine congrArg _ ?_
  funext a
  apply Fin.ext
  match a with
  | ⟨0, _⟩ =>
    show win0_2.index t (0 : Fin 2) * 1024 + 1 * p.val = (1024 * (t.val / 8) + p.val) % 16384
    first | (rw [e0]; omega) | omega
  | ⟨1, _⟩ =>
    show win0_2.index t (1 : Fin 2) * 1 + 1 * 0 = 0
    omega
/-- Window 3 is the whole array at every point. -/
theorem iblk0_3_eq (c : Dev nD) (t : Fin cfg0.N) :
    (iblk0 V c 3 t : S8x128x128.Idx → Elt F .bf16) = (V c main_v2 : S8x128x128.Idx → Elt F .bf16) := by
  obtain ⟨e0, e1, e2⟩ := index0_3 t
  funext y
  try unfold iblk0
  try rw [View.read_apply]
  show V c main_v2 (((cfg0.win 3).blk t).view.emb y) = V c main_v2 y
  first | congr 1 | refine congrArg _ ?_
  funext a
  apply Fin.ext
  match a with
  | ⟨0, _⟩ =>
    show win0_3.index t (0 : Fin 3) * 8 + 1 * (y 0).val = (y 0).val
    first | (rw [e0]; omega) | omega
  | ⟨1, _⟩ =>
    show win0_3.index t (1 : Fin 3) * 128 + 1 * (y 1).val = (y 1).val
    first | (rw [e1]; omega) | omega
  | ⟨2, _⟩ =>
    show win0_3.index t (2 : Fin 3) * 128 + 1 * (y 2).val = (y 2).val
    first | (rw [e2]; omega) | omega

end

/-- The step's slice of the features: rows 2048·b … of the whole array. -/
theorem hslice0_apply (t : Fin cfg0.N) (x1 : Vec F S16384x128 .bf16) (k : Fin 2048) (q : Fin 128) :
    View.ld x1 (Rect.unit (s := S16384x128) (k0_off1 (grid0.coords t)) S2048x128.size (k0_off1_inb (grid0.coords t))) (ix2 k q)
      = x1 (ix2 (colOf (t.val % 8) k) q) := by
  obtain ⟨e0, e1⟩ := off0_1 t
  have ht := lt0 t
  have hk := k.isLt
  show x1 ((Rect.unit (s := S16384x128) (k0_off1 (grid0.coords t)) S2048x128.size (k0_off1_inb (grid0.coords t))).idx (ix2 k q)) = x1 (ix2 (colOf (t.val % 8) k) q)
  first | congr 1 | refine congrArg _ ?_
  funext a
  apply Fin.ext
  match a with
  | ⟨0, _⟩ =>
    show k0_off1 (grid0.coords t) (0 : Fin 2) + 1 * k.val = (2048 * (t.val % 8) + k.val) % 16384
    first | (rw [e0]; omega) | omega
  | ⟨1, _⟩ =>
    show k0_off1 (grid0.coords t) (1 : Fin 2) + 1 * q.val = q.val
    first | (rw [e1]; omega) | omega

/-- Type `j`'s matrix out of the weight stack: the eight literal slices. -/
theorem wslice0_0 (x3 : Vec F S8x128x128 .bf16) (i o : Fin 128) :
    View.ld x3 (Rect.unit (s := S8x128x128) ![0, 0, 0] S1x128x128.size inb_S8x128x128_S1x128x128_0_0_0) (ix3 (0 : Fin 1) i o) = x3 (ix3 (0 : Fin 8) i o) := by
  show x3 ((Rect.unit (s := S8x128x128) ![0, 0, 0] S1x128x128.size inb_S8x128x128_S1x128x128_0_0_0).idx (ix3 (0 : Fin 1) i o)) = x3 (ix3 (0 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice0_1 (x3 : Vec F S8x128x128 .bf16) (i o : Fin 128) :
    View.ld x3 (Rect.unit (s := S8x128x128) ![1, 0, 0] S1x128x128.size inb_S8x128x128_S1x128x128_1_0_0) (ix3 (0 : Fin 1) i o) = x3 (ix3 (1 : Fin 8) i o) := by
  show x3 ((Rect.unit (s := S8x128x128) ![1, 0, 0] S1x128x128.size inb_S8x128x128_S1x128x128_1_0_0).idx (ix3 (0 : Fin 1) i o)) = x3 (ix3 (1 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice0_2 (x3 : Vec F S8x128x128 .bf16) (i o : Fin 128) :
    View.ld x3 (Rect.unit (s := S8x128x128) ![2, 0, 0] S1x128x128.size inb_S8x128x128_S1x128x128_2_0_0) (ix3 (0 : Fin 1) i o) = x3 (ix3 (2 : Fin 8) i o) := by
  show x3 ((Rect.unit (s := S8x128x128) ![2, 0, 0] S1x128x128.size inb_S8x128x128_S1x128x128_2_0_0).idx (ix3 (0 : Fin 1) i o)) = x3 (ix3 (2 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice0_3 (x3 : Vec F S8x128x128 .bf16) (i o : Fin 128) :
    View.ld x3 (Rect.unit (s := S8x128x128) ![3, 0, 0] S1x128x128.size inb_S8x128x128_S1x128x128_3_0_0) (ix3 (0 : Fin 1) i o) = x3 (ix3 (3 : Fin 8) i o) := by
  show x3 ((Rect.unit (s := S8x128x128) ![3, 0, 0] S1x128x128.size inb_S8x128x128_S1x128x128_3_0_0).idx (ix3 (0 : Fin 1) i o)) = x3 (ix3 (3 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice0_4 (x3 : Vec F S8x128x128 .bf16) (i o : Fin 128) :
    View.ld x3 (Rect.unit (s := S8x128x128) ![4, 0, 0] S1x128x128.size inb_S8x128x128_S1x128x128_4_0_0) (ix3 (0 : Fin 1) i o) = x3 (ix3 (4 : Fin 8) i o) := by
  show x3 ((Rect.unit (s := S8x128x128) ![4, 0, 0] S1x128x128.size inb_S8x128x128_S1x128x128_4_0_0).idx (ix3 (0 : Fin 1) i o)) = x3 (ix3 (4 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice0_5 (x3 : Vec F S8x128x128 .bf16) (i o : Fin 128) :
    View.ld x3 (Rect.unit (s := S8x128x128) ![5, 0, 0] S1x128x128.size inb_S8x128x128_S1x128x128_5_0_0) (ix3 (0 : Fin 1) i o) = x3 (ix3 (5 : Fin 8) i o) := by
  show x3 ((Rect.unit (s := S8x128x128) ![5, 0, 0] S1x128x128.size inb_S8x128x128_S1x128x128_5_0_0).idx (ix3 (0 : Fin 1) i o)) = x3 (ix3 (5 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice0_6 (x3 : Vec F S8x128x128 .bf16) (i o : Fin 128) :
    View.ld x3 (Rect.unit (s := S8x128x128) ![6, 0, 0] S1x128x128.size inb_S8x128x128_S1x128x128_6_0_0) (ix3 (0 : Fin 1) i o) = x3 (ix3 (6 : Fin 8) i o) := by
  show x3 ((Rect.unit (s := S8x128x128) ![6, 0, 0] S1x128x128.size inb_S8x128x128_S1x128x128_6_0_0).idx (ix3 (0 : Fin 1) i o)) = x3 (ix3 (6 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice0_7 (x3 : Vec F S8x128x128 .bf16) (i o : Fin 128) :
    View.ld x3 (Rect.unit (s := S8x128x128) ![7, 0, 0] S1x128x128.size inb_S8x128x128_S1x128x128_7_0_0) (ix3 (0 : Fin 1) i o) = x3 (ix3 (7 : Fin 8) i o) := by
  show x3 ((Rect.unit (s := S8x128x128) ![7, 0, 0] S1x128x128.size inb_S8x128x128_S1x128x128_7_0_0).idx (ix3 (0 : Fin 1) i o)) = x3 (ix3 (7 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega

/-- The output block of point `t` of a whole-array contents `G`, at (p, q). -/
theorem oblk0_apply (c : Dev nD) (t : Fin cfg0.N) (G : S16384x128.Idx → Elt F .bf16) (p : Fin 1024) (q : Fin 128) :
    (((cfg0.win 4).blk t).view.read (Elt F) (G : Buf (Elt F) ((cfg0.win 4).arr.view.loc (c.tc : Thread nD τ))) : S1024x128.Idx → Elt F .bf16) (ix2 p q)
      = G (ix2 (rowOf (t.val / 8) p) q) := by
  obtain ⟨e0, e1⟩ := index0_4 t
  have ht := lt0 t
  have hp := p.isLt
  try rw [View.read_apply]
  show G (((cfg0.win 4).blk t).view.emb (ix2 p q)) = G (ix2 (rowOf (t.val / 8) p) q)
  first | congr 1 | refine congrArg _ ?_
  funext a
  apply Fin.ext
  match a with
  | ⟨0, _⟩ =>
    show win0_4.index t (0 : Fin 2) * 1024 + 1 * p.val = (1024 * (t.val / 8) + p.val) % 16384
    first | (rw [e0]; omega) | omega
  | ⟨1, _⟩ =>
    show win0_4.index t (1 : Fin 2) * 128 + 1 * q.val = q.val
    first | (rw [e1]; omega) | omega

/-- An index of the result array is in point `t`'s block iff each coordinate is in the block's range on its axis. -/
theorem mem_oblk0 (t : Fin cfg0.N) (i : S16384x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v9).slice (win0_4.rect t)).set ↔ _
  rw [View.set_slice_whole, Rect.mem_set_unit]
  exact Iff.rfl

/-- Row n of the result lies in the block of the last step of row block n / 1024: point 8·(n / 1024) + 7. -/
theorem ocover0_idx (i : S16384x128.Idx) :
    ∃ t : Fin cfg0.N, (cfg0.win 4).flush t = true ∧ i ∈ ((cfg0.win 4).blk t).view.set := by
  have hi0 : (i 0).val < 16384 := (i 0).isLt
  have hi1 : (i 1).val < 128 := (i 1).isLt
  have hN : cfg0.N = 128 := N_0
  obtain ⟨t, ht⟩ : ∃ t : Fin cfg0.N, t.val = 8 * ((i 0).val / 1024) + 7 := ⟨⟨8 * ((i 0).val / 1024) + 7, by rw [hN]; omega⟩, rfl⟩
  obtain ⟨e0, e1⟩ := index0_4 t
  refine ⟨t, (flush0_4 t).mpr (by omega), ?_⟩
  rw [mem_oblk0]
  intro a
  match a with
  | ⟨0, _⟩ =>
    show win0_4.index t (0 : Fin 2) * 1024 ≤ (i 0).val ∧ (i 0).val < win0_4.index t (0 : Fin 2) * 1024 + 1024
    first | (rw [e0]; omega) | omega
  | ⟨1, _⟩ =>
    show win0_4.index t (1 : Fin 2) * 128 ≤ (i 1).val ∧ (i 1).val < win0_4.index t (1 : Fin 2) * 128 + 128
    first | (rw [e1]; omega) | omega

/-- Every index of the result array lies in the block some row block's last step writes back. -/
theorem ocover0 (c : Dev nD) (i : ((cfg0.win 4).arr.view.loc (c.tc : Thread nD τ)).2.ty.Idx) :
    ∃ t : Fin cfg0.N, (cfg0.win 4).flush t = true ∧ i ∈ ((cfg0.win 4).blk t).view.set :=
  ocover0_idx i

/-- Every row of the whole array is a row of some row block. -/
theorem exists_rowOf (n : Fin 16384) : ∃ (r : ℕ) (p : Fin 1024), r < 16 ∧ rowOf r p = n := by
  have hn := n.isLt
  refine ⟨n.val / 1024, ⟨n.val % 1024, Nat.mod_lt _ (by norm_num)⟩, by omega, ?_⟩
  apply Fin.ext
  show (1024 * (n.val / 1024) + n.val % 1024) % 16384 = n.val
  omega

end Cert.KernelIdeal.Hand

end
-- ==== Proof.LibPlainDot.lean ====
/-
  A plain matrix product read at an element, at the extended reals: for dimension numbers that contract the left
  operand's axis 1 with the right operand's axis 0 and have no batch axis ([M, K] by [K, N]), the contraction at (p, q)
  is the sum over k of lhs[p, k] * rhs[k, q] — for a kernel's matmul into a zero accumulator and for the host's
  dot_general alike. General lemmas over any sizes; they import no program.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

/-- The plain dimension numbers over any well-formedness proof. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the output's row … -/
theorem lhs_0 (i : (⟨2, ![M, N]⟩ : Shape).Idx) (q : (plainDims M K N wf).contr.Idx) :
    ((plainDims M K N wf).lhsIdx i q 0).val = (i 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl
/-- … its column the contracted coordinate … -/
theorem lhs_1 (i : (⟨2, ![M, N]⟩ : Shape).Idx) (q : (plainDims M K N wf).contr.Idx) :
    ((plainDims M K N wf).lhsIdx i q 1).val = (q ⟨0, (Nat.one_pos : 0 < (plainDims M K N wf).contr.rank)⟩).val :=
  (plainDims M K N wf).lhsIdx_val_of_single rfl i q
/-- … the right operand's row the contracted coordinate … -/
theorem rhs_0 (i : (⟨2, ![M, N]⟩ : Shape).Idx) (q : (plainDims M K N wf).contr.Idx) :
    ((plainDims M K N wf).rhsIdx i q 0).val = (q ⟨0, (Nat.one_pos : 0 < (plainDims M K N wf).contr.rank)⟩).val :=
  (plainDims M K N wf).rhsIdx_val_of_single rfl i q
/-- … and its column the output's column. -/
theorem rhs_1 (i : (⟨2, ![M, N]⟩ : Shape).Idx) (q : (plainDims M K N wf).contr.Idx) :
    ((plainDims M K N wf).rhsIdx i q 1).val = (i 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- The contraction sum of the plain dimension numbers at (p, q), re-indexed by the contracted coordinate. -/
theorem plain_sum (l : (⟨2, ![M, K]⟩ : Shape).Idx → EReal) (r : (⟨2, ![K, N]⟩ : Shape).Idx → EReal) (p : Fin M) (q : Fin N) :
    ∑ k : (plainDims M K N wf).contr.Idx, l ((plainDims M K N wf).lhsIdx (ix2 p q) k) * r ((plainDims M K N wf).rhsIdx (ix2 p q) k)
      = ∑ k : Fin K, l (ix2 p k) * r (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_0 wf _ _
      | ⟨1, _⟩ => exact (lhs_1 wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_0 wf _ _).trans hk
      | ⟨1, _⟩ => exact rhs_1 wf _ _)
  rw [el, er]

/-- The same for any record of dimension numbers whose six lists are the plain ones. -/
theorem contr_sum_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf'⟩ := d
  dsimp only at hlc hrc hln hrn hlb hrb
  subst hlc hrc hln hrn hlb hrb
  exact plain_sum wf' l r p q

/-- A kernel's matmul into the zero accumulator, at (p, q): the sum over k of lhs[p, k] * rhs[k, q]. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact contr_sum_apply d hlc hrc hln hrn hlb hrb l r p q

/-- The host's dot_general, at (p, q): the same sum. -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact contr_sum_apply d hlc hrc hln hrn hlb hrb l r p q

end Idealize.ShloMosaic.PlainDot

end
-- ==== Proof.KI.Pay.lean ====
/-
  The kernels' arithmetic, one element at a time, over the extended reals. A step's update of the accumulator adds the
  product of the adjacency block's row with the feature rows' column; the cleared accumulator is zero; at a row
  block's last step each row goes through its own type's matrix (the chain of selects keeps, of the eight products,
  the one whose index equals the row's type word) and negative entries are cut to zero; layer 2 then applies the
  read-out matrix and adds the bias.
-/
import proofs.«410506_j65481071397259_3_alg».proof.Proof.Gen.KernelIdeal.Skeleton
import proofs.«410506_j65481071397259_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## Layout: a column broadcast along its rows -/

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## Words: the chain of selects on a type word -/

/-- A word whose value is `t`, below 8, picks the `t`-th of eight values out of the chain of selects that compares it
    with 0, 1, …, 7 in turn (each later comparison overriding the earlier ones), whatever the chain starts from. -/
theorem select_chain {α : Type} (n : BitVec 32) (t : Fin 8) (hn : n.toNat = t.val) (z : α) (a : Fin 8 → α) :
    Scalar.select (IntOp.cmpi .eq n 7#32) (a 7)
      (Scalar.select (IntOp.cmpi .eq n 6#32) (a 6)
      (Scalar.select (IntOp.cmpi .eq n 5#32) (a 5)
      (Scalar.select (IntOp.cmpi .eq n 4#32) (a 4)
      (Scalar.select (IntOp.cmpi .eq n 3#32) (a 3)
      (Scalar.select (IntOp.cmpi .eq n 2#32) (a 2)
      (Scalar.select (IntOp.cmpi .eq n 1#32) (a 1)
      (Scalar.select (IntOp.cmpi .eq n 0#32) (a 0) z))))))) = a t := by
  obtain rfl : n = BitVec.ofNat 32 t.val :=
    BitVec.eq_of_toNat_eq (by
      rw [hn, BitVec.toNat_ofNat]
      exact (Nat.mod_eq_of_lt (by have := t.isLt; omega)).symm)
  fin_cases t <;> rfl

/-! ## One product of the aggregate with a slice of a weight stack -/

/-- The aggregate's block (read in the narrower format, which changes nothing here) times one `[1, 128, 128]` slice
    seen as a matrix, into the zero accumulator, at `(p, q)`: row `p` of the aggregate against column `q` of the slice. -/
theorem mm_acc (acc : FVec Ideal S1024x128 .f32) (w : FVec Ideal S1x128x128 .bf16) (p : Fin 1024) (q : Fin 128) :
    FloatOps.matmul dot_S1024x128_S128x128_S1024x128_1_0_0_1_n_n none
        (truncf (F := Ideal) (φ := .f32) .bf16 acc Gen.bitsLt_bf16_f32)
        (shapeCast S128x128 w Gen.shapeCasts_S1x128x128_S128x128) (constant S1024x128 .f32 0x00000000#32) (ix2 p q)
      = ∑ i : Fin 128, acc (ix2 p i) * w (ix3 (0 : Fin 1) i q) := by
  rw [PlainDot.matmul_zero_apply dot_S1024x128_S128x128_S1024x128_1_0_0_1_n_n rfl rfl rfl rfl rfl rfl]
  refine Finset.sum_congr rfl fun i _ => ?_
  rw [shapeCast_1ab_ab_apply]
  rfl

/-- The type word of row `p`, as the kernels spread it along the row. -/
theorem word_apply (nt : IVec S1024x1 32) (p : Fin 1024) (q : Fin 128) :
    k0_pay5 (F := Ideal) nt (ix2 p q) = nt (ix2 p (0 : Fin 1)) := by
  show broadcastTo S1024x128 (shapeCast S1024x1 (shapeCast S1024x1 nt Gen.shapeCasts_S1024x1_S1024x1) Gen.shapeCasts_S1024x1_S1024x1)
      Gen.broadcasts_S1024x1_S1024x128 (ix2 p q) = _
  rw [shapeCast_self, shapeCast_self]
  exact broadcastTo_a1_ab_apply nt _ p q

/-! ## The payloads at an index -/

/-- The cleared accumulator is zero everywhere (layer 1). -/
theorem pay1_apply0 (p : Fin 1024) (q : Fin 128) : k0_pay1 (F := Ideal) (ix2 p q) = 0 := by
  show shapeCast S1024x128 (broadcast S1024x128 (Ideal.ofBits .f32 0x00000000#32)) _ (ix2 p q) = 0
  rw [shapeCast_self]
  exact Ideal.ofBits_zero_f32
/-- The cleared accumulator is zero everywhere (layer 2). -/
theorem pay1_apply1 (p : Fin 1024) (q : Fin 128) : k1_pay1 (F := Ideal) (ix2 p q) = 0 := by
  show shapeCast S1024x128 (broadcast S1024x128 (Ideal.ofBits .f32 0x00000000#32)) _ (ix2 p q) = 0
  rw [shapeCast_self]
  exact Ideal.ofBits_zero_f32

/-- One accumulation step at (p, q): what was there plus the adjacency block's row p times the feature rows' column q (layer 1). -/
theorem pay2_apply0 (v6 : Vec Ideal S2048x128 .bf16) (v8 : Vec Ideal S1024x2048 .f32) (v10 : Vec Ideal S1024x128 .f32)
    (p : Fin 1024) (q : Fin 128) :
    k0_pay2 v6 v8 v10 (ix2 p q) = v10 (ix2 p q) + ∑ k : Fin 2048, v8 (ix2 p k) * v6 (ix2 k q) := by
  show shapeCast S1024x128 (addf (F := Ideal) (φ := .f32) v10 (FloatOps.matmul (F := Ideal) (φ₁ := .bf16) (φ₂ := .bf16)
      dot_S1024x2048_S2048x128_S1024x128_1_0_0_1_n_n none (truncf (F := Ideal) (φ := .f32) .bf16 v8 Gen.bitsLt_bf16_f32)
      (shapeCast S2048x128 v6 _) (constant S1024x128 .f32 0x00000000#32))) _ (ix2 p q) = _
  rw [shapeCast_self, shapeCast_self]
  exact congrArg (v10 (ix2 p q) + ·)
    (PlainDot.matmul_zero_apply (φ₁ := .bf16) (φ₂ := .bf16) dot_S1024x2048_S2048x128_S1024x128_1_0_0_1_n_n rfl rfl rfl rfl rfl rfl none
      (truncf (F := Ideal) (φ := .f32) .bf16 v8 Gen.bitsLt_bf16_f32) v6 p q)
/-- The same for layer 2. -/
theorem pay2_apply1 (v6 : Vec Ideal S2048x128 .bf16) (v8 : Vec Ideal S1024x2048 .f32) (v10 : Vec Ideal S1024x128 .f32)
    (p : Fin 1024) (q : Fin 128) :
    k1_pay2 v6 v8 v10 (ix2 p q) = v10 (ix2 p q) + ∑ k : Fin 2048, v8 (ix2 p k) * v6 (ix2 k q) := by
  show shapeCast S1024x128 (addf (F := Ideal) (φ := .f32) v10 (FloatOps.matmul (F := Ideal) (φ₁ := .bf16) (φ₂ := .bf16)
      dot_S1024x2048_S2048x128_S1024x128_1_0_0_1_n_n none (truncf (F := Ideal) (φ := .f32) .bf16 v8 Gen.bitsLt_bf16_f32)
      (shapeCast S2048x128 v6 _) (constant S1024x128 .f32 0x00000000#32))) _ (ix2 p q) = _
  rw [shapeCast_self, shapeCast_self]
  exact congrArg (v10 (ix2 p q) + ·)
    (PlainDot.matmul_zero_apply (φ₁ := .bf16) (φ₂ := .bf16) dot_S1024x2048_S2048x128_S1024x128_1_0_0_1_n_n rfl rfl rfl rfl rfl rfl none
      (truncf (F := Ideal) (φ := .f32) .bf16 v8 Gen.bitsLt_bf16_f32) v6 p q)

/-- The eight matrices of a weight stack's slices, by type. -/
def wOf (w0 w1 w2 w3 w4 w5 w6 w7 : Vec Ideal S1x128x128 .bf16) (t : Fin 8) : Vec Ideal S1x128x128 .bf16 :=
  match t with
  | ⟨0, _⟩ => w0 | ⟨1, _⟩ => w1 | ⟨2, _⟩ => w2 | ⟨3, _⟩ => w3 | ⟨4, _⟩ => w4 | ⟨5, _⟩ => w5 | ⟨6, _⟩ => w6 | ⟨7, _⟩ => w7

/-- The chain's first half at (p, q): types 0 to 3 compared in turn, starting from zero. -/
theorem low_apply (acc : FVec Ideal S1024x128 .f32) (nt : IVec S1024x1 32) (w0 w1 w2 w3 : FVec Ideal S1x128x128 .bf16)
    (p : Fin 1024) (q : Fin 128) :
    k0_pay6 (F := Ideal) acc nt w0 w1 w2 w3 (ix2 p q)
      = Scalar.select (IntOp.cmpi .eq (nt (ix2 p (0 : Fin 1))) 3#32) (∑ i : Fin 128, acc (ix2 p i) * w3 (ix3 (0 : Fin 1) i q))
        (Scalar.select (IntOp.cmpi .eq (nt (ix2 p (0 : Fin 1))) 2#32) (∑ i : Fin 128, acc (ix2 p i) * w2 (ix3 (0 : Fin 1) i q))
        (Scalar.select (IntOp.cmpi .eq (nt (ix2 p (0 : Fin 1))) 1#32) (∑ i : Fin 128, acc (ix2 p i) * w1 (ix3 (0 : Fin 1) i q))
        (Scalar.select (IntOp.cmpi .eq (nt (ix2 p (0 : Fin 1))) 0#32) (∑ i : Fin 128, acc (ix2 p i) * w0 (ix3 (0 : Fin 1) i q)) 0))) := by
  rw [← mm_acc acc w3 p q, ← mm_acc acc w2 p q, ← mm_acc acc w1 p q, ← mm_acc acc w0 p q, ← word_apply nt p q,
    ← Ideal.ofBits_zero_f32]
  rfl

/-- The chain's second half at (p, q), over whatever the first half left: types 4 to 7, then the cut at zero. -/
theorem top_apply (acc : FVec Ideal S1024x128 .f32) (nt : IVec S1024x1 32) (v49 : FVec Ideal S1024x128 .f32)
    (w4 w5 w6 w7 : FVec Ideal S1x128x128 .bf16) (p : Fin 1024) (q : Fin 128) :
    k0_pay3 (F := Ideal) (k0_pay4 acc) (k0_pay5 (F := Ideal) nt) v49 w4 w5 w6 w7 (ix2 p q)
      = max (Scalar.select (IntOp.cmpi .eq (nt (ix2 p (0 : Fin 1))) 7#32) (∑ i : Fin 128, acc (ix2 p i) * w7 (ix3 (0 : Fin 1) i q))
        (Scalar.select (IntOp.cmpi .eq (nt (ix2 p (0 : Fin 1))) 6#32) (∑ i : Fin 128, acc (ix2 p i) * w6 (ix3 (0 : Fin 1) i q))
        (Scalar.select (IntOp.cmpi .eq (nt (ix2 p (0 : Fin 1))) 5#32) (∑ i : Fin 128, acc (ix2 p i) * w5 (ix3 (0 : Fin 1) i q))
        (Scalar.select (IntOp.cmpi .eq (nt (ix2 p (0 : Fin 1))) 4#32) (∑ i : Fin 128, acc (ix2 p i) * w4 (ix3 (0 : Fin 1) i q)) (v49 (ix2 p q)))))) 0 := by
  rw [← mm_acc acc w7 p q, ← mm_acc acc w6 p q, ← mm_acc acc w5 p q, ← mm_acc acc w4 p q, ← word_apply nt p q,
    ← Ideal.ofBits_zero_f32]
  rfl

/-- Layer 1's finished block at (p, q), for a row whose type word is `t`: the aggregate's row through type `t`'s matrix, cut at zero. -/
theorem feat_apply (acc : Vec Ideal S1024x128 .f32) (nt : Vec Ideal S1024x1 .i32)
    (w0 w1 w2 w3 w4 w5 w6 w7 : Vec Ideal S1x128x128 .bf16) (p : Fin 1024) (q : Fin 128) (t : Fin 8)
    (ht : (nt (ix2 p (0 : Fin 1))).toNat = t.val) :
    k0_pay3 (k0_pay4 acc) (k0_pay5 nt) (k0_pay6 acc nt w0 w1 w2 w3) w4 w5 w6 w7 (ix2 p q)
      = max (∑ i : Fin 128, acc (ix2 p i) * wOf w0 w1 w2 w3 w4 w5 w6 w7 t (ix3 (0 : Fin 1) i q)) 0 := by
  rw [top_apply, low_apply]
  exact congrArg (fun x => max x 0)
    (select_chain (nt (ix2 p (0 : Fin 1))) t ht 0
      (fun s => ∑ i : Fin 128, acc (ix2 p i) * wOf w0 w1 w2 w3 w4 w5 w6 w7 s (ix3 (0 : Fin 1) i q)))

/-- Layer 2's finished block of logits at (p, c), for a row whose type word is `t`. -/
theorem logit_apply (acc : Vec Ideal S1024x128 .f32) (nt : Vec Ideal S1024x1 .i32)
    (w0 w1 w2 w3 w4 w5 w6 w7 : Vec Ideal S1x128x128 .bf16) (wc : Vec Ideal S128x16 .bf16) (bc : Vec Ideal S1x16 .f32)
    (p : Fin 1024) (c : Fin 16) (t : Fin 8) (ht : (nt (ix2 p (0 : Fin 1))).toNat = t.val) :
    k1_pay6 (k1_pay3 acc) (k1_pay4 nt) (k1_pay5 acc nt w0 w1 w2 w3) w4 w5 w6 w7 wc bc (ix2 p c)
      = (∑ o : Fin 128, max (∑ i : Fin 128, acc (ix2 p i) * wOf w0 w1 w2 w3 w4 w5 w6 w7 t (ix3 (0 : Fin 1) i o)) 0 * wc (ix2 o c))
        + bc (ix2 (0 : Fin 1) c) := by
  -- layer 2 computes the hidden block exactly as layer 1 does, then the read-out product plus the bias row
  have h1 : k1_pay6 (k1_pay3 acc) (k1_pay4 nt) (k1_pay5 acc nt w0 w1 w2 w3) w4 w5 w6 w7 wc bc (ix2 p c)
      = FloatOps.matmul (F := Ideal) (φ₁ := .bf16) (φ₂ := .bf16) dot_S1024x128_S128x16_S1024x16_1_0_0_1_n_n none
          (k0_pay3 (F := Ideal) (k0_pay4 acc) (k0_pay5 nt) (k0_pay6 acc nt w0 w1 w2 w3) w4 w5 w6 w7)
          (shapeCast S128x16 wc Gen.shapeCasts_S128x16_S128x16) (constant S1024x16 .f32 0x00000000#32) (ix2 p c)
        + broadcastTo S1024x16 (shapeCast S1x16 bc Gen.shapeCasts_S1x16_S1x16) Gen.broadcasts_S1x16_S1024x16 (ix2 p c) := rfl
  rw [h1, PlainDot.matmul_zero_apply dot_S1024x128_S128x16_S1024x16_1_0_0_1_n_n rfl rfl rfl rfl rfl rfl, shapeCast_self,
    shapeCast_self, broadcastTo_1b_ab_apply]
  refine congrArg (· + bc (ix2 (0 : Fin 1) c)) (Finset.sum_congr rfl fun o _ => ?_)
  rw [feat_apply acc nt w0 w1 w2 w3 w4 w5 w6 w7 p o t ht]

end Cert.KernelIdeal.Pay

end
-- ==== Proof.KI.Host.lean ====
/-
  What the host operations before the regions leave in the operand buffers, read at an index at the ideal instance
  (a change of float format is the identity there): the adjacency untouched; the features as launched; the type
  column a reshape of the node types; each weight stack with its last two axes swapped; the read-out matrix
  transposed; the bias as a row.
  And the sum over all 16384 columns as the sum over the eight column blocks of the sums within a block.
-/
import proofs.«410506_j65481071397259_3_alg».proof.Proof.Gen.KernelIdeal.Regions
import proofs.«410506_j65481071397259_3_alg».proof.Proof.Spec
import Idealize.ShloMosaic.Lib.ValueIdx
import Idealize.ShloMosaic.Lib.ValueLayout
import Idealize.ShloMosaic.Lib.Pipeline.Value
import Idealize.ShloMosaic.Lib.StableHlo.Run
import Mathlib.Algebra.BigOperators.Group.Finset.Defs
import Mathlib.Data.Fintype.BigOperators
import Mathlib.Logic.Equiv.Fin.Basic

noncomputable section

open scoped BigOperators

namespace Cert.KernelIdeal.Host

open Idealize.ShloMosaic Idealize.ShloMosaic.TcCoe Idealize.ShloMosaic.ValueIdx Idealize.SL.Sem
open Cert.KernelIdeal Cert.KernelIdeal.Gen Cert.Spec

/-- A vector of length `a` cast to a column `[a, 1]` reads, at `(i, u)`, the operand at `i`: both indices sit at
    row-major position `i`, the unit coordinate `u` being `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (c : Dev nD)

/-- The adjacency is no host operation's result. -/
theorem V1_arg2 : (V1 m c main_arg2 : S16384x16384.Idx → Elt Ideal .f32) = (m ((c : Thread nD τ).loc main_arg2) : S16384x16384.Idx → Elt Ideal .f32) :=
  (V1_of m c main_arg2 (by decide)).trans rfl

/-- The features in the matrix unit's input format: the same numbers. -/
theorem V1_v8 : (V1 m c main_v8 : S16384x128.Idx → Elt Ideal .bf16) = (m ((c : Thread nD τ).loc main_arg0) : S16384x128.Idx → Elt Ideal .f32) := by
  have e : (V1 m c main_v8 : S16384x128.Idx → Elt Ideal .bf16)
      = truncf (F := Ideal) .bf16 (m ((c : Thread nD τ).loc main_arg0) : FVec Ideal S16384x128 .f32) bitsLt_bf16_f32 := by
    dsimp only [V1, V0, hostOps0]; after_results <;> rfl
  exact e.trans rfl

/-- The type column. -/
theorem V1_v0_apply (n : Fin 16384) :
    (V1 m c main_v0 : S16384x1.Idx → Elt Ideal .i32) (ix2 n (0 : Fin 1)) = (m ((c : Thread nD τ).loc main_arg1) : S16384.Idx → Elt Ideal .i32) (ix1 n) := by
  have e : (V1 m c main_v0 : S16384x1.Idx → Elt Ideal .i32)
      = shapeCast S16384x1 (m ((c : Thread nD τ).loc main_arg1) : S16384.Idx → Elt Ideal .i32) shapeCasts_S16384_S16384x1 := by
    dsimp only [V1, V0, hostOps0]; after_results <;> rfl
  rw [e]
  exact shapeCast_a_a1_apply _ _ n 0

/-- Layer 1's weight stack, each matrix transposed. -/
theorem V1_v2_apply (t : Fin 8) (i o : Fin 128) :
    (V1 m c main_v2 : S8x128x128.Idx → Elt Ideal .bf16) (ix3 t i o) = (m ((c : Thread nD τ).loc main_arg3) : S8x128x128.Idx → Elt Ideal .f32) (ix3 t o i) := by
  have e : (V1 m c main_v2 : S8x128x128.Idx → Elt Ideal .bf16)
      = truncf (F := Ideal) .bf16 (transpose S8x128x128 [0, 2, 1] (m ((c : Thread nD τ).loc main_arg3) : FVec Ideal S8x128x128 .f32)
          transposes_S8x128x128_S8x128x128_0_2_1) bitsLt_bf16_f32 := by
    dsimp only [V1, V0, hostOps0]; after_results <;> rfl
  rw [e, truncf_apply]
  exact transpose_ix3_021_apply _ _ t i o

/-- Layer 2's weight stack, each matrix transposed. -/
theorem V1_v4_apply (t : Fin 8) (i o : Fin 128) :
    (V1 m c main_v4 : S8x128x128.Idx → Elt Ideal .bf16) (ix3 t i o) = (m ((c : Thread nD τ).loc main_arg4) : S8x128x128.Idx → Elt Ideal .f32) (ix3 t o i) := by
  have e : (V1 m c main_v4 : S8x128x128.Idx → Elt Ideal .bf16)
      = truncf (F := Ideal) .bf16 (transpose S8x128x128 [0, 2, 1] (m ((c : Thread nD τ).loc main_arg4) : FVec Ideal S8x128x128 .f32)
          transposes_S8x128x128_S8x128x128_0_2_1) bitsLt_bf16_f32 := by
    dsimp only [V1, V0, hostOps0]; after_results <;> rfl
  rw [e, truncf_apply]
  exact transpose_ix3_021_apply _ _ t i o

/-- The read-out matrix, transposed. -/
theorem V1_v6_apply (i : Fin 128) (k : Fin 16) :
    (V1 m c main_v6 : S128x16.Idx → Elt Ideal .bf16) (ix2 i k) = (m ((c : Thread nD τ).loc main_arg5) : S16x128.Idx → Elt Ideal .f32) (ix2 k i) := by
  have e : (V1 m c main_v6 : S128x16.Idx → Elt Ideal .bf16)
      = truncf (F := Ideal) .bf16 (transpose S128x16 [1, 0] (m ((c : Thread nD τ).loc main_arg5) : FVec Ideal S16x128 .f32)
          transposes_S16x128_S128x16_1_0) bitsLt_bf16_f32 := by
    dsimp only [V1, V0, hostOps0]; after_results <;> rfl
  rw [e, truncf_apply]
  exact transpose_ix2_apply _ _ i k

/-- The bias as a row. -/
theorem V1_v7_apply (k : Fin 16) :
    (V1 m c main_v7 : S1x16.Idx → Elt Ideal .f32) (ix2 (0 : Fin 1) k) = (m ((c : Thread nD τ).loc main_arg6) : S16.Idx → Elt Ideal .f32) (ix1 k) := by
  have e : (V1 m c main_v7 : S1x16.Idx → Elt Ideal .f32)
      = shapeCast S1x16 (m ((c : Thread nD τ).loc main_arg6) : S16.Idx → Elt Ideal .f32) shapeCasts_S16_S1x16 := by
    dsimp only [V1, V0, hostOps0]; after_results <;> rfl
  rw [e]
  exact shapeCast_a_1a_apply _ _ 0 k

/-- Column `k'` of block `b` sits at position `k' + 2048 · b` of the whole range: the pairing of a block and a column
    within it with a column of the whole array is the one `colOf` names. -/
theorem finProdFinEquiv_colOf (p : Fin 8 × Fin 2048) : (finProdFinEquiv p : Fin (8 * 2048)) = colOf p.1.val p.2 := by
  refine Fin.ext ?_
  have h1 := p.1.isLt
  have h2 := p.2.isLt
  show p.2.val + 2048 * p.1.val = (2048 * p.1.val + p.2.val) % 16384
  omega

/-- A sum over all columns is the sum over the eight column blocks of the sums within each. -/
theorem sum_blocks (f : Fin 16384 → EReal) :
    ∑ k : Fin 16384, f k = ∑ b ∈ Finset.range 8, ∑ k' : Fin 2048, f (colOf b k') :=
  calc ∑ k : Fin 16384, f k
      = ∑ p : Fin 8 × Fin 2048, f (finProdFinEquiv (m := 8) (n := 2048) p) :=
        (Equiv.sum_comp (finProdFinEquiv (m := 8) (n := 2048)) f).symm
    _ = ∑ p : Fin 8 × Fin 2048, f (colOf p.1.val p.2) :=
        Finset.sum_congr rfl fun p _ => congrArg f (finProdFinEquiv_colOf p)
    _ = ∑ b : Fin 8, ∑ k' : Fin 2048, f (colOf b.val k') := Fintype.sum_prod_type _
    _ = ∑ b ∈ Finset.range 8, ∑ k' : Fin 2048, f (colOf b k') :=
        Fin.sum_univ_eq_sum_range (fun b => ∑ k' : Fin 2048, f (colOf b k')) 8

end Cert.KernelIdeal.Host

end
-- ==== Proof.KI.Val0.lean ====
/-
  Layer 1's result. The accumulator after the b-th column step of row block r holds, at (p, q), the sum over the
  column blocks 0 … b of the adjacency's row 1024·r + p times the features' column q; after the last step that is
  the whole neighbourhood sum; the block written back is the layer's result on the row block's rows; the blocks
  cover the result array.
-/
import proofs.«410506_j65481071397259_3_alg».proof.Proof.KI.Pieces0
import proofs.«410506_j65481071397259_3_alg».proof.Proof.KI.Blk0
import proofs.«410506_j65481071397259_3_alg».proof.Proof.KI.Pay
import proofs.«410506_j65481071397259_3_alg».proof.Proof.KI.Host
import proofs.«410506_j65481071397259_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open scoped BigOperators
open Idealize.ShloMosaic.ValueIdx Cert.Spec

variable (V : (c : Dev nD) → (b : Ref sig .tc) → Buf (Elt Ideal) ((c : Thread nD τ).loc b))

/-- The adjacency as the region finds it. -/
abbrev adjA (c : Dev nD) : S16384x16384.Idx → EReal := (V c main_arg2 : S16384x16384.Idx → Elt Ideal .f32)
/-- The features as the region finds them. -/
abbrev hA0 (c : Dev nD) : S16384x128.Idx → EReal := (V c main_v8 : S16384x128.Idx → Elt Ideal .bf16)

/-- The blocks of point `t`, each by its own shape: the adjacency block, -/
abbrev ablk0 (c : Dev nD) (t : Fin cfg0.N) : Vec Ideal S1024x2048 .f32 := iblk0 V c 0 t
/-- the features, -/
abbrev hblk0 (c : Dev nD) (t : Fin cfg0.N) : Vec Ideal S16384x128 .bf16 := iblk0 V c 1 t
/-- the row block's types, -/
abbrev tblk0 (c : Dev nD) (t : Fin cfg0.N) : Vec Ideal S1024x1 .i32 := iblk0 V c 2 t
/-- the weight stack. -/
abbrev wblk0 (c : Dev nD) (t : Fin cfg0.N) : Vec Ideal S8x128x128 .bf16 := iblk0 V c 3 t

theorem ablk0_apply (c : Dev nD) (t : Fin cfg0.N) (p : Fin 1024) (k : Fin 2048) :
    ablk0 V c t (ix2 p k) = adjA V c (ix2 (rowOf (t.val / 8) p) (colOf (t.val % 8) k)) :=
  iblk0_0_apply V c t p k
theorem hblk0_eq (c : Dev nD) (t : Fin cfg0.N) : hblk0 V c t = hA0 V c := iblk0_1_eq V c t
theorem tblk0_apply (c : Dev nD) (t : Fin cfg0.N) (p : Fin 1024) :
    tblk0 V c t (ix2 p (0 : Fin 1)) = (V c main_v0 : S16384x1.Idx → Elt Ideal .i32) (ix2 (rowOf (t.val / 8) p) (0 : Fin 1)) :=
  iblk0_2_apply V c t p
theorem wblk0_eq (c : Dev nD) (t : Fin cfg0.N) : wblk0 V c t = (V c main_v2 : S8x128x128.Idx → Elt Ideal .bf16) :=
  iblk0_3_eq V c t

/-- Column block `b`'s share of the neighbourhood sum at row `p` of row block `r`, feature `q`. -/
def G0 (c : Dev nD) (r : ℕ) (p : Fin 1024) (q : Fin 128) (b : ℕ) : EReal :=
  ∑ k : Fin 2048, adjA V c (ix2 (rowOf r p) (colOf b k)) * hA0 V c (ix2 (colOf b k) q)

/-- One step's product at (p, q), from the point's blocks. -/
theorem step0 (c : Dev nD) (t : Fin cfg0.N) (p : Fin 1024) (q : Fin 128) :
    ∑ k : Fin 2048, ablk0 V c t (ix2 p k) * View.ld (hblk0 V c t) (hrect0 (grid0.coords t)) (ix2 k q)
      = G0 V c (t.val / 8) p q (t.val % 8) := by
  unfold G0
  refine Finset.sum_congr rfl fun k _ => ?_
  rw [ablk0_apply V c t p k, hslice0_apply t (hblk0 V c t) k q, hblk0_eq V c t]

/-! What each kind of point leaves, over the point's blocks. -/

theorem acc0A_eq (c : Dev nD) (t : Fin cfg0.N) (h0 : t.val % 8 = 0) :
    acc0A V c t h0 = k0_pay2 (View.ld (hblk0 V c t) (hrect0 (grid0.coords t))) (ablk0 V c t) (k0_pay1 (F := Ideal)) :=
  sout0_A_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) ((first0_iff t).mpr h0) (notLast0_of_first h0) (iblk0 V c 0 t) (iblk0 V c 1 t)

theorem acc0B_eq (c : Dev nD) (t : Fin cfg0.N) (h0 : ¬t.val % 8 = 0) (h1 : ¬t.val % 8 = 7) (xs : Vec Ideal S1024x128 .f32) :
    acc0B V c t h0 h1 xs = k0_pay2 (View.ld (hblk0 V c t) (hrect0 (grid0.coords t))) (ablk0 V c t) xs :=
  sout0_B_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) (fun h => h1 ((last0_iff t).mp h)) (iblk0 V c 0 t) (iblk0 V c 1 t) xs

theorem acc0C_eq (c : Dev nD) (t : Fin cfg0.N) (h0 : ¬t.val % 8 = 0) (h1 : t.val % 8 = 7) (xs : Vec Ideal S1024x128 .f32) :
    acc0C V c t h0 h1 xs = k0_pay2 (View.ld (hblk0 V c t) (hrect0 (grid0.coords t))) (ablk0 V c t) xs :=
  sout0_C_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) ((last0_iff t).mpr h1) (iblk0 V c 0 t) (iblk0 V c 1 t) (iblk0 V c 2 t) (iblk0 V c 3 t) xs

theorem out0C_eq (c : Dev nD) (t : Fin cfg0.N) (h0 : ¬t.val % 8 = 0) (h1 : t.val % 8 = 7) (xs : Vec Ideal S1024x128 .f32) :
    out0C V c t h0 h1 xs
      = k0_pay3 (k0_pay4 (k0_pay2 (View.ld (hblk0 V c t) (hrect0 (grid0.coords t))) (ablk0 V c t) xs)) (k0_pay5 (tblk0 V c t))
          (k0_pay6 (k0_pay2 (View.ld (hblk0 V c t) (hrect0 (grid0.coords t))) (ablk0 V c t) xs) (tblk0 V c t)
            (View.ld (wblk0 V c t) (Rect.unit (s := S8x128x128) ![0, 0, 0] S1x128x128.size inb_S8x128x128_S1x128x128_0_0_0))
            (View.ld (wblk0 V c t) (Rect.unit (s := S8x128x128) ![1, 0, 0] S1x128x128.size inb_S8x128x128_S1x128x128_1_0_0))
            (View.ld (wblk0 V c t) (Rect.unit (s := S8x128x128) ![2, 0, 0] S1x128x128.size inb_S8x128x128_S1x128x128_2_0_0))
            (View.ld (wblk0 V c t) (Rect.unit (s := S8x128x128) ![3, 0, 0] S1x128x128.size inb_S8x128x128_S1x128x128_3_0_0)))
          (View.ld (wblk0 V c t) (Rect.unit (s := S8x128x128) ![4, 0, 0] S1x128x128.size inb_S8x128x128_S1x128x128_4_0_0))
          (View.ld (wblk0 V c t) (Rect.unit (s := S8x128x128) ![5, 0, 0] S1x128x128.size inb_S8x128x128_S1x128x128_5_0_0))
          (View.ld (wblk0 V c t) (Rect.unit (s := S8x128x128) ![6, 0, 0] S1x128x128.size inb_S8x128x128_S1x128x128_6_0_0))
          (View.ld (wblk0 V c t) (Rect.unit (s := S8x128x128) ![7, 0, 0] S1x128x128.size inb_S8x128x128_S1x128x128_7_0_0)) :=
  out0_C_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((first0_iff t).mp h)) ((last0_iff t).mpr h1) (iblk0 V c 0 t) (iblk0 V c 1 t) (iblk0 V c 2 t) (iblk0 V c 3 t) xs

/-- The accumulator after position `n`. -/
theorem acc_inv0 (c : Dev nD) (p : Fin 1024) (q : Fin 128) : ∀ (n : ℕ) (hn : n < cfg0.N),
    (outsAt0 V c n hn).2 (ix2 p q) = ∑ b ∈ Finset.range (n % 8 + 1), G0 V c (n / 8) p q b := by
  intro n
  induction n with
  | zero =>
    intro hn
    rw [outsAt0_A V c ⟨0, hn⟩ (Nat.zero_mod 8)]
    dsimp only
    rw [acc0A_eq V c ⟨0, hn⟩ (Nat.zero_mod 8)]
    refine (Pay.pay2_apply0 (View.ld (hblk0 V c ⟨0, hn⟩) (hrect0 (grid0.coords ⟨0, hn⟩))) (ablk0 V c ⟨0, hn⟩) (k0_pay1 (F := Ideal)) p q).trans ?_
    rw [Pay.pay1_apply0 p q, zero_add, step0 V c ⟨0, hn⟩ p q]
    exact (Finset.sum_range_one _).symm
  | succ n ih =>
    intro hn
    have hn' : n < cfg0.N := Nat.lt_of_succ_lt hn
    by_cases h0 : (n + 1) % 8 = 0
    · rw [outsAt0_A V c ⟨n + 1, hn⟩ h0]
      dsimp only
      rw [acc0A_eq V c ⟨n + 1, hn⟩ h0]
      refine (Pay.pay2_apply0 (View.ld (hblk0 V c ⟨n + 1, hn⟩) (hrect0 (grid0.coords ⟨n + 1, hn⟩))) (ablk0 V c ⟨n + 1, hn⟩) (k0_pay1 (F := Ideal)) p q).trans ?_
      rw [Pay.pay1_apply0 p q, zero_add, step0 V c ⟨n + 1, hn⟩ p q]
      show G0 V c ((n + 1) / 8) p q ((n + 1) % 8) = ∑ b ∈ Finset.range ((n + 1) % 8 + 1), G0 V c ((n + 1) / 8) p q b
      rw [h0]
      exact (Finset.sum_range_one _).symm
    · have hdiv : (n + 1) / 8 = n / 8 := by omega
      have hmod : (n + 1) % 8 = n % 8 + 1 := by omega
      have key : ∀ xs : Vec Ideal S1024x128 .f32, xs (ix2 p q) = ∑ b ∈ Finset.range (n % 8 + 1), G0 V c (n / 8) p q b →
          k0_pay2 (View.ld (hblk0 V c ⟨n + 1, hn⟩) (hrect0 (grid0.coords ⟨n + 1, hn⟩))) (ablk0 V c ⟨n + 1, hn⟩) xs (ix2 p q)
            = ∑ b ∈ Finset.range ((n + 1) % 8 + 1), G0 V c ((n + 1) / 8) p q b := by
        intro xs hxs
        refine (Pay.pay2_apply0 (View.ld (hblk0 V c ⟨n + 1, hn⟩) (hrect0 (grid0.coords ⟨n + 1, hn⟩))) (ablk0 V c ⟨n + 1, hn⟩) xs p q).trans ?_
        rw [hxs, step0 V c ⟨n + 1, hn⟩ p q]
        show _ + G0 V c ((n + 1) / 8) p q ((n + 1) % 8) = _
        rw [hdiv, hmod, Finset.sum_range_succ _ (n % 8 + 1)]
      by_cases h1 : (n + 1) % 8 = 7
      · rw [outsAt0_C V c ⟨n + 1, hn⟩ h0 h1]
        dsimp only
        rw [acc0C_eq V c ⟨n + 1, hn⟩ h0 h1]
        exact key _ (ih hn')
      · rw [outsAt0_B V c ⟨n + 1, hn⟩ h0 h1]
        dsimp only
        rw [acc0B_eq V c ⟨n + 1, hn⟩ h0 h1]
        exact key _ (ih hn')

/-- After a row block's last step the accumulator holds the whole neighbourhood sum. -/
theorem acc_last0 (c : Dev nD) (t : Fin cfg0.N) (h1 : t.val % 8 = 7) (p : Fin 1024) (q : Fin 128) :
    (outsAt0 V c t.val t.isLt).2 (ix2 p q) = agg (adjA V c) (hA0 V c) (rowOf (t.val / 8) p) q := by
  rw [acc_inv0 V c p q t.val t.isLt, h1]
  unfold agg
  rw [Host.sum_blocks]
  rfl

/-- The same, as the last step's own update of what the step before left. -/
theorem acc_pay0 (c : Dev nD) (t : Fin cfg0.N) (h0 : ¬t.val % 8 = 0) (h1 : t.val % 8 = 7) (p : Fin 1024) (q : Fin 128) :
    k0_pay2 (View.ld (hblk0 V c t) (hrect0 (grid0.coords t))) (ablk0 V c t)
        (outsAt0 V c (t.val - 1) (Nat.lt_of_le_of_lt (Nat.sub_le _ _) t.isLt)).2 (ix2 p q)
      = agg (adjA V c) (hA0 V c) (rowOf (t.val / 8) p) q := by
  have hacc := acc_last0 V c t h1 p q
  rw [outsAt0_C V c t h0 h1] at hacc
  dsimp only at hacc
  rw [acc0C_eq V c t h0 h1] at hacc
  exact hacc

/-- The eight slices of the weight stack, by type. -/
theorem wOf_slices (x3 : Vec Ideal S8x128x128 .bf16) (tt : Fin 8) (i o : Fin 128) :
    Pay.wOf (View.ld x3 (Rect.unit (s := S8x128x128) ![0, 0, 0] S1x128x128.size inb_S8x128x128_S1x128x128_0_0_0))
      (View.ld x3 (Rect.unit (s := S8x128x128) ![1, 0, 0] S1x128x128.size inb_S8x128x128_S1x128x128_1_0_0))
      (View.ld x3 (Rect.unit (s := S8x128x128) ![2, 0, 0] S1x128x128.size inb_S8x128x128_S1x128x128_2_0_0))
      (View.ld x3 (Rect.unit (s := S8x128x128) ![3, 0, 0] S1x128x128.size inb_S8x128x128_S1x128x128_3_0_0))
      (View.ld x3 (Rect.unit (s := S8x128x128) ![4, 0, 0] S1x128x128.size inb_S8x128x128_S1x128x128_4_0_0))
      (View.ld x3 (Rect.unit (s := S8x128x128) ![5, 0, 0] S1x128x128.size inb_S8x128x128_S1x128x128_5_0_0))
      (View.ld x3 (Rect.unit (s := S8x128x128) ![6, 0, 0] S1x128x128.size inb_S8x128x128_S1x128x128_6_0_0))
      (View.ld x3 (Rect.unit (s := S8x128x128) ![7, 0, 0] S1x128x128.size inb_S8x128x128_S1x128x128_7_0_0)) tt (ix3 (0 : Fin 1) i o)
      = x3 (ix3 tt i o) := by
  match tt with
  | ⟨0, _⟩ => exact wslice0_0 x3 i o
  | ⟨1, _⟩ => exact wslice0_1 x3 i o
  | ⟨2, _⟩ => exact wslice0_2 x3 i o
  | ⟨3, _⟩ => exact wslice0_3 x3 i o
  | ⟨4, _⟩ => exact wslice0_4 x3 i o
  | ⟨5, _⟩ => exact wslice0_5 x3 i o
  | ⟨6, _⟩ => exact wslice0_6 x3 i o
  | ⟨7, _⟩ => exact wslice0_7 x3 i o

/-- The block a row block's last step stores, at (p, q): the layer at the row block's row `p`, output feature `q`. -/
theorem out_last0 (c : Dev nD) (nt : SN.Idx → BitVec 32) (W : SW.Idx → EReal)
    (hnt : ∀ n : Fin 16384, (V c main_v0 : S16384x1.Idx → Elt Ideal .i32) (ix2 n (0 : Fin 1)) = nt (ix1 n))
    (hW : ∀ (tt : Fin 8) (i o : Fin 128), (V c main_v2 : S8x128x128.Idx → Elt Ideal .bf16) (ix3 tt i o) = W (ix3 tt o i))
    (hrange : ∀ n : Fin 16384, (nt (ix1 n)).toNat < 8)
    (t : Fin cfg0.N) (h0 : ¬t.val % 8 = 0) (h1 : t.val % 8 = 7) (p : Fin 1024) (q : Fin 128) :
    out0C V c t h0 h1 (outsAt0 V c (t.val - 1) (Nat.lt_of_le_of_lt (Nat.sub_le _ _) t.isLt)).2 (ix2 p q)
      = layerAt (adjA V c) nt W (hA0 V c) (rowOf (t.val / 8) p) q := by
  rw [out0C_eq V c t h0 h1]
  have hty : (tblk0 V c t (ix2 p (0 : Fin 1))).toNat = (tyIdx nt (rowOf (t.val / 8) p)).val := by
    rw [tblk0_apply V c t p, hnt]
    exact (Nat.mod_eq_of_lt (hrange _)).symm
  refine (Pay.feat_apply _ _ _ _ _ _ _ _ _ _ p q (tyIdx nt (rowOf (t.val / 8) p)) hty).trans ?_
  unfold layerAt
  refine congrArg (fun x => max x 0) (Finset.sum_congr rfl fun i _ => ?_)
  rw [wOf_slices (wblk0 V c t) (tyIdx nt (rowOf (t.val / 8) p)) i q, wblk0_eq V c t, hW, acc_pay0 V c t h0 h1 p i]

set_option maxHeartbeats 1000000 in
/-- THE LAYER. If the region finds the adjacency `adj`, the features `h`, the type column of `nt` and the weight
    stack `W` with each matrix transposed, and every type is below 8, the result array ends holding the layer of them. -/
theorem layer0 (c : Dev nD) (adj : SNN.Idx → EReal) (h : SN128.Idx → EReal) (nt : SN.Idx → BitVec 32) (W : SW.Idx → EReal)
    (hadj : adjA V c = adj) (hh : hA0 V c = h)
    (hnt : ∀ n : Fin 16384, (V c main_v0 : S16384x1.Idx → Elt Ideal .i32) (ix2 n (0 : Fin 1)) = nt (ix1 n))
    (hW : ∀ (tt : Fin 8) (i o : Fin 128), (V c main_v2 : S8x128x128.Idx → Elt Ideal .bf16) (ix3 tt i o) = W (ix3 tt o i))
    (hrange : ∀ n : Fin 16384, (nt (ix1 n)).toNat < 8) :
    ((dat0 V c).arrAt 4 cfg0.N : S16384x128.Idx → EReal) = layer adj nt W h := by
  subst hadj
  subst hh
  refine (dat0 V c).arrAt_eq_of_cover 4 (layer (adjA V c) nt W (hA0 V c)) (fun t hf => ?_) (ocover0 c)
  have h1 : t.val % 8 = 7 := (flush0_4 t).mp hf
  have h0 : ¬t.val % 8 = 0 := by omega
  show (cfg0.win 4).cut (grid0.coords t) ((dat0 V c).after 4 t) = _
  rw [after0_4 V c t, outsAt0_C V c t h0 h1]
  dsimp only
  funext y
  obtain ⟨p, q, rfl⟩ : ∃ (p : Fin 1024) (q : Fin 128), y = ix2 p q := ⟨y 0, y 1, eq_ix2 y⟩
  rw [oblk0_apply (F := Ideal) c t (layer (adjA V c) nt W (hA0 V c)) p q]
  exact out_last0 V c nt W hnt hW hrange t h0 h1 p q

end Cert.KernelIdeal.Hand

end
-- ==== Proof.KI.Pieces1.lean ====
/-
  Layer 2's values. What each kind of point leaves is the kernel's arithmetic of the point's blocks (the stores'
  pieces read back); the accumulator after the b-th column step of row block r holds, at (p, q), the sum over the
  column blocks 0 … b of the adjacency's row 1024·r + p times the features' column q; after the last step that is the
  whole neighbourhood sum, and the block written back is the layer's result on the row block's rows.
-/
import proofs.«410506_j65481071397259_3_alg».proof.Proof.KI.Dat1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The stores' pieces read back -/

/-- The rows of the features a step at grid coordinates `i` reads. -/
abbrev hrect1 (i : grid1.Coords) : Rect S16384x128 := Rect.unit (s := S16384x128) (k1_off1 i) S2048x128.size (k1_off1_inb i)

theorem sout1_A_eq (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : first1 i) (hc1 : ¬last1 i) (x0 : Vec F S1024x2048 .f32) (x1 : Vec F S16384x128 .bf16) :
    sout1_A c i arg2 harg2 arg3 harg3 arg4 harg4 arg5 harg5 arg6 harg6 arg7 harg7 arg8 harg8 arg9 harg9 hc0 hc1 x0 x1 = k1_pay2 (View.ld x1 (hrect1 i)) x0 (k1_pay1 (F := F)) := by
  unfold sout1_A
  rw [View.read_writes_eq_canon _ _ _ (scover1_A c i arg2 harg2 arg3 harg3 arg4 harg4 arg5 harg5 arg6 harg6 arg7 harg7 arg8 harg8 arg9 harg9 hc0 hc1 x0 x1)]
  unfold kernelRun1_A; dsimp only; sl_unfold_run_names
  rw [View.canon_cons_unit_zero (S := S1024x128) hz2, View.readCov_unit_zero (S := S1024x128) _ hz2]
  simp only [View.readAt_eq_ld, harg2.read_unread, harg3.read_unread, View.ld_unit_zero (S := S1024x2048) hz2]

theorem sout1_B_eq (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : ¬last1 i) (x0 : Vec F S1024x2048 .f32) (x1 : Vec F S16384x128 .bf16) (xs : Vec F S1024x128 .f32) :
    sout1_B c i arg2 harg2 arg3 harg3 arg4 harg4 arg5 harg5 arg6 harg6 arg7 harg7 arg8 harg8 arg9 harg9 hc0 hc1 x0 x1 xs = k1_pay2 (View.ld x1 (hrect1 i)) x0 xs := by
  unfold sout1_B
  rw [View.read_writes_eq_canon _ _ _ (scover1_B c i arg2 harg2 arg3 harg3 arg4 harg4 arg5 harg5 arg6 harg6 arg7 harg7 arg8 harg8 arg9 harg9 hc0 hc1 x0 x1 xs)]
  unfold kernelRun1_B; dsimp only; sl_unfold_run_names
  rw [View.canon_unit_zero (S := S1024x128) hz2]
  simp only [View.readAt_eq_ld, harg2.read_unread, harg3.read_unread, harg9.read_unread, View.ld_unit_zero (S := S1024x2048) hz2, View.ld_unit_zero (S := S1024x128) hz2]

theorem sout1_C_eq (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i) (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) :
    sout1_C c i arg2 harg2 arg3 harg3 arg4 harg4 arg5 harg5 arg6 harg6 arg7 harg7 arg8 harg8 arg9 harg9 hc0 hc1 x0 x1 x2 x3 x4 x5 xs = k1_pay2 (View.ld x1 (hrect1 i)) x0 xs := by
  unfold sout1_C
  rw [View.read_writes_eq_canon _ _ _ (scover1_C c i arg2 harg2 arg3 harg3 arg4 harg4 arg5 harg5 arg6 harg6 arg7 harg7 arg8 harg8 arg9 harg9 hc0 hc1 x0 x1 x2 x3 x4 x5 xs)]
  unfold kernelRun1_C; dsimp only; sl_unfold_run_names
  rw [View.canon_unit_zero (S := S1024x128) hz2]
  simp only [View.readAt_eq_ld, harg2.read_unread, harg3.read_unread, harg9.read_unread, View.ld_unit_zero (S := S1024x2048) hz2, View.ld_unit_zero (S := S1024x128) hz2]

theorem out1_C_eq (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S1024x1 .i32) (harg4 : arg4.IsWhole) (arg5 : Memref sig .tc .vmem S8x128x128 .bf16) (harg5 : arg5.IsWhole) (arg6 : Memref sig .tc .vmem S128x16 .bf16) (harg6 : arg6.IsWhole) (arg7 : Memref sig .tc .vmem S1x16 .f32) (harg7 : arg7.IsWhole) (arg8 : Memref sig .tc .vmem S1024x16 .f32) (harg8 : arg8.IsWhole) (arg9 : Memref sig .tc .vmem S1024x128 .f32) (harg9 : arg9.IsWhole) (hc0 : ¬first1 i) (hc1 : last1 i) (x0 : Vec F S1024x2048 .f32) (x1 : Vec F S16384x128 .bf16) (x2 : Vec F S1024x1 .i32) (x3 : Vec F S8x128x128 .bf16) (x4 : Vec F S128x16 .bf16) (x5 : Vec F S1x16 .f32) (xs : Vec F S1024x128 .f32) :
    out1_C c i arg2 harg2 arg3 harg3 arg4 harg4 arg5 harg5 arg6 harg6 arg7 harg7 arg8 harg8 arg9 harg9 hc0 hc1 x0 x1 x2 x3 x4 x5 xs
      = k1_pay6 (k1_pay3 (k1_pay2 (View.ld x1 (hrect1 i)) x0 xs)) (k1_pay4 x2) (k1_pay5 (k1_pay2 (View.ld x1 (hrect1 i)) x0 xs) x2 (View.ld x3 (Rect.unit (s := S8x128x128) ![0, 0, 0] S1x128x128.size inb_S8x128x128_S1x128x128_0_0_0)) (View.ld x3 (Rect.unit (s := S8x128x128) ![1, 0, 0] S1x128x128.size inb_S8x128x128_S1x128x128_1_0_0)) (View.ld x3 (Rect.unit (s := S8x128x128) ![2, 0, 0] S1x128x128.size inb_S8x128x128_S1x128x128_2_0_0)) (View.ld x3 (Rect.unit (s := S8x128x128) ![3, 0, 0] S1x128x128.size inb_S8x128x128_S1x128x128_3_0_0))) (View.ld x3 (Rect.unit (s := S8x128x128) ![4, 0, 0] S1x128x128.size inb_S8x128x128_S1x128x128_4_0_0)) (View.ld x3 (Rect.unit (s := S8x128x128) ![5, 0, 0] S1x128x128.size inb_S8x128x128_S1x128x128_5_0_0)) (View.ld x3 (Rect.unit (s := S8x128x128) ![6, 0, 0] S1x128x128.size inb_S8x128x128_S1x128x128_6_0_0)) (View.ld x3 (Rect.unit (s := S8x128x128) ![7, 0, 0] S1x128x128.size inb_S8x128x128_S1x128x128_7_0_0)) x4 x5 := by
  unfold out1_C
  rw [View.read_writes_eq_canon _ _ _ (cover1_C c i arg2 harg2 arg3 harg3 arg4 harg4 arg5 harg5 arg6 harg6 arg7 harg7 arg8 harg8 arg9 harg9 hc0 hc1 x0 x1 x2 x3 x4 x5 xs)]
  unfold kernelRun1_C; dsimp only; sl_unfold_run_names
  rw [View.canon_unit_zero (S := S1024x16) hz2]
  simp only [View.readAt_eq_ld, harg2.read_unread, harg3.read_unread, harg4.read_unread, harg5.read_unread, harg6.read_unread, harg7.read_unread, harg9.read_unread, View.readCov_unit_zero (S := S1024x128) _ hz2, View.ld_unit_zero (S := S1024x2048) hz2, View.ld_unit_zero (S := S1024x128) hz2, View.ld_unit_zero (S := S1024x1) hz2, View.ld_unit_zero (S := S128x16) hz2, View.ld_unit_zero (S := S1x16) hz2]

end Cert.KernelIdeal.Hand

end
-- ==== Proof.KI.Blk1.lean ====
/-
  Layer 2's windows read at an index: the adjacency block of point t = 8·r + b is rows 1024·r … and columns 2048·b … of
  the adjacency; the node-type block is rows 1024·r … of the type column; the other inputs are whole arrays; the
  step's slice of the features is rows 2048·b …; the output block of point t is rows 1024·r … of the result, and
  the blocks written back at the row blocks' last steps cover the result.
-/
import proofs.«410506_j65481071397259_3_alg».proof.Proof.KI.Base
import proofs.«410506_j65481071397259_3_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

/-! ## The index maps over the grid

Point t = 8·r + b has coordinates (r, b) = (t / 8, t % 8); each window's index map, evaluated at every one of the 128
points. -/

/-- The adjacency window's block index is the point's coordinates. -/
theorem index1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
/-- Window 1's block index is zero on both axes. -/
theorem index1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- The node-type window's block index is the row-block coordinate, and zero on the unit axis. -/
theorem index1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
/-- Window 3's block index is zero on all three axes. -/
theorem index1_3 : ∀ t : Fin cfg1.N, win1_3.index t (0 : Fin 3) = 0 ∧ win1_3.index t (1 : Fin 3) = 0 ∧ win1_3.index t (2 : Fin 3) = 0 :=
  (by decide +kernel : ∀ t : Fin grid1.N, win1_3.index t (0 : Fin 3) = 0 ∧ win1_3.index t (1 : Fin 3) = 0 ∧ win1_3.index t (2 : Fin 3) = 0)
/-- Window 4's block index is zero on both axes. -/
theorem index1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- Window 5's block index is zero on both axes. -/
theorem index1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
/-- The output window's block index is the row-block coordinate, and zero on the class axis. -/
theorem index1_6 : ∀ t : Fin cfg1.N, win1_6.index t (0 : Fin 2) = t.val / 8 ∧ win1_6.index t (1 : Fin 2) = 0 :=
  (by decide +kernel : ∀ t : Fin grid1.N, win1_6.index t (0 : Fin 2) = t.val / 8 ∧ win1_6.index t (1 : Fin 2) = 0)
/-- The step's slice starts at row 2048·b of the features, at column 0. -/
theorem off1_1 : ∀ t : Fin cfg1.N, k1_off1 (grid1.coords t) (0 : Fin 2) = 2048 * (t.val % 8) ∧ k1_off1 (grid1.coords t) (1 : Fin 2) = 0 :=
  (by decide +kernel : ∀ t : Fin grid1.N, k1_off1 (grid1.coords t) (0 : Fin 2) = 2048 * (t.val % 8) ∧ k1_off1 (grid1.coords t) (1 : Fin 2) = 0)

/-- A point's number is below 128. -/
theorem lt1 (t : Fin cfg1.N) : t.val < 128 := by
  have h := t.isLt
  have hN : cfg1.N = 128 := N_1
  omega

section
variable (V : (c : Dev nD) → (b : Ref sig .tc) → Buf (Elt F) ((c : Thread nD τ).loc b))

/-- The adjacency block at point `t`, at (p, k). -/
theorem iblk1_0_apply (c : Dev nD) (t : Fin cfg1.N) (p : Fin 1024) (k : Fin 2048) :
    (iblk1 V c 0 t : S1024x2048.Idx → Elt F .f32) (ix2 p k)
      = (V c main_arg2 : S16384x16384.Idx → Elt F .f32) (ix2 (rowOf (t.val / 8) p) (colOf (t.val % 8) k)) := by
  obtain ⟨e0, e1⟩ := index1_0 t
  have ht := lt1 t
  have hp := p.isLt
  have hk := k.isLt
  try unfold iblk1
  try rw [View.read_apply]
  show V c main_arg2 (((cfg1.win 0).blk t).view.emb (ix2 p k)) = V c main_arg2 (ix2 (rowOf (t.val / 8) p) (colOf (t.val % 8) k))
  first | congr 1 | refine congrArg _ ?_
  funext a
  apply Fin.ext
  match a with
  | ⟨0, _⟩ =>
    show win1_0.index t (0 : Fin 2) * 1024 + 1 * p.val = (1024 * (t.val / 8) + p.val) % 16384
    first | (rw [e0]; omega) | omega
  | ⟨1, _⟩ =>
    show win1_0.index t (1 : Fin 2) * 2048 + 1 * k.val = (2048 * (t.val % 8) + k.val) % 16384
    first | (rw [e1]; omega) | omega
/-- Window 1 is the whole array at every point. -/
theorem iblk1_1_eq (c : Dev nD) (t : Fin cfg1.N) :
    (iblk1 V c 1 t : S16384x128.Idx → Elt F .bf16) = (V c main_v9 : S16384x128.Idx → Elt F .bf16) := by
  obtain ⟨e0, e1⟩ := index1_1 t
  funext y
  try unfold iblk1
  try rw [View.read_apply]
  show V c main_v9 (((cfg1.win 1).blk t).view.emb y) = V c main_v9 y
  first | congr 1 | refine congrArg _ ?_
  funext a
  apply Fin.ext
  match a with
  | ⟨0, _⟩ =>
    show win1_1.index t (0 : Fin 2) * 16384 + 1 * (y 0).val = (y 0).val
    first | (rw [e0]; omega) | omega
  | ⟨1, _⟩ =>
    show win1_1.index t (1 : Fin 2) * 128 + 1 * (y 1).val = (y 1).val
    first | (rw [e1]; omega) | omega
/-- The node-type block at point `t`, at row p. -/
theorem iblk1_2_apply (c : Dev nD) (t : Fin cfg1.N) (p : Fin 1024) :
    (iblk1 V c 2 t : S1024x1.Idx → Elt F .i32) (ix2 p (0 : Fin 1))
      = (V c main_v0 : S16384x1.Idx → Elt F .i32) (ix2 (rowOf (t.val / 8) p) (0 : Fin 1)) := by
  obtain ⟨e0, e1⟩ := index1_2 t
  have ht := lt1 t
  have hp := p.isLt
  try unfold iblk1
  try rw [View.read_apply]
  show V c main_v0 (((cfg1.win 2).blk t).view.emb (ix2 p (0 : Fin 1))) = V c main_v0 (ix2 (rowOf (t.val / 8) p) (0 : Fin 1))
  first | congr 1 | refine congrArg _ ?_
  funext a
  apply Fin.ext
  match a with
  | ⟨0, _⟩ =>
    show win1_2.index t (0 : Fin 2) * 1024 + 1 * p.val = (1024 * (t.val / 8) + p.val) % 16384
    first | (rw [e0]; omega) | omega
  | ⟨1, _⟩ =>
    show win1_2.index t (1 : Fin 2) * 1 + 1 * 0 = 0
    omega
/-- Window 3 is the whole array at every point. -/
theorem iblk1_3_eq (c : Dev nD) (t : Fin cfg1.N) :
    (iblk1 V c 3 t : S8x128x128.Idx → Elt F .bf16) = (V c main_v4 : S8x128x128.Idx → Elt F .bf16) := by
  obtain ⟨e0, e1, e2⟩ := index1_3 t
  funext y
  try unfold iblk1
  try rw [View.read_apply]
  show V c main_v4 (((cfg1.win 3).blk t).view.emb y) = V c main_v4 y
  first | congr 1 | refine congrArg _ ?_
  funext a
  apply Fin.ext
  match a with
  | ⟨0, _⟩ =>
    show win1_3.index t (0 : Fin 3) * 8 + 1 * (y 0).val = (y 0).val
    first | (rw [e0]; omega) | omega
  | ⟨1, _⟩ =>
    show win1_3.index t (1 : Fin 3) * 128 + 1 * (y 1).val = (y 1).val
    first | (rw [e1]; omega) | omega
  | ⟨2, _⟩ =>
    show win1_3.index t (2 : Fin 3) * 128 + 1 * (y 2).val = (y 2).val
    first | (rw [e2]; omega) | omega
/-- Window 4 is the whole array at every point. -/
theorem iblk1_4_eq (c : Dev nD) (t : Fin cfg1.N) :
    (iblk1 V c 4 t : S128x16.Idx → Elt F .bf16) = (V c main_v6 : S128x16.Idx → Elt F .bf16) := by
  obtain ⟨e0, e1⟩ := index1_4 t
  funext y
  try unfold iblk1
  try rw [View.read_apply]
  show V c main_v6 (((cfg1.win 4).blk t).view.emb y) = V c main_v6 y
  first | congr 1 | refine congrArg _ ?_
  funext a
  apply Fin.ext
  match a with
  | ⟨0, _⟩ =>
    show win1_4.index t (0 : Fin 2) * 128 + 1 * (y 0).val = (y 0).val
    first | (rw [e0]; omega) | omega
  | ⟨1, _⟩ =>
    show win1_4.index t (1 : Fin 2) * 16 + 1 * (y 1).val = (y 1).val
    first | (rw [e1]; omega) | omega
/-- Window 5 is the whole array at every point. -/
theorem iblk1_5_eq (c : Dev nD) (t : Fin cfg1.N) :
    (iblk1 V c 5 t : S1x16.Idx → Elt F .f32) = (V c main_v7 : S1x16.Idx → Elt F .f32) := by
  obtain ⟨e0, e1⟩ := index1_5 t
  funext y
  try unfold iblk1
  try rw [View.read_apply]
  show V c main_v7 (((cfg1.win 5).blk t).view.emb y) = V c main_v7 y
  first | congr 1 | refine congrArg _ ?_
  funext a
  apply Fin.ext
  match a with
  | ⟨0, _⟩ =>
    show win1_5.index t (0 : Fin 2) * 1 + 1 * (y 0).val = (y 0).val
    first | (rw [e0]; omega) | omega
  | ⟨1, _⟩ =>
    show win1_5.index t (1 : Fin 2) * 16 + 1 * (y 1).val = (y 1).val
    first | (rw [e1]; omega) | omega

end

/-- The step's slice of the features: rows 2048·b … of the whole array. -/
theorem hslice1_apply (t : Fin cfg1.N) (x1 : Vec F S16384x128 .bf16) (k : Fin 2048) (q : Fin 128) :
    View.ld x1 (Rect.unit (s := S16384x128) (k1_off1 (grid1.coords t)) S2048x128.size (k1_off1_inb (grid1.coords t))) (ix2 k q)
      = x1 (ix2 (colOf (t.val % 8) k) q) := by
  obtain ⟨e0, e1⟩ := off1_1 t
  have ht := lt1 t
  have hk := k.isLt
  show x1 ((Rect.unit (s := S16384x128) (k1_off1 (grid1.coords t)) S2048x128.size (k1_off1_inb (grid1.coords t))).idx (ix2 k q)) = x1 (ix2 (colOf (t.val % 8) k) q)
  first | congr 1 | refine congrArg _ ?_
  funext a
  apply Fin.ext
  match a with
  | ⟨0, _⟩ =>
    show k1_off1 (grid1.coords t) (0 : Fin 2) + 1 * k.val = (2048 * (t.val % 8) + k.val) % 16384
    first | (rw [e0]; omega) | omega
  | ⟨1, _⟩ =>
    show k1_off1 (grid1.coords t) (1 : Fin 2) + 1 * q.val = q.val
    first | (rw [e1]; omega) | omega

/-- Type `j`'s matrix out of the weight stack: the eight literal slices. -/
theorem wslice1_0 (x3 : Vec F S8x128x128 .bf16) (i o : Fin 128) :
    View.ld x3 (Rect.unit (s := S8x128x128) ![0, 0, 0] S1x128x128.size inb_S8x128x128_S1x128x128_0_0_0) (ix3 (0 : Fin 1) i o) = x3 (ix3 (0 : Fin 8) i o) := by
  show x3 ((Rect.unit (s := S8x128x128) ![0, 0, 0] S1x128x128.size inb_S8x128x128_S1x128x128_0_0_0).idx (ix3 (0 : Fin 1) i o)) = x3 (ix3 (0 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice1_1 (x3 : Vec F S8x128x128 .bf16) (i o : Fin 128) :
    View.ld x3 (Rect.unit (s := S8x128x128) ![1, 0, 0] S1x128x128.size inb_S8x128x128_S1x128x128_1_0_0) (ix3 (0 : Fin 1) i o) = x3 (ix3 (1 : Fin 8) i o) := by
  show x3 ((Rect.unit (s := S8x128x128) ![1, 0, 0] S1x128x128.size inb_S8x128x128_S1x128x128_1_0_0).idx (ix3 (0 : Fin 1) i o)) = x3 (ix3 (1 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice1_2 (x3 : Vec F S8x128x128 .bf16) (i o : Fin 128) :
    View.ld x3 (Rect.unit (s := S8x128x128) ![2, 0, 0] S1x128x128.size inb_S8x128x128_S1x128x128_2_0_0) (ix3 (0 : Fin 1) i o) = x3 (ix3 (2 : Fin 8) i o) := by
  show x3 ((Rect.unit (s := S8x128x128) ![2, 0, 0] S1x128x128.size inb_S8x128x128_S1x128x128_2_0_0).idx (ix3 (0 : Fin 1) i o)) = x3 (ix3 (2 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice1_3 (x3 : Vec F S8x128x128 .bf16) (i o : Fin 128) :
    View.ld x3 (Rect.unit (s := S8x128x128) ![3, 0, 0] S1x128x128.size inb_S8x128x128_S1x128x128_3_0_0) (ix3 (0 : Fin 1) i o) = x3 (ix3 (3 : Fin 8) i o) := by
  show x3 ((Rect.unit (s := S8x128x128) ![3, 0, 0] S1x128x128.size inb_S8x128x128_S1x128x128_3_0_0).idx (ix3 (0 : Fin 1) i o)) = x3 (ix3 (3 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice1_4 (x3 : Vec F S8x128x128 .bf16) (i o : Fin 128) :
    View.ld x3 (Rect.unit (s := S8x128x128) ![4, 0, 0] S1x128x128.size inb_S8x128x128_S1x128x128_4_0_0) (ix3 (0 : Fin 1) i o) = x3 (ix3 (4 : Fin 8) i o) := by
  show x3 ((Rect.unit (s := S8x128x128) ![4, 0, 0] S1x128x128.size inb_S8x128x128_S1x128x128_4_0_0).idx (ix3 (0 : Fin 1) i o)) = x3 (ix3 (4 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice1_5 (x3 : Vec F S8x128x128 .bf16) (i o : Fin 128) :
    View.ld x3 (Rect.unit (s := S8x128x128) ![5, 0, 0] S1x128x128.size inb_S8x128x128_S1x128x128_5_0_0) (ix3 (0 : Fin 1) i o) = x3 (ix3 (5 : Fin 8) i o) := by
  show x3 ((Rect.unit (s := S8x128x128) ![5, 0, 0] S1x128x128.size inb_S8x128x128_S1x128x128_5_0_0).idx (ix3 (0 : Fin 1) i o)) = x3 (ix3 (5 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice1_6 (x3 : Vec F S8x128x128 .bf16) (i o : Fin 128) :
    View.ld x3 (Rect.unit (s := S8x128x128) ![6, 0, 0] S1x128x128.size inb_S8x128x128_S1x128x128_6_0_0) (ix3 (0 : Fin 1) i o) = x3 (ix3 (6 : Fin 8) i o) := by
  show x3 ((Rect.unit (s := S8x128x128) ![6, 0, 0] S1x128x128.size inb_S8x128x128_S1x128x128_6_0_0).idx (ix3 (0 : Fin 1) i o)) = x3 (ix3 (6 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega
theorem wslice1_7 (x3 : Vec F S8x128x128 .bf16) (i o : Fin 128) :
    View.ld x3 (Rect.unit (s := S8x128x128) ![7, 0, 0] S1x128x128.size inb_S8x128x128_S1x128x128_7_0_0) (ix3 (0 : Fin 1) i o) = x3 (ix3 (7 : Fin 8) i o) := by
  show x3 ((Rect.unit (s := S8x128x128) ![7, 0, 0] S1x128x128.size inb_S8x128x128_S1x128x128_7_0_0).idx (ix3 (0 : Fin 1) i o)) = x3 (ix3 (7 : Fin 8) i o)
  first | congr 1 | refine congrArg _ ?_
  funext a
  apply Fin.ext
  match a with
  | ⟨0, _⟩ => rfl
  | ⟨1, _⟩ => show 0 + 1 * i.val = i.val; omega
  | ⟨2, _⟩ => show 0 + 1 * o.val = o.val; omega

/-- The output block of point `t` of a whole-array contents `G`, at (p, q). -/
theorem oblk1_apply (c : Dev nD) (t : Fin cfg1.N) (G : S16384x16.Idx → Elt F .f32) (p : Fin 1024) (q : Fin 16) :
    (((cfg1.win 6).blk t).view.read (Elt F) (G : Buf (Elt F) ((cfg1.win 6).arr.view.loc (c.tc : Thread nD τ))) : S1024x16.Idx → Elt F .f32) (ix2 p q)
      = G (ix2 (rowOf (t.val / 8) p) q) := by
  obtain ⟨e0, e1⟩ := index1_6 t
  have ht := lt1 t
  have hp := p.isLt
  try rw [View.read_apply]
  show G (((cfg1.win 6).blk t).view.emb (ix2 p q)) = G (ix2 (rowOf (t.val / 8) p) q)
  first | congr 1 | refine congrArg _ ?_
  funext a
  apply Fin.ext
  match a with
  | ⟨0, _⟩ =>
    show win1_6.index t (0 : Fin 2) * 1024 + 1 * p.val = (1024 * (t.val / 8) + p.val) % 16384
    first | (rw [e0]; omega) | omega
  | ⟨1, _⟩ =>
    show win1_6.index t (1 : Fin 2) * 16 + 1 * q.val = q.val
    first | (rw [e1]; omega) | omega

/-- An index of the result array is in point `t`'s block iff each coordinate is in the block's range on its axis. -/
theorem mem_oblk1 (t : Fin cfg1.N) (i : S16384x16.Idx) :
    i ∈ ((cfg1.win 6).blk t).view.set ↔ ∀ a : Fin 2, win1_6.index t a * S1024x16.size a ≤ (i a).val ∧ (i a).val < win1_6.index t a * S1024x16.size a + S1024x16.size a := by
  show i ∈ ((View.whole main_v10).slice (win1_6.rect t)).set ↔ _
  rw [View.set_slice_whole, Rect.mem_set_unit]
  exact Iff.rfl

/-- Row n of the result lies in the block of the last step of row block n / 1024: point 8·(n / 1024) + 7. -/
theorem ocover1_idx (i : S16384x16.Idx) :
    ∃ t : Fin cfg1.N, (cfg1.win 6).flush t = true ∧ i ∈ ((cfg1.win 6).blk t).view.set := by
  have hi0 : (i 0).val < 16384 := (i 0).isLt
  have hi1 : (i 1).val < 16 := (i 1).isLt
  have hN : cfg1.N = 128 := N_1
  obtain ⟨t, ht⟩ : ∃ t : Fin cfg1.N, t.val = 8 * ((i 0).val / 1024) + 7 := ⟨⟨8 * ((i 0).val / 1024) + 7, by rw [hN]; omega⟩, rfl⟩
  obtain ⟨e0, e1⟩ := index1_6 t
  refine ⟨t, (flush1_6 t).mpr (by omega), ?_⟩
  rw [mem_oblk1]
  intro a
  match a with
  | ⟨0, _⟩ =>
    show win1_6.index t (0 : Fin 2) * 1024 ≤ (i 0).val ∧ (i 0).val < win1_6.index t (0 : Fin 2) * 1024 + 1024
    first | (rw [e0]; omega) | omega
  | ⟨1, _⟩ =>
    show win1_6.index t (1 : Fin 2) * 16 ≤ (i 1).val ∧ (i 1).val < win1_6.index t (1 : Fin 2) * 16 + 16
    first | (rw [e1]; omega) | omega

/-- Every index of the result array lies in the block some row block's last step writes back. -/
theorem ocover1 (c : Dev nD) (i : ((cfg1.win 6).arr.view.loc (c.tc : Thread nD τ)).2.ty.Idx) :
    ∃ t : Fin cfg1.N, (cfg1.win 6).flush t = true ∧ i ∈ ((cfg1.win 6).blk t).view.set :=
  ocover1_idx i

end Cert.KernelIdeal.Hand

end
-- ==== Proof.KI.Val1.lean ====
/-
  Layer 2's result. The accumulator is as in layer 1, over layer 1's output as the features; after the last step of a
  row block the finished aggregate goes through each row's own type's matrix, is cut at zero, and is read out through
  the read-out matrix plus the bias; the blocks of logits written back cover the result array.
-/
import proofs.«410506_j65481071397259_3_alg».proof.Proof.KI.Pieces1
import proofs.«410506_j65481071397259_3_alg».proof.Proof.KI.Blk1
import proofs.«410506_j65481071397259_3_alg».proof.Proof.KI.Pay
import proofs.«410506_j65481071397259_3_alg».proof.Proof.KI.Host
import proofs.«410506_j65481071397259_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open scoped BigOperators
open Idealize.ShloMosaic.ValueIdx Cert.Spec

variable (V : (c : Dev nD) → (b : Ref sig .tc) → Buf (Elt Ideal) ((c : Thread nD τ).loc b))

/-- The adjacency as the region finds it. -/
abbrev adjA1 (c : Dev nD) : S16384x16384.Idx → EReal := (V c main_arg2 : S16384x16384.Idx → Elt Ideal .f32)
/-- The features as the region finds them. -/
abbrev hA1 (c : Dev nD) : S16384x128.Idx → EReal := (V c main_v9 : S16384x128.Idx → Elt Ideal .bf16)

/-- The blocks of point `t`, each by its own shape: the adjacency block, -/
abbrev ablk1 (c : Dev nD) (t : Fin cfg1.N) : Vec Ideal S1024x2048 .f32 := iblk1 V c 0 t
/-- the features, -/
abbrev hblk1 (c : Dev nD) (t : Fin cfg1.N) : Vec Ideal S16384x128 .bf16 := iblk1 V c 1 t
/-- the row block's types, -/
abbrev tblk1 (c : Dev nD) (t : Fin cfg1.N) : Vec Ideal S1024x1 .i32 := iblk1 V c 2 t
/-- the weight stack. -/
abbrev wblk1 (c : Dev nD) (t : Fin cfg1.N) : Vec Ideal S8x128x128 .bf16 := iblk1 V c 3 t

/-- the read-out matrix, -/
abbrev cblk1 (c : Dev nD) (t : Fin cfg1.N) : Vec Ideal S128x16 .bf16 := iblk1 V c 4 t
/-- the bias row. -/
abbrev bblk1 (c : Dev nD) (t : Fin cfg1.N) : Vec Ideal S1x16 .f32 := iblk1 V c 5 t

theorem ablk1_apply (c : Dev nD) (t : Fin cfg1.N) (p : Fin 1024) (k : Fin 2048) :
    ablk1 V c t (ix2 p k) = adjA1 V c (ix2 (rowOf (t.val / 8) p) (colOf (t.val % 8) k)) :=
  iblk1_0_apply V c t p k
theorem hblk1_eq (c : Dev nD) (t : Fin cfg1.N) : hblk1 V c t = hA1 V c := iblk1_1_eq V c t
theorem tblk1_apply (c : Dev nD) (t : Fin cfg1.N) (p : Fin 1024) :
    tblk1 V c t (ix2 p (0 : Fin 1)) = (V c main_v0 : S16384x1.Idx → Elt Ideal .i32) (ix2 (rowOf (t.val / 8) p) (0 : Fin 1)) :=
  iblk1_2_apply V c t p
theorem wblk1_eq (c : Dev nD) (t : Fin cfg1.N) : wblk1 V c t = (V c main_v4 : S8x128x128.Idx → Elt Ideal .bf16) :=
  iblk1_3_eq V c t

theorem cblk1_eq (c : Dev nD) (t : Fin cfg1.N) : cblk1 V c t = (V c main_v6 : S128x16.Idx → Elt Ideal .bf16) :=
  iblk1_4_eq V c t
theorem bblk1_eq (c : Dev nD) (t : Fin cfg1.N) : bblk1 V c t = (V c main_v7 : S1x16.Idx → Elt Ideal .f32) :=
  iblk1_5_eq V c t

/-- Column block `b`'s share of the neighbourhood sum at row `p` of row block `r`, feature `q`. -/
def G1 (c : Dev nD) (r : ℕ) (p : Fin 1024) (q : Fin 128) (b : ℕ) : EReal :=
  ∑ k : Fin 2048, adjA1 V c (ix2 (rowOf r p) (colOf b k)) * hA1 V c (ix2 (colOf b k) q)

/-- One step's product at (p, q), from the point's blocks. -/
theorem step1 (c : Dev nD) (t : Fin cfg1.N) (p : Fin 1024) (q : Fin 128) :
    ∑ k : Fin 2048, ablk1 V c t (ix2 p k) * View.ld (hblk1 V c t) (hrect1 (grid1.coords t)) (ix2 k q)
      = G1 V c (t.val / 8) p q (t.val % 8) := by
  unfold G1
  refine Finset.sum_congr rfl fun k _ => ?_
  rw [ablk1_apply V c t p k, hslice1_apply t (hblk1 V c t) k q, hblk1_eq V c t]

/-! What each kind of point leaves, over the point's blocks. -/

theorem acc1A_eq (c : Dev nD) (t : Fin cfg1.N) (h0 : t.val % 8 = 0) :
    acc1A V c t h0 = k1_pay2 (View.ld (hblk1 V c t) (hrect1 (grid1.coords t))) (ablk1 V c t) (k1_pay1 (F := Ideal)) :=
  sout1_A_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((first1_iff t).mpr h0) (notLast1_of_first h0) (iblk1 V c 0 t) (iblk1 V c 1 t)

theorem acc1B_eq (c : Dev nD) (t : Fin cfg1.N) (h0 : ¬t.val % 8 = 0) (h1 : ¬t.val % 8 = 7) (xs : Vec Ideal S1024x128 .f32) :
    acc1B V c t h0 h1 xs = k1_pay2 (View.ld (hblk1 V c t) (hrect1 (grid1.coords t))) (ablk1 V c t) xs :=
  sout1_B_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) (fun h => h1 ((last1_iff t).mp h)) (iblk1 V c 0 t) (iblk1 V c 1 t) xs

theorem acc1C_eq (c : Dev nD) (t : Fin cfg1.N) (h0 : ¬t.val % 8 = 0) (h1 : t.val % 8 = 7) (xs : Vec Ideal S1024x128 .f32) :
    acc1C V c t h0 h1 xs = k1_pay2 (View.ld (hblk1 V c t) (hrect1 (grid1.coords t))) (ablk1 V c t) xs :=
  sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) xs

theorem out1C_eq (c : Dev nD) (t : Fin cfg1.N) (h0 : ¬t.val % 8 = 0) (h1 : t.val % 8 = 7) (xs : Vec Ideal S1024x128 .f32) :
    out1C V c t h0 h1 xs
      = k1_pay6 (k1_pay3 (k1_pay2 (View.ld (hblk1 V c t) (hrect1 (grid1.coords t))) (ablk1 V c t) xs)) (k1_pay4 (tblk1 V c t))
          (k1_pay5 (k1_pay2 (View.ld (hblk1 V c t) (hrect1 (grid1.coords t))) (ablk1 V c t) xs) (tblk1 V c t)
            (View.ld (wblk1 V c t) (Rect.unit (s := S8x128x128) ![0, 0, 0] S1x128x128.size inb_S8x128x128_S1x128x128_0_0_0))
            (View.ld (wblk1 V c t) (Rect.unit (s := S8x128x128) ![1, 0, 0] S1x128x128.size inb_S8x128x128_S1x128x128_1_0_0))
            (View.ld (wblk1 V c t) (Rect.unit (s := S8x128x128) ![2, 0, 0] S1x128x128.size inb_S8x128x128_S1x128x128_2_0_0))
            (View.ld (wblk1 V c t) (Rect.unit (s := S8x128x128) ![3, 0, 0] S1x128x128.size inb_S8x128x128_S1x128x128_3_0_0)))
          (View.ld (wblk1 V c t) (Rect.unit (s := S8x128x128) ![4, 0, 0] S1x128x128.size inb_S8x128x128_S1x128x128_4_0_0))
          (View.ld (wblk1 V c t) (Rect.unit (s := S8x128x128) ![5, 0, 0] S1x128x128.size inb_S8x128x128_S1x128x128_5_0_0))
          (View.ld (wblk1 V c t) (Rect.unit (s := S8x128x128) ![6, 0, 0] S1x128x128.size inb_S8x128x128_S1x128x128_6_0_0))
          (View.ld (wblk1 V c t) (Rect.unit (s := S8x128x128) ![7, 0, 0] S1x128x128.size inb_S8x128x128_S1x128x128_7_0_0))
          (cblk1 V c t) (bblk1 V c t) :=
  out1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) xs

/-- The accumulator after position `n`. -/
theorem acc_inv1 (c : Dev nD) (p : Fin 1024) (q : Fin 128) : ∀ (n : ℕ) (hn : n < cfg1.N),
    (outsAt1 V c n hn).2 (ix2 p q) = ∑ b ∈ Finset.range (n % 8 + 1), G1 V c (n / 8) p q b := by
  intro n
  induction n with
  | zero =>
    intro hn
    rw [outsAt1_A V c ⟨0, hn⟩ (Nat.zero_mod 8)]
    dsimp only
    rw [acc1A_eq V c ⟨0, hn⟩ (Nat.zero_mod 8)]
    refine (Pay.pay2_apply1 (View.ld (hblk1 V c ⟨0, hn⟩) (hrect1 (grid1.coords ⟨0, hn⟩))) (ablk1 V c ⟨0, hn⟩) (k1_pay1 (F := Ideal)) p q).trans ?_
    rw [Pay.pay1_apply1 p q, zero_add, step1 V c ⟨0, hn⟩ p q]
    exact (Finset.sum_range_one _).symm
  | succ n ih =>
    intro hn
    have hn' : n < cfg1.N := Nat.lt_of_succ_lt hn
    by_cases h0 : (n + 1) % 8 = 0
    · rw [outsAt1_A V c ⟨n + 1, hn⟩ h0]
      dsimp only
      rw [acc1A_eq V c ⟨n + 1, hn⟩ h0]
      refine (Pay.pay2_apply1 (View.ld (hblk1 V c ⟨n + 1, hn⟩) (hrect1 (grid1.coords ⟨n + 1, hn⟩))) (ablk1 V c ⟨n + 1, hn⟩) (k1_pay1 (F := Ideal)) p q).trans ?_
      rw [Pay.pay1_apply1 p q, zero_add, step1 V c ⟨n + 1, hn⟩ p q]
      show G1 V c ((n + 1) / 8) p q ((n + 1) % 8) = ∑ b ∈ Finset.range ((n + 1) % 8 + 1), G1 V c ((n + 1) / 8) p q b
      rw [h0]
      exact (Finset.sum_range_one _).symm
    · have hdiv : (n + 1) / 8 = n / 8 := by omega
      have hmod : (n + 1) % 8 = n % 8 + 1 := by omega
      have key : ∀ xs : Vec Ideal S1024x128 .f32, xs (ix2 p q) = ∑ b ∈ Finset.range (n % 8 + 1), G1 V c (n / 8) p q b →
          k1_pay2 (View.ld (hblk1 V c ⟨n + 1, hn⟩) (hrect1 (grid1.coords ⟨n + 1, hn⟩))) (ablk1 V c ⟨n + 1, hn⟩) xs (ix2 p q)
            = ∑ b ∈ Finset.range ((n + 1) % 8 + 1), G1 V c ((n + 1) / 8) p q b := by
        intro xs hxs
        refine (Pay.pay2_apply1 (View.ld (hblk1 V c ⟨n + 1, hn⟩) (hrect1 (grid1.coords ⟨n + 1, hn⟩))) (ablk1 V c ⟨n + 1, hn⟩) xs p q).trans ?_
        rw [hxs, step1 V c ⟨n + 1, hn⟩ p q]
        show _ + G1 V c ((n + 1) / 8) p q ((n + 1) % 8) = _
        rw [hdiv, hmod, Finset.sum_range_succ _ (n % 8 + 1)]
      by_cases h1 : (n + 1) % 8 = 7
      · rw [outsAt1_C V c ⟨n + 1, hn⟩ h0 h1]
        dsimp only
        rw [acc1C_eq V c ⟨n + 1, hn⟩ h0 h1]
        exact key _ (ih hn')
      · rw [outsAt1_B V c ⟨n + 1, hn⟩ h0 h1]
        dsimp only
        rw [acc1B_eq V c ⟨n + 1, hn⟩ h0 h1]
        exact key _ (ih hn')

/-- After a row block's last step the accumulator holds the whole neighbourhood sum. -/
theorem acc_last1 (c : Dev nD) (t : Fin cfg1.N) (h1 : t.val % 8 = 7) (p : Fin 1024) (q : Fin 128) :
    (outsAt1 V c t.val t.isLt).2 (ix2 p q) = agg (adjA1 V c) (hA1 V c) (rowOf (t.val / 8) p) q := by
  rw [acc_inv1 V c p q t.val t.isLt, h1]
  unfold agg
  rw [Host.sum_blocks]
  rfl

/-- The same, as the last step's own update of what the step before left. -/
theorem acc_pay1 (c : Dev nD) (t : Fin cfg1.N) (h0 : ¬t.val % 8 = 0) (h1 : t.val % 8 = 7) (p : Fin 1024) (q : Fin 128) :
    k1_pay2 (View.ld (hblk1 V c t) (hrect1 (grid1.coords t))) (ablk1 V c t)
        (outsAt1 V c (t.val - 1) (Nat.lt_of_le_of_lt (Nat.sub_le _ _) t.isLt)).2 (ix2 p q)
      = agg (adjA1 V c) (hA1 V c) (rowOf (t.val / 8) p) q := by
  have hacc := acc_last1 V c t h1 p q
  rw [outsAt1_C V c t h0 h1] at hacc
  dsimp only at hacc
  rw [acc1C_eq V c t h0 h1] at hacc
  exact hacc

/-- The eight slices of the weight stack, by type. -/
theorem wOf_slices1 (x3 : Vec Ideal S8x128x128 .bf16) (tt : Fin 8) (i o : Fin 128) :
    Pay.wOf (View.ld x3 (Rect.unit (s := S8x128x128) ![0, 0, 0] S1x128x128.size inb_S8x128x128_S1x128x128_0_0_0))
      (View.ld x3 (Rect.unit (s := S8x128x128) ![1, 0, 0] S1x128x128.size inb_S8x128x128_S1x128x128_1_0_0))
      (View.ld x3 (Rect.unit (s := S8x128x128) ![2, 0, 0] S1x128x128.size inb_S8x128x128_S1x128x128_2_0_0))
      (View.ld x3 (Rect.unit (s := S8x128x128) ![3, 0, 0] S1x128x128.size inb_S8x128x128_S1x128x128_3_0_0))
      (View.ld x3 (Rect.unit (s := S8x128x128) ![4, 0, 0] S1x128x128.size inb_S8x128x128_S1x128x128_4_0_0))
      (View.ld x3 (Rect.unit (s := S8x128x128) ![5, 0, 0] S1x128x128.size inb_S8x128x128_S1x128x128_5_0_0))
      (View.ld x3 (Rect.unit (s := S8x128x128) ![6, 0, 0] S1x128x128.size inb_S8x128x128_S1x128x128_6_0_0))
      (View.ld x3 (Rect.unit (s := S8x128x128) ![7, 0, 0] S1x128x128.size inb_S8x128x128_S1x128x128_7_0_0)) tt (ix3 (0 : Fin 1) i o)
      = x3 (ix3 tt i o) := by
  match tt with
  | ⟨0, _⟩ => exact wslice1_0 x3 i o
  | ⟨1, _⟩ => exact wslice1_1 x3 i o
  | ⟨2, _⟩ => exact wslice1_2 x3 i o
  | ⟨3, _⟩ => exact wslice1_3 x3 i o
  | ⟨4, _⟩ => exact wslice1_4 x3 i o
  | ⟨5, _⟩ => exact wslice1_5 x3 i o
  | ⟨6, _⟩ => exact wslice1_6 x3 i o
  | ⟨7, _⟩ => exact wslice1_7 x3 i o

/-- The block of logits a row block's last step stores, at (p, k): the read-out of the layer at the row block's row `p`. -/
theorem out_last1 (c : Dev nD) (nt : SN.Idx → BitVec 32) (W : SW.Idx → EReal) (Wc : SC128.Idx → EReal) (bc : SC.Idx → EReal)
    (hnt : ∀ n : Fin 16384, (V c main_v0 : S16384x1.Idx → Elt Ideal .i32) (ix2 n (0 : Fin 1)) = nt (ix1 n))
    (hW : ∀ (tt : Fin 8) (i o : Fin 128), (V c main_v4 : S8x128x128.Idx → Elt Ideal .bf16) (ix3 tt i o) = W (ix3 tt o i))
    (hWc : ∀ (i : Fin 128) (k : Fin 16), (V c main_v6 : S128x16.Idx → Elt Ideal .bf16) (ix2 i k) = Wc (ix2 k i))
    (hbc : ∀ k : Fin 16, (V c main_v7 : S1x16.Idx → Elt Ideal .f32) (ix2 (0 : Fin 1) k) = bc (ix1 k))
    (hrange : ∀ n : Fin 16384, (nt (ix1 n)).toNat < 8)
    (t : Fin cfg1.N) (h0 : ¬t.val % 8 = 0) (h1 : t.val % 8 = 7) (p : Fin 1024) (k : Fin 16) :
    out1C V c t h0 h1 (outsAt1 V c (t.val - 1) (Nat.lt_of_le_of_lt (Nat.sub_le _ _) t.isLt)).2 (ix2 p k)
      = (∑ o : Fin 128, layerAt (adjA1 V c) nt W (hA1 V c) (rowOf (t.val / 8) p) o * Wc (ix2 k o)) + bc (ix1 k) := by
  rw [out1C_eq V c t h0 h1]
  have hty : (tblk1 V c t (ix2 p (0 : Fin 1))).toNat = (tyIdx nt (rowOf (t.val / 8) p)).val := by
    rw [tblk1_apply V c t p, hnt]
    exact (Nat.mod_eq_of_lt (hrange _)).symm
  refine (Pay.logit_apply _ _ _ _ _ _ _ _ _ _ _ _ p k (tyIdx nt (rowOf (t.val / 8) p)) hty).trans ?_
  rw [bblk1_eq V c t, hbc]
  refine congrArg (fun x => x + bc (ix1 k)) (Finset.sum_congr rfl fun o _ => ?_)
  rw [cblk1_eq V c t, hWc]
  refine congrArg (fun x => x * Wc (ix2 k o)) ?_
  unfold layerAt
  refine congrArg (fun x => max x 0) (Finset.sum_congr rfl fun i _ => ?_)
  rw [wOf_slices1 (wblk1 V c t) (tyIdx nt (rowOf (t.val / 8) p)) i o, wblk1_eq V c t, hW, acc_pay1 V c t h0 h1 p i]

set_option maxHeartbeats 1000000 in
/-- THE LAYER AND THE READ-OUT. If the region finds the adjacency `adj`, the features `h`, the type column of `nt`, the
    weight stack `W` with each matrix transposed, the read-out matrix `Wc` transposed and the bias `bc` as a row, and
    every type is below 8, the result array ends holding the read-out of the layer of them. -/
theorem layer1 (c : Dev nD) (adj : SNN.Idx → EReal) (h : SN128.Idx → EReal) (nt : SN.Idx → BitVec 32) (W : SW.Idx → EReal)
    (Wc : SC128.Idx → EReal) (bc : SC.Idx → EReal)
    (hadj : adjA1 V c = adj) (hh : hA1 V c = h)
    (hnt : ∀ n : Fin 16384, (V c main_v0 : S16384x1.Idx → Elt Ideal .i32) (ix2 n (0 : Fin 1)) = nt (ix1 n))
    (hW : ∀ (tt : Fin 8) (i o : Fin 128), (V c main_v4 : S8x128x128.Idx → Elt Ideal .bf16) (ix3 tt i o) = W (ix3 tt o i))
    (hWc : ∀ (i : Fin 128) (k : Fin 16), (V c main_v6 : S128x16.Idx → Elt Ideal .bf16) (ix2 i k) = Wc (ix2 k i))
    (hbc : ∀ k : Fin 16, (V c main_v7 : S1x16.Idx → Elt Ideal .f32) (ix2 (0 : Fin 1) k) = bc (ix1 k))
    (hrange : ∀ n : Fin 16384, (nt (ix1 n)).toNat < 8) :
    ((dat1 V c).arrAt 6 cfg1.N : S16384x16.Idx → EReal)
      = fun j => (∑ o : Fin 128, layerAt adj nt W h (j 0) o * Wc (ix2 (j 1) o)) + bc (ix1 (j 1)) := by
  subst hadj
  subst hh
  refine (dat1 V c).arrAt_eq_of_cover 6 (fun j : S16384x16.Idx => (∑ o : Fin 128, layerAt (adjA1 V c) nt W (hA1 V c) (j 0) o * Wc (ix2 (j 1) o)) + bc (ix1 (j 1))) (fun t hf => ?_) (ocover1 c)
  have h1 : t.val % 8 = 7 := (flush1_6 t).mp hf
  have h0 : ¬t.val % 8 = 0 := by omega
  show (cfg1.win 6).cut (grid1.coords t) ((dat1 V c).after 6 t) = _
  rw [after1_6 V c t, outsAt1_C V c t h0 h1]
  dsimp only
  funext y
  obtain ⟨p, k, rfl⟩ : ∃ (p : Fin 1024) (k : Fin 16), y = ix2 p k := ⟨y 0, y 1, eq_ix2 y⟩
  rw [oblk1_apply (F := Ideal) c t (fun j : S16384x16.Idx => (∑ o : Fin 128, layerAt (adjA1 V c) nt W (hA1 V c) (j 0) o * Wc (ix2 (j 1) o)) + bc (ix1 (j 1))) p k]
  exact out_last1 V c nt W Wc bc hnt hW hWc hbc hrange t h0 h1 p k

end Cert.KernelIdeal.Hand

end
-- ==== Proof.KI.Final.lean ====
/-
  The kernel program's result. The host operations hand layer 1 the arguments laid out for it (the adjacency and the
  features as launched, the types as a column, each weight matrix transposed); layer 1's result array is the first
  layer of the specification; layer 2 finds it as its features, beside the second weight stack, the read-out matrix
  transposed and the bias as a row; its result array is the specification's logits.
-/
import proofs.«410506_j65481071397259_3_alg».proof.Proof.KI.Frame
import proofs.«410506_j65481071397259_3_alg».proof.Proof.KI.Val0
import proofs.«410506_j65481071397259_3_alg».proof.Proof.KI.Val1
import proofs.«410506_j65481071397259_3_alg».proof.Proof.KI.Host
import proofs.«410506_j65481071397259_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open scoped BigOperators
open Idealize.ShloMosaic.ValueIdx Cert.Spec

variable (m : (ℓ : Loc nD τ sig) → Buf (Elt Ideal) ℓ) (c : Dev nD)

/-- The arguments as launched, as plain arrays. -/
abbrev xM : SN128.Idx → EReal := (m ((c : Thread nD τ).loc main_arg0) : S16384x128.Idx → Elt Ideal .f32)
abbrev ntM : SN.Idx → BitVec 32 := (m ((c : Thread nD τ).loc main_arg1) : S16384.Idx → Elt Ideal .i32)
abbrev adjM : SNN.Idx → EReal := (m ((c : Thread nD τ).loc main_arg2) : S16384x16384.Idx → Elt Ideal .f32)
abbrev W1M : SW.Idx → EReal := (m ((c : Thread nD τ).loc main_arg3) : S8x128x128.Idx → Elt Ideal .f32)
abbrev W2M : SW.Idx → EReal := (m ((c : Thread nD τ).loc main_arg4) : S8x128x128.Idx → Elt Ideal .f32)
abbrev WcM : SC128.Idx → EReal := (m ((c : Thread nD τ).loc main_arg5) : S16x128.Idx → Elt Ideal .f32)
abbrev bcM : SC.Idx → EReal := (m ((c : Thread nD τ).loc main_arg6) : S16.Idx → Elt Ideal .f32)

/-- Layer 1's result array is the specification's first layer. -/
theorem h1_eq (hrange : ∀ n : Fin 16384, (ntM m c (ix1 n)).toNat < 8) :
    ((dat0 (E1 m) c).arrAt 4 cfg0.N : S16384x128.Idx → EReal) = layer (adjM m c) (ntM m c) (W1M m c) (xM m c) :=
  layer0 (E1 m) c (adjM m c) (xM m c) (ntM m c) (W1M m c) (Host.V1_arg2 m c) (Host.V1_v8 m c) (Host.V1_v0_apply m c)
    (Host.V1_v2_apply m c) hrange

/-- What layer 2 finds: the adjacency still as launched, -/
theorem E2_arg2 : (E2 m c main_arg2 : S16384x16384.Idx → EReal) = adjM m c :=
  ((W2_arr m c 0).trans (((dat0 (E1 m) c).arrAt_in 0 rfl _).trans (A_eq0 (E1 m) c 0))).trans (Host.V1_arg2 m c)
/-- layer 1's result as its features, -/
theorem E2_v9 : (E2 m c main_v9 : S16384x128.Idx → EReal) = (dat0 (E1 m) c).arrAt 4 cfg0.N := W2_arr m c 4
/-- the type column, -/
theorem E2_v0 : (E2 m c main_v0 : S16384x1.Idx → Elt Ideal .i32) = (E1 m c main_v0 : S16384x1.Idx → Elt Ideal .i32) :=
  (W2_arr m c 2).trans (((dat0 (E1 m) c).arrAt_in 2 rfl _).trans (A_eq0 (E1 m) c 2))
/-- and what layer 1 did not touch. -/
theorem E2_v4 : (E2 m c main_v4 : S8x128x128.Idx → Elt Ideal .bf16) = (E1 m c main_v4 : S8x128x128.Idx → Elt Ideal .bf16) :=
  W2_of_ne m c main_v4 (by decide)
theorem E2_v6 : (E2 m c main_v6 : S128x16.Idx → Elt Ideal .bf16) = (E1 m c main_v6 : S128x16.Idx → Elt Ideal .bf16) :=
  W2_of_ne m c main_v6 (by decide)
theorem E2_v7 : (E2 m c main_v7 : S1x16.Idx → Elt Ideal .f32) = (E1 m c main_v7 : S1x16.Idx → Elt Ideal .f32) :=
  W2_of_ne m c main_v7 (by decide)

/-- The program's result array is the specification's logits of the arguments. -/
theorem logits_eq (hrange : ∀ n : Fin 16384, (ntM m c (ix1 n)).toNat < 8) :
    ((dat1 (E2 m) c).arrAt 6 cfg1.N : S16384x16.Idx → EReal)
      = logits (adjM m c) (ntM m c) (W1M m c) (W2M m c) (WcM m c) (bcM m c) (xM m c) := by
  refine (layer1 (E2 m) c (adjM m c) (layer (adjM m c) (ntM m c) (W1M m c) (xM m c)) (ntM m c) (W2M m c) (WcM m c) (bcM m c)
    (E2_arg2 m c) ((E2_v9 m c).trans (h1_eq m c hrange)) (fun n => ?_) (fun tt i o => ?_) (fun i k => ?_) (fun k => ?_) hrange).trans ?_
  · rw [E2_v0 m c]; exact Host.V1_v0_apply m c n
  · rw [E2_v4 m c]; exact Host.V1_v4_apply m c tt i o
  · rw [E2_v6 m c]; exact Host.V1_v6_apply m c i k
  · rw [E2_v7 m c]; exact Host.V1_v7_apply m c k
  · funext j; rfl

end Cert.KernelIdeal.Hand

end
-- ==== Proof.RefGather.lean ====
/-
  The reference's gather of each node's own type's row, read at an index: the operand at the two start-index words
  (read signed and clamped into the axes), the words being the node's type and the node's own position.
-/
import proofs.«410506_j65481071397259_3_alg».proof.Proof.Gen.ReferenceIdeal.Read
import Idealize.ShloMosaic.Lib.StableHlo.Predicate

noncomputable section

namespace Cert.RefGather

open Idealize.ShloMosaic Idealize.ShloMosaic.ValueIdx Cert.ReferenceIdeal Cert.ReferenceIdeal.Gen Cert.ReferenceIdeal.Read
open Idealize.ShloMosaic.StableHlo.Predicate

/-- The gather's dimension numbers. -/
abbrev gd : GatherDims S8x16384x128 S16384x2 S16384x128 := gather_S8x16384x128_S16384x2_S16384x128_1_01_n_n_01_1_11128

/-- The start-indices index of component 0 of result index `j`'s start index. -/
theorem siIdx0 (j : S16384x128.Idx) (h : List.idxOf (0 : Fin S8x16384x128.rank) gd.startIndexMap < gd.startIndexMap.length) :
    gd.siIdx j ⟨List.idxOf (0 : Fin S8x16384x128.rank) gd.startIndexMap, h⟩ = ix2 (n0 := 16384) (n1 := 2) (j 0) 0 := by
  funext b; refine Fin.ext ?_
  match b with
  | ⟨0, _⟩ => rfl
  | ⟨1, _⟩ => rfl

/-- The start-indices index of component 1 of result index `j`'s start index. -/
theorem siIdx1 (j : S16384x128.Idx) (h : List.idxOf (1 : Fin S8x16384x128.rank) gd.startIndexMap < gd.startIndexMap.length) :
    gd.siIdx j ⟨List.idxOf (1 : Fin S8x16384x128.rank) gd.startIndexMap, h⟩ = ix2 (n0 := 16384) (n1 := 2) (j 0) 1 := by
  funext b; refine Fin.ext ?_
  match b with
  | ⟨0, _⟩ => rfl
  | ⟨1, _⟩ => rfl

/-- The operand index on the type axis: the first start-index word, clamped. -/
theorem coord0 {w : Nat} (idx : IVec S16384x2 w) (j : S16384x128.Idx) :
    (gd.operandIdx j idx 0).val = min (idx (ix2 (n0 := 16384) (n1 := 2) (j 0) 0)).toInt.toNat 7 := by
  show gd.start j idx 0 + gd.batchCoord j 0 + gd.offCoord j 0 = _
  rw [GatherDims.batchCoord_eq_zero gd j 0 (show (0 : Fin S8x16384x128.rank) ∉ gd.operandBatchingDims by decide),
    GatherDims.offCoord_eq_zero gd j 0 (fun h => ((GatherDims.mem_sKept gd 0).mp h).1
      (show (0 : Fin S8x16384x128.rank) ∈ gd.collapsedSliceDims by decide))]
  simp only [Nat.add_zero]
  unfold GatherDims.start
  rw [dif_pos (show (0 : Fin S8x16384x128.rank) ∈ gd.startIndexMap by decide), siIdx0]
  rfl

/-- The operand index on the node axis: the second start-index word, clamped. -/
theorem coord1 {w : Nat} (idx : IVec S16384x2 w) (j : S16384x128.Idx) :
    (gd.operandIdx j idx 1).val = min (idx (ix2 (n0 := 16384) (n1 := 2) (j 0) 1)).toInt.toNat 16383 := by
  show gd.start j idx 1 + gd.batchCoord j 1 + gd.offCoord j 1 = _
  rw [GatherDims.batchCoord_eq_zero gd j 1 (show (1 : Fin S8x16384x128.rank) ∉ gd.operandBatchingDims by decide),
    GatherDims.offCoord_eq_zero gd j 1 (fun h => ((GatherDims.mem_sKept gd 1).mp h).1
      (show (1 : Fin S8x16384x128.rank) ∈ gd.collapsedSliceDims by decide))]
  simp only [Nat.add_zero]
  unfold GatherDims.start
  rw [dif_pos (show (1 : Fin S8x16384x128.rank) ∈ gd.startIndexMap by decide), siIdx1]
  rfl

/-- The operand index on the feature axis: the result's feature coordinate. -/
theorem coord2 {w : Nat} (idx : IVec S16384x2 w) (j : S16384x128.Idx) :
    (gd.operandIdx j idx 2).val = (j 1).val := by
  show gd.start j idx 2 + gd.batchCoord j 2 + gd.offCoord j 2 = _
  rw [GatherDims.batchCoord_eq_zero gd j 2 (show (2 : Fin S8x16384x128.rank) ∉ gd.operandBatchingDims by decide)]
  have hs : gd.start j idx 2 = 0 := by
    unfold GatherDims.start
    rw [dif_neg (show ¬ (2 : Fin S8x16384x128.rank) ∈ gd.startIndexMap by decide)]
  rw [hs, Nat.add_zero, Nat.zero_add]
  unfold GatherDims.offCoord
  rw [dif_pos (show (2 : Fin S8x16384x128.rank) ∈ gd.sKept by decide)]
  rfl

/-- THE GATHER AT AN INDEX: the operand at the two clamped start-index words and the feature coordinate. -/
theorem gather_apply {α : Type} {w : Nat} (x : S8x16384x128.Idx → α) (idx : IVec S16384x2 w) (j : S16384x128.Idx)
    (t : Fin 8) (n : Fin 16384)
    (ht : min (idx (ix2 (n0 := 16384) (n1 := 2) (j 0) 0)).toInt.toNat 7 = t.val)
    (hn : min (idx (ix2 (n0 := 16384) (n1 := 2) (j 0) 1)).toInt.toNat 16383 = n.val) :
    Host.gather gd x idx j = x (ix3 (n0 := 8) (n1 := 16384) (n2 := 128) t n (j 1)) := by
  unfold Host.gather
  congr 1
  funext a
  refine Fin.ext ?_
  match a with
  | ⟨0, _⟩ => exact (coord0 idx j).trans ht
  | ⟨1, _⟩ => exact (coord1 idx j).trans hn
  | ⟨2, _⟩ => exact coord2 idx j

/-! ## The start-index words -/

/-- A small non-negative word is not below zero, so the wrap-around select keeps it. -/
theorem select_keep (a b : BitVec 32) (ha : a.toNat < 2 ^ 31) :
    Scalar.select (IntOp.cmpi .slt a 0#32) b a = a := by
  have h : ¬ (IntOp.cmpi .slt a 0#32 = 1#1) := by
    intro h1
    have h2 := (slt_iff_toNat ha (by decide)).mp h1
    first
      | exact absurd h2 (Nat.not_lt_zero _)
      | simp at h2
  exact if_neg h

/-- A small non-negative word read signed is its value. -/
theorem toInt_toNat (a : BitVec 32) (ha : a.toNat < 2 ^ 31) : a.toInt.toNat = a.toNat := by
  rw [toInt_eq_toNat_of_lt ha]
  first
    | exact Int.toNat_natCast _
    | simp
    | omega

/-- A node's position as a word has the position as its value. -/
theorem toNat_pos (n : Fin 16384) : (BitVec.ofNat 32 n.val).toNat = n.val := by
  rw [BitVec.toNat_ofNat]
  exact Nat.mod_eq_of_lt (by have := n.isLt; omega)

variable {F : FTy → Type} [FloatOps F]

/-- Column 0 of the start indices at row `n`: the node's type word, wrapped when negative. -/
theorem starts_col0 (x1 : (⟨S16384, .i32⟩ : BufTy).Contents (Elt F)) (n : Fin 16384) :
    val_main_v16 (F := F) x1 (ix2 (n0 := 16384) (n1 := 2) n 0) = val_main_v8 (F := F) x1 (ix1 n) := by
  unfold val_main_v16
  refine (concatenate_pair_apply_left (t := S16384x2) (s₁ := S16384x1) (s₂ := S16384x1) (1 : Fin S16384x2.rank) (val_main_v14 (F := F) x1) (val_main_v15 (F := F))
    concatenates_S16384x1_S16384x1_S16384x2_d1 (ix2 (n0 := 16384) (n1 := 2) n 0) rfl (ix2 (n0 := 16384) (n1 := 1) n 0)
    (fun b => match b with
      | ⟨0, _⟩ => rfl
      | ⟨1, _⟩ => rfl)).trans ?_
  rw [val_main_v14_apply]
  exact congrArg (val_main_v8 (F := F) x1) (by funext a; match a with | ⟨0, _⟩ => rfl)

/-- Column 1 of the start indices at row `n`: the node's position word, wrapped when negative. -/
theorem starts_col1 (x1 : (⟨S16384, .i32⟩ : BufTy).Contents (Elt F)) (n : Fin 16384) :
    val_main_v16 (F := F) x1 (ix2 (n0 := 16384) (n1 := 2) n 1) = val_main_v13 (F := F) (ix1 n) := by
  unfold val_main_v16
  refine (concatenate_pair_apply_right (t := S16384x2) (s₁ := S16384x1) (s₂ := S16384x1) (1 : Fin S16384x2.rank) (val_main_v14 (F := F) x1) (val_main_v15 (F := F))
    concatenates_S16384x1_S16384x1_S16384x2_d1 (ix2 (n0 := 16384) (n1 := 2) n 1) rfl rfl (ix2 (n0 := 16384) (n1 := 1) n 0)
    (fun b => match b with
      | ⟨0, _⟩ => fun _ => rfl
      | ⟨1, _⟩ => fun h => absurd rfl h) rfl).trans ?_
  rw [val_main_v15_apply]
  exact congrArg (val_main_v13 (F := F)) (by funext a; match a with | ⟨0, _⟩ => rfl)

/-- The wrapped type word of a node whose type is in range is the type word. -/
theorem type_word (x1 : (⟨S16384, .i32⟩ : BufTy).Contents (Elt F)) (n : Fin 16384) (h : (x1 (ix1 n)).toNat < 8) :
    val_main_v8 (F := F) x1 (ix1 n) = x1 (ix1 n) := by
  rw [val_main_v8_apply, val_main_v5_apply, val_main_v4_apply, val_main_c_apply]
  exact select_keep (x1 (ix1 n)) _ (by omega)

/-- The wrapped position word of a node is its position word. -/
theorem pos_word (n : Fin 16384) : val_main_v13 (F := F) (ix1 n) = BitVec.ofNat 32 n.val := by
  have e : val_main_v3 (F := F) (ix1 n) = BitVec.ofNat 32 n.val := rfl
  rw [val_main_v13_apply, val_main_v10_apply, val_main_v9_apply, val_main_c_1_apply, e]
  exact select_keep (BitVec.ofNat 32 n.val) _ (by rw [toNat_pos]; have := n.isLt; omega)

/-- THE REFERENCE'S GATHER AT AN INDEX, on the domain: the per-type outputs at the node's own type, the node, the feature. -/
theorem gather_own_type {α : Type} (x : S8x16384x128.Idx → α) (x1 : (⟨S16384, .i32⟩ : BufTy).Contents (Elt F))
    (hnt : ∀ n : Fin 16384, (x1 (ix1 n)).toNat < 8) (n : Fin 16384) (o : Fin 128) :
    Host.gather gd x (val_main_v16 (F := F) x1) (ix2 (n0 := 16384) (n1 := 128) n o)
      = x (ix3 (n0 := 8) (n1 := 16384) (n2 := 128) ⟨(x1 (ix1 n)).toNat, hnt n⟩ n o) := by
  have h8 := hnt n
  refine gather_apply x (val_main_v16 (F := F) x1) (ix2 (n0 := 16384) (n1 := 128) n o) ⟨(x1 (ix1 n)).toNat, hnt n⟩ n ?_ ?_
  · show min (val_main_v16 (F := F) x1 (ix2 (n0 := 16384) (n1 := 2) n 0)).toInt.toNat 7 = (x1 (ix1 n)).toNat
    rw [starts_col0, type_word x1 n h8, toInt_toNat (x1 (ix1 n)) (by omega)]
    omega
  · show min (val_main_v16 (F := F) x1 (ix2 (n0 := 16384) (n1 := 2) n 1)).toInt.toNat 16383 = n.val
    rw [starts_col1, pos_word, toInt_toNat (BitVec.ofNat 32 n.val) (by rw [toNat_pos]; have := n.isLt; omega), toNat_pos]
    have := n.isLt
    omega

end Cert.RefGather

end
-- ==== Proof.RefLogits.lean ====
/-
  The reference's result is the specification's `logits`: read one operation at a time, the gather of each node's own
  type's row out of the per-type outputs, on the domain where every node type is below 8.
-/
import proofs.«410506_j65481071397259_3_alg».proof.Proof.Gen.ReferenceIdeal.Read
import proofs.«410506_j65481071397259_3_alg».proof.Proof.Spec
import proofs.«410506_j65481071397259_3_alg».proof.Proof.RefGather

noncomputable section

open scoped BigOperators

namespace Cert.RefLogits

open Idealize.ShloMosaic Idealize.ShloMosaic.ValueIdx Cert.ReferenceIdeal Cert.ReferenceIdeal.Read

/-- The gathered per-type output at node `n`, feature `o`: the node's own type's matrix applied to the neighbourhood sums. -/
theorem own_type_out (h : (⟨S16384x128, .f32⟩ : BufTy).Contents (Elt Ideal)) (x1 : (⟨S16384, .i32⟩ : BufTy).Contents (Elt Ideal))
    (x2 : (⟨S16384x16384, .f32⟩ : BufTy).Contents (Elt Ideal)) (W : (⟨S8x128x128, .f32⟩ : BufTy).Contents (Elt Ideal))
    (hnt : ∀ n : Fin 16384, (x1 (ix1 n)).toNat < 8) (n : Fin 16384) (o : Fin 128) :
    val_main_v17 (F := Ideal) h x1 x2 W (ix2 (n0 := 16384) (n1 := 128) n o)
      = ∑ i : Fin 128, Cert.Spec.agg x2 h n i * W (ix3 (Cert.Spec.tyIdx x1 n) o i) := by
  refine (Cert.RefGather.gather_own_type (F := Ideal) (val_main_v2 (F := Ideal) h x2 W) x1 hnt n o).trans ?_
  rw [val_main_v2_apply, val_main_v1_apply]
  refine Finset.sum_congr rfl fun k _ => ?_
  rw [val_main_v0_apply]
  refine (mul_comm _ _).trans ?_
  refine congrArg₂ (fun (a b : EReal) => a * b) ?_ (congrArg W ?_)
  · show _ = ∑ m : Fin 16384, x2 (ix2 n m) * h (ix2 m k)
    refine Finset.sum_congr rfl fun m _ => ?_
    exact congrArg₂ (fun (a b : EReal) => a * b)
      (congrArg x2 (by funext a; match a with | ⟨0, _⟩ => rfl | ⟨1, _⟩ => rfl))
      (congrArg h (by funext a; match a with | ⟨0, _⟩ => rfl | ⟨1, _⟩ => rfl))
  · funext a
    refine Fin.ext ?_
    match a with
    | ⟨0, _⟩ => exact (Nat.mod_eq_of_lt (hnt n)).symm
    | ⟨1, _⟩ => rfl
    | ⟨2, _⟩ => rfl

/-- One layer of the reference (aggregate, per-type outputs, gather of the own type's row, clamp at zero) is the
    specification's layer. -/
theorem layer_eq (h : (⟨S16384x128, .f32⟩ : BufTy).Contents (Elt Ideal)) (x1 : (⟨S16384, .i32⟩ : BufTy).Contents (Elt Ideal))
    (x2 : (⟨S16384x16384, .f32⟩ : BufTy).Contents (Elt Ideal)) (W : (⟨S8x128x128, .f32⟩ : BufTy).Contents (Elt Ideal))
    (hnt : ∀ n : Fin 16384, (x1 (ix1 n)).toNat < 8) :
    val_main_v18 (F := Ideal) h x1 x2 W = Cert.Spec.layer x2 x1 W h := by
  funext j
  obtain ⟨n, o, rfl⟩ : ∃ (n : Fin 16384) (o : Fin 128), j = ix2 (n0 := 16384) (n1 := 128) n o := ⟨j 0, j 1, eq_ix2 j⟩
  rw [val_main_v18_apply, own_type_out h x1 x2 W hnt n o, val_main_call0_v0_apply, val_main_call0_cst_apply]
  simp only [Ideal.ofBits_def, Ideal.ofBits_zero_f32, Ideal.maximumf_def]
  rfl

/-- The second layer's operations are the first layer's, applied to the first layer's result and the second weight stack. -/
theorem second_layer (x0 : (⟨S16384x128, .f32⟩ : BufTy).Contents (Elt Ideal)) (x1 : (⟨S16384, .i32⟩ : BufTy).Contents (Elt Ideal))
    (x2 : (⟨S16384x16384, .f32⟩ : BufTy).Contents (Elt Ideal)) (x3 x4 : (⟨S8x128x128, .f32⟩ : BufTy).Contents (Elt Ideal)) :
    val_main_v37 (F := Ideal) x0 x1 x2 x3 x4 = val_main_v18 (F := Ideal) (val_main_v18 (F := Ideal) x0 x1 x2 x3) x1 x2 x4 := rfl

/-- The reference's last stage, at the ideal instance, is `Spec.logits` of the arguments, when every node type is in range. -/
theorem ref_is_logits (x0 : (⟨S16384x128, .f32⟩ : BufTy).Contents (Elt Ideal)) (x1 : (⟨S16384, .i32⟩ : BufTy).Contents (Elt Ideal))
    (x2 : (⟨S16384x16384, .f32⟩ : BufTy).Contents (Elt Ideal)) (x3 x4 : (⟨S8x128x128, .f32⟩ : BufTy).Contents (Elt Ideal))
    (x5 : (⟨S16x128, .f32⟩ : BufTy).Contents (Elt Ideal)) (x6 : (⟨S16, .f32⟩ : BufTy).Contents (Elt Ideal))
    (hnt : ∀ n : Fin 16384, (x1 (ix1 n)).toNat < 8) :
    val_main_v42 (F := Ideal) x0 x1 x2 x3 x4 x5 x6 = Cert.Spec.logits x2 x1 x3 x4 x5 x6 x0 := by
  have h37 : val_main_v37 (F := Ideal) x0 x1 x2 x3 x4 = Cert.Spec.layer x2 x1 x4 (Cert.Spec.layer x2 x1 x3 x0) := by
    rw [second_layer, layer_eq x0 x1 x2 x3 hnt]
    exact layer_eq _ x1 x2 x4 hnt
  funext j
  obtain ⟨n, c, rfl⟩ : ∃ (n : Fin 16384) (c : Fin 16), j = ix2 (n0 := 16384) (n1 := 16) n c := ⟨j 0, j 1, eq_ix2 j⟩
  rw [val_main_v42_apply, val_main_v39_apply, val_main_v41_apply, val_main_v40_apply, h37]
  simp only [val_main_v38_apply, Ideal.addf_def]
  show _ = (∑ i : Fin 128, Cert.Spec.layer x2 x1 x4 (Cert.Spec.layer x2 x1 x3 x0) (ix2 n i) * x5 (ix2 c i)) + x6 (ix1 c)
  refine congrArg₂ (fun (a b : EReal) => a + b) ?_ (congrArg x6 ?_)
  · refine Finset.sum_congr rfl fun k _ => ?_
    exact congrArg₂ (fun (a b : EReal) => a * b)
      (congrArg (Cert.Spec.layer x2 x1 x4 (Cert.Spec.layer x2 x1 x3 x0)) (by funext a; match a with | ⟨0, _⟩ => rfl | ⟨1, _⟩ => rfl))
      (congrArg x5 (by funext a; match a with | ⟨0, _⟩ => rfl | ⟨1, _⟩ => rfl))
  · funext a
    match a with
    | ⟨0, _⟩ => rfl

end Cert.RefLogits

end
-- ==== Proof.PreRange.lean ====
/-
  What the precondition says of the node types: each is a word between 0 and 7 (read signed), hence below 8 as a natural number.
-/
import proofs.«410506_j65481071397259_3_alg».proof.Pre_finite_inputs
import proofs.«410506_j65481071397259_3_alg».proof.Proof.Gen.Pre_finite_inputs
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Cert.Pre_finite_inputs

variable {F : FTy → Type} [FloatOps F] [Cert.Pre_finite_inputs.Facts]

/-- The scalar shape has exactly one index: a reduction over every axis lands at it. -/
instance subsingleton_scalar_idx : Subsingleton S_.Idx := ⟨fun _ _ => funext fun d => d.elim0⟩

/-- A 32-bit word that is at least 0 and below 8 when read signed has its sign bit clear, so its unsigned value is the
    signed one, and that is below 8. -/
theorem toNat_lt_eight (w : BitVec 32) (h0 : IntOp.cmpi .sge w 0#32 = 1#1) (h8 : IntOp.cmpi .slt w 8#32 = 1#1) :
    w.toNat < 8 := by
  -- the two comparisons, read back as inequalities between signed values
  have h0' : (0#32 : BitVec 32).toInt ≤ w.toInt := IntOp.cmpi_sge.1 h0
  have h8' : w.toInt < (8#32 : BitVec 32).toInt := IntOp.cmpi_slt.1 h8
  have z0 : (0#32 : BitVec 32).toInt = 0 := by first | decide | rfl
  have z8 : (8#32 : BitVec 32).toInt = 8 := by first | decide | rfl
  rw [z0] at h0'
  rw [z8] at h8'
  -- a non-negative signed value means the sign bit is clear, and then the signed value is the unsigned one
  have hs : 2 * w.toNat < 2 ^ 32 := BitVec.toInt_pos_iff.1 h0'
  rw [BitVec.toInt_eq_toNat_of_lt hs] at h8'
  omega

/-- Under the precondition every node type, read as a natural number, is below 8. -/
theorem nt_lt (a0 : FVec F S16384x128 .f32) (a1 : IVec S16384 32) (a2 : FVec F S16384x16384 .f32) (a3 a4 : FVec F S8x128x128 .f32)
    (a5 : FVec F S16x128 .f32) (a6 : FVec F S16 .f32)
    (h : Cert.Pre_finite_inputs.fn (F := F) a0 a1 a2 a3 a4 a5 a6 = fun _ => 1#1) :
    ∀ n : Fin 16384, (a1 (ix1 n)).toNat < 8 := by
  intro n
  -- the precondition at the scalar's one index: a left-nested conjunction of eight one-bit words, each 1
  have e := congrFun h ix0
  unfold Cert.Pre_finite_inputs.fn Cert.Pre_finite_inputs.fn_part1 Cert.Pre_finite_inputs.fn_part2 at e
  simp only [andi, IntOp.andi_eq_one] at e
  -- the last two conjuncts are the reductions by "and" of "0 ≤ node type" and of "node type < 8" over all 16384 nodes
  obtain ⟨⟨-, hge⟩, hlt⟩ := e
  -- a reduction by "and" over every axis that came out 1 had a 1 at each element: read both at node n
  have hge_n := Host.reduce_andi_all _ _ _ _ _ hge (ix1 n)
  have hlt_n := Host.reduce_andi_all _ _ _ _ _ hlt (ix1 n)
  -- the comparison at node n compares the node's word with the broadcast scalar constant, which reads 0 (resp. 8) everywhere
  first
    | exact toNat_lt_eight (a1 (ix1 n)) hge_n hlt_n
    | (simp only [cmpi, broadcastInDim, constantI] at hge_n hlt_n
       exact toNat_lt_eight (a1 (ix1 n)) hge_n hlt_n)

end Cert.PreRange

end
-- ==== Proof.lean ====
/-
  The certificate of the two-layer typed graph convolution with a linear read-out.

  Both programs compute, over the extended reals, logits[n, c] = Σ_i h2[n, i] · Wc[c, i] + bc[c] with
  h2 = layer(W2, layer(W1, x)) and layer(W, h)[n, o] = max(Σ_i (Σ_k adj[n, k] · h[k, i]) · W[type n, o, i], 0).
  The reference forms every type's product and gathers each node's own; the kernel accumulates the neighbourhood sum
  over eight column blocks of the adjacency, then keeps, by a chain of selects, the product of the row's own type.
  The two agree where every node type is one of the eight types — the precondition says so, and outside it the
  reference's gather indexes out of range. Sums are only re-associated and re-indexed, and one product is commuted
  under a sum: no law that needs finiteness is used.
  The kernel program's frame (both instances) is proved over the launch of its two regions; the reference's is its
  generated run.
-/
import proofs.«410506_j65481071397259_3_alg».proof.Defs
import proofs.«410506_j65481071397259_3_alg».proof.Proof.Gen.Kernel
import proofs.«410506_j65481071397259_3_alg».proof.Proof.Gen.KernelIdeal
import proofs.«410506_j65481071397259_3_alg».proof.Proof.Gen.ReferenceIdeal
import proofs.«410506_j65481071397259_3_alg».proof.Proof.Gen.Pre_finite_inputs
import proofs.«410506_j65481071397259_3_alg».proof.Proof.Gen.ReferenceIdeal.Run
import proofs.«410506_j65481071397259_3_alg».proof.Proof.Gen.ReferenceIdeal.Read
import proofs.«410506_j65481071397259_3_alg».proof.Proof.K.Frame
import proofs.«410506_j65481071397259_3_alg».proof.Proof.KI.Final
import proofs.«410506_j65481071397259_3_alg».proof.Proof.RefLogits
import proofs.«410506_j65481071397259_3_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the specification's logits of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  have hrange : ∀ (c : Dev Cert.KernelIdeal.nD) (n : Fin 16384), (Cert.KernelIdeal.Hand.ntM m c (ix1 n)).toNat < 8 :=
    fun c => Cert.PreRange.nt_lt (F := Ideal) _ _ _ _ _ _ _ (hpre c)
  refine ⟨fun c => Cert.Spec.logits (Cert.KernelIdeal.Hand.adjM m c) (Cert.KernelIdeal.Hand.ntM m c) (Cert.KernelIdeal.Hand.W1M m c)
    (Cert.KernelIdeal.Hand.W2M m c) (Cert.KernelIdeal.Hand.WcM m c) (Cert.KernelIdeal.Hand.bcM m c) (Cert.KernelIdeal.Hand.xM m c), ?_, ?_⟩
  · exact (θ_run Cert.KernelIdeal.defs _ _).mono
      (fun _ h c => ⟨(h c).1.trans (Cert.KernelIdeal.Hand.logits_eq m c (hrange c)), (h c).2⟩)
      (Cert.KernelIdeal.Hand.run_all m ρ)
  · refine (θ_run Cert.ReferenceIdeal.defs _ _).mono (fun _ h c => ⟨?_, (h c).2⟩)
      (Cert.ReferenceIdeal.Value.run (F := Ideal) m' ρ')
    refine (h c).1.trans ?_
    rw [(hagree c).1, (hagree c).2.1, (hagree c).2.2.1, (hagree c).2.2.2.1, (hagree c).2.2.2.2.1, (hagree c).2.2.2.2.2.1, (hagree c).2.2.2.2.2.2]
    exact (Cert.ReferenceIdeal.Read.val_main_v42_eq (F := Ideal) _ _ _ _ _ _ _).trans
      (Cert.RefLogits.ref_is_logits _ _ _ _ _ _ _ (hrange c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
